-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S2048x1024 : Shape := ⟨2, ![2048, 1024]⟩
abbrev S1x1024 : Shape := ⟨2, ![1, 1024]⟩
abbrev S8 : Shape := ⟨1, ![8]⟩
abbrev S32x1024 : Shape := ⟨2, ![32, 1024]⟩
abbrev S31 : Shape := ⟨1, ![31]⟩
abbrev S_ : Shape := ⟨0, ![]⟩
abbrev S1 : Shape := ⟨1, ![1]⟩
abbrev S256x1024 : Shape := ⟨2, ![256, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S2048x1024, .f32⟩
  | .local _ .vmem, ⟨2, _⟩ => ⟨S32x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v223 : Index := Scalar.indexCast v2
  let c0_212 : Index := 0#32
  ![v223.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_220 : BitVec 32 := 0#32
  ![v2.toNat, 0]
def k0_dev32 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_214 : BitVec 32 := 1#32
  let v227 : BitVec 32 := Scalar.addi v2 c1_i32_214
  let c32_i32_215 : BitVec 32 := 32#32
  let v228 : BitVec 32 := Scalar.remsi v227 c32_i32_215
  let c1_i32_218 : BitVec 32 := 1#32
  let v229 : BitVec 32 := Scalar.muli v228 c1_i32_218
  let v230 : BitVec 32 := Scalar.addi c0_i32_219 v229
  v230.toNat
def k0_dev33 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_222 : BitVec 32 := 2#32
  let v237 : BitVec 32 := Scalar.addi v2 c2_i32_222
  let c32_i32_223 : BitVec 32 := 32#32
  let v238 : BitVec 32 := Scalar.remsi v237 c32_i32_223
  let c1_i32_226 : BitVec 32 := 1#32
  let v239 : BitVec 32 := Scalar.muli v238 c1_i32_226
  let v240 : BitVec 32 := Scalar.addi c0_i32_227 v239
  v240.toNat
def k0_dev34 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_230 : BitVec 32 := 3#32
  let v247 : BitVec 32 := Scalar.addi v2 c3_i32_230
  let c32_i32_231 : BitVec 32 := 32#32
  let v248 : BitVec 32 := Scalar.remsi v247 c32_i32_231
  let c1_i32_234 : BitVec 32 := 1#32
  let v249 : BitVec 32 := Scalar.muli v248 c1_i32_234
  let v250 : BitVec 32 := Scalar.addi c0_i32_235 v249
  v250.toNat
def k0_dev35 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_238 : BitVec 32 := 4#32
  let v257 : BitVec 32 := Scalar.addi v2 c4_i32_238
  let c32_i32_239 : BitVec 32 := 32#32
  let v258 : BitVec 32 := Scalar.remsi v257 c32_i32_239
  let c1_i32_242 : BitVec 32 := 1#32
  let v259 : BitVec 32 := Scalar.muli v258 c1_i32_242
  let v260 : BitVec 32 := Scalar.addi c0_i32_243 v259
  v260.toNat
def k0_dev36 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_246 : BitVec 32 := 5#32
  let v267 : BitVec 32 := Scalar.addi v2 c5_i32_246
  let c32_i32_247 : BitVec 32 := 32#32
  let v268 : BitVec 32 := Scalar.remsi v267 c32_i32_247
  let c1_i32_250 : BitVec 32 := 1#32
  let v269 : BitVec 32 := Scalar.muli v268 c1_i32_250
  let v270 : BitVec 32 := Scalar.addi c0_i32_251 v269
  v270.toNat
def k0_dev37 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_254 : BitVec 32 := 6#32
  let v277 : BitVec 32 := Scalar.addi v2 c6_i32_254
  let c32_i32_255 : BitVec 32 := 32#32
  let v278 : BitVec 32 := Scalar.remsi v277 c32_i32_255
  let c1_i32_258 : BitVec 32 := 1#32
  let v279 : BitVec 32 := Scalar.muli v278 c1_i32_258
  let v280 : BitVec 32 := Scalar.addi c0_i32_259 v279
  v280.toNat
def k0_dev38 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_262 : BitVec 32 := 7#32
  let v287 : BitVec 32 := Scalar.addi v2 c7_i32_262
  let c32_i32_263 : BitVec 32 := 32#32
  let v288 : BitVec 32 := Scalar.remsi v287 c32_i32_263
  let c1_i32_266 : BitVec 32 := 1#32
  let v289 : BitVec 32 := Scalar.muli v288 c1_i32_266
  let v290 : BitVec 32 := Scalar.addi c0_i32_267 v289
  v290.toNat
def k0_dev39 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_270 : BitVec 32 := 8#32
  let v297 : BitVec 32 := Scalar.addi v2 c8_i32_270
  let c32_i32_271 : BitVec 32 := 32#32
  let v298 : BitVec 32 := Scalar.remsi v297 c32_i32_271
  let c1_i32_274 : BitVec 32 := 1#32
  let v299 : BitVec 32 := Scalar.muli v298 c1_i32_274
  let v300 : BitVec 32 := Scalar.addi c0_i32_275 v299
  v300.toNat
def k0_dev40 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_278 : BitVec 32 := 9#32
  let v307 : BitVec 32 := Scalar.addi v2 c9_i32_278
  let c32_i32_279 : BitVec 32 := 32#32
  let v308 : BitVec 32 := Scalar.remsi v307 c32_i32_279
  let c1_i32_282 : BitVec 32 := 1#32
  let v309 : BitVec 32 := Scalar.muli v308 c1_i32_282
  let v310 : BitVec 32 := Scalar.addi c0_i32_283 v309
  v310.toNat
def k0_dev41 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_286 : BitVec 32 := 10#32
  let v317 : BitVec 32 := Scalar.addi v2 c10_i32_286
  let c32_i32_287 : BitVec 32 := 32#32
  let v318 : BitVec 32 := Scalar.remsi v317 c32_i32_287
  let c1_i32_290 : BitVec 32 := 1#32
  let v319 : BitVec 32 := Scalar.muli v318 c1_i32_290
  let v320 : BitVec 32 := Scalar.addi c0_i32_291 v319
  v320.toNat
def k0_dev42 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_294 : BitVec 32 := 11#32
  let v327 : BitVec 32 := Scalar.addi v2 c11_i32_294
  let c32_i32_295 : BitVec 32 := 32#32
  let v328 : BitVec 32 := Scalar.remsi v327 c32_i32_295
  let c1_i32_298 : BitVec 32 := 1#32
  let v329 : BitVec 32 := Scalar.muli v328 c1_i32_298
  let v330 : BitVec 32 := Scalar.addi c0_i32_299 v329
  v330.toNat
def k0_dev43 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_302 : BitVec 32 := 12#32
  let v337 : BitVec 32 := Scalar.addi v2 c12_i32_302
  let c32_i32_303 : BitVec 32 := 32#32
  let v338 : BitVec 32 := Scalar.remsi v337 c32_i32_303
  let c1_i32_306 : BitVec 32 := 1#32
  let v339 : BitVec 32 := Scalar.muli v338 c1_i32_306
  let v340 : BitVec 32 := Scalar.addi c0_i32_307 v339
  v340.toNat
def k0_dev44 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_310 : BitVec 32 := 13#32
  let v347 : BitVec 32 := Scalar.addi v2 c13_i32_310
  let c32_i32_311 : BitVec 32 := 32#32
  let v348 : BitVec 32 := Scalar.remsi v347 c32_i32_311
  let c1_i32_314 : BitVec 32 := 1#32
  let v349 : BitVec 32 := Scalar.muli v348 c1_i32_314
  let v350 : BitVec 32 := Scalar.addi c0_i32_315 v349
  v350.toNat
def k0_dev45 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_318 : BitVec 32 := 14#32
  let v357 : BitVec 32 := Scalar.addi v2 c14_i32_318
  let c32_i32_319 : BitVec 32 := 32#32
  let v358 : BitVec 32 := Scalar.remsi v357 c32_i32_319
  let c1_i32_322 : BitVec 32 := 1#32
  let v359 : BitVec 32 := Scalar.muli v358 c1_i32_322
  let v360 : BitVec 32 := Scalar.addi c0_i32_323 v359
  v360.toNat
def k0_dev46 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_326 : BitVec 32 := 15#32
  let v367 : BitVec 32 := Scalar.addi v2 c15_i32_326
  let c32_i32_327 : BitVec 32 := 32#32
  let v368 : BitVec 32 := Scalar.remsi v367 c32_i32_327
  let c1_i32_330 : BitVec 32 := 1#32
  let v369 : BitVec 32 := Scalar.muli v368 c1_i32_330
  let v370 : BitVec 32 := Scalar.addi c0_i32_331 v369
  v370.toNat
def k0_dev47 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_334 : BitVec 32 := 16#32
  let v377 : BitVec 32 := Scalar.addi v2 c16_i32_334
  let c32_i32_335 : BitVec 32 := 32#32
  let v378 : BitVec 32 := Scalar.remsi v377 c32_i32_335
  let c1_i32_338 : BitVec 32 := 1#32
  let v379 : BitVec 32 := Scalar.muli v378 c1_i32_338
  let v380 : BitVec 32 := Scalar.addi c0_i32_339 v379
  v380.toNat
def k0_dev48 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_342 : BitVec 32 := 17#32
  let v387 : BitVec 32 := Scalar.addi v2 c17_i32_342
  let c32_i32_343 : BitVec 32 := 32#32
  let v388 : BitVec 32 := Scalar.remsi v387 c32_i32_343
  let c1_i32_346 : BitVec 32 := 1#32
  let v389 : BitVec 32 := Scalar.muli v388 c1_i32_346
  let v390 : BitVec 32 := Scalar.addi c0_i32_347 v389
  v390.toNat
def k0_dev49 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_350 : BitVec 32 := 18#32
  let v397 : BitVec 32 := Scalar.addi v2 c18_i32_350
  let c32_i32_351 : BitVec 32 := 32#32
  let v398 : BitVec 32 := Scalar.remsi v397 c32_i32_351
  let c1_i32_354 : BitVec 32 := 1#32
  let v399 : BitVec 32 := Scalar.muli v398 c1_i32_354
  let v400 : BitVec 32 := Scalar.addi c0_i32_355 v399
  v400.toNat
def k0_dev50 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_358 : BitVec 32 := 19#32
  let v407 : BitVec 32 := Scalar.addi v2 c19_i32_358
  let c32_i32_359 : BitVec 32 := 32#32
  let v408 : BitVec 32 := Scalar.remsi v407 c32_i32_359
  let c1_i32_362 : BitVec 32 := 1#32
  let v409 : BitVec 32 := Scalar.muli v408 c1_i32_362
  let v410 : BitVec 32 := Scalar.addi c0_i32_363 v409
  v410.toNat
def k0_dev51 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_366 : BitVec 32 := 20#32
  let v417 : BitVec 32 := Scalar.addi v2 c20_i32_366
  let c32_i32_367 : BitVec 32 := 32#32
  let v418 : BitVec 32 := Scalar.remsi v417 c32_i32_367
  let c1_i32_370 : BitVec 32 := 1#32
  let v419 : BitVec 32 := Scalar.muli v418 c1_i32_370
  let v420 : BitVec 32 := Scalar.addi c0_i32_371 v419
  v420.toNat
def k0_dev52 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_374 : BitVec 32 := 21#32
  let v427 : BitVec 32 := Scalar.addi v2 c21_i32_374
  let c32_i32_375 : BitVec 32 := 32#32
  let v428 : BitVec 32 := Scalar.remsi v427 c32_i32_375
  let c1_i32_378 : BitVec 32 := 1#32
  let v429 : BitVec 32 := Scalar.muli v428 c1_i32_378
  let v430 : BitVec 32 := Scalar.addi c0_i32_379 v429
  v430.toNat
def k0_dev53 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_382 : BitVec 32 := 22#32
  let v437 : BitVec 32 := Scalar.addi v2 c22_i32_382
  let c32_i32_383 : BitVec 32 := 32#32
  let v438 : BitVec 32 := Scalar.remsi v437 c32_i32_383
  let c1_i32_386 : BitVec 32 := 1#32
  let v439 : BitVec 32 := Scalar.muli v438 c1_i32_386
  let v440 : BitVec 32 := Scalar.addi c0_i32_387 v439
  v440.toNat
def k0_dev54 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_390 : BitVec 32 := 23#32
  let v447 : BitVec 32 := Scalar.addi v2 c23_i32_390
  let c32_i32_391 : BitVec 32 := 32#32
  let v448 : BitVec 32 := Scalar.remsi v447 c32_i32_391
  let c1_i32_394 : BitVec 32 := 1#32
  let v449 : BitVec 32 := Scalar.muli v448 c1_i32_394
  let v450 : BitVec 32 := Scalar.addi c0_i32_395 v449
  v450.toNat
def k0_dev55 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_398 : BitVec 32 := 24#32
  let v457 : BitVec 32 := Scalar.addi v2 c24_i32_398
  let c32_i32_399 : BitVec 32 := 32#32
  let v458 : BitVec 32 := Scalar.remsi v457 c32_i32_399
  let c1_i32_402 : BitVec 32 := 1#32
  let v459 : BitVec 32 := Scalar.muli v458 c1_i32_402
  let v460 : BitVec 32 := Scalar.addi c0_i32_403 v459
  v460.toNat
def k0_dev56 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_406 : BitVec 32 := 25#32
  let v467 : BitVec 32 := Scalar.addi v2 c25_i32_406
  let c32_i32_407 : BitVec 32 := 32#32
  let v468 : BitVec 32 := Scalar.remsi v467 c32_i32_407
  let c1_i32_410 : BitVec 32 := 1#32
  let v469 : BitVec 32 := Scalar.muli v468 c1_i32_410
  let v470 : BitVec 32 := Scalar.addi c0_i32_411 v469
  v470.toNat
def k0_dev57 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_414 : BitVec 32 := 26#32
  let v477 : BitVec 32 := Scalar.addi v2 c26_i32_414
  let c32_i32_415 : BitVec 32 := 32#32
  let v478 : BitVec 32 := Scalar.remsi v477 c32_i32_415
  let c1_i32_418 : BitVec 32 := 1#32
  let v479 : BitVec 32 := Scalar.muli v478 c1_i32_418
  let v480 : BitVec 32 := Scalar.addi c0_i32_419 v479
  v480.toNat
def k0_dev58 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_422 : BitVec 32 := 27#32
  let v487 : BitVec 32 := Scalar.addi v2 c27_i32_422
  let c32_i32_423 : BitVec 32 := 32#32
  let v488 : BitVec 32 := Scalar.remsi v487 c32_i32_423
  let c1_i32_426 : BitVec 32 := 1#32
  let v489 : BitVec 32 := Scalar.muli v488 c1_i32_426
  let v490 : BitVec 32 := Scalar.addi c0_i32_427 v489
  v490.toNat
def k0_dev59 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_430 : BitVec 32 := 28#32
  let v497 : BitVec 32 := Scalar.addi v2 c28_i32_430
  let c32_i32_431 : BitVec 32 := 32#32
  let v498 : BitVec 32 := Scalar.remsi v497 c32_i32_431
  let c1_i32_434 : BitVec 32 := 1#32
  let v499 : BitVec 32 := Scalar.muli v498 c1_i32_434
  let v500 : BitVec 32 := Scalar.addi c0_i32_435 v499
  v500.toNat
def k0_dev60 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_438 : BitVec 32 := 29#32
  let v507 : BitVec 32 := Scalar.addi v2 c29_i32_438
  let c32_i32_439 : BitVec 32 := 32#32
  let v508 : BitVec 32 := Scalar.remsi v507 c32_i32_439
  let c1_i32_442 : BitVec 32 := 1#32
  let v509 : BitVec 32 := Scalar.muli v508 c1_i32_442
  let v510 : BitVec 32 := Scalar.addi c0_i32_443 v509
  v510.toNat
def k0_dev61 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_446 : BitVec 32 := 30#32
  let v517 : BitVec 32 := Scalar.addi v2 c30_i32_446
  let c32_i32_447 : BitVec 32 := 32#32
  let v518 : BitVec 32 := Scalar.remsi v517 c32_i32_447
  let c1_i32_450 : BitVec 32 := 1#32
  let v519 : BitVec 32 := Scalar.muli v518 c1_i32_450
  let v520 : BitVec 32 := Scalar.addi c0_i32_451 v519
  v520.toNat
def k0_dev62 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_454 : BitVec 32 := 31#32
  let v527 : BitVec 32 := Scalar.addi v2 c31_i32_454
  let c32_i32_455 : BitVec 32 := 32#32
  let v528 : BitVec 32 := Scalar.remsi v527 c32_i32_455
  let c1_i32_458 : BitVec 32 := 1#32
  let v529 : BitVec 32 := Scalar.muli v528 c1_i32_458
  let v530 : BitVec 32 := Scalar.addi c0_i32_459 v529
  v530.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S8_S1_0 : ∀ a, (![0] : Fin 1 → Nat) a + S1.size a ≤ S8.size a
  squeezes_S1_S_ : S1.Squeezes S_
  inb_S2048x1024_S256x1024_0_0 : ∀ a, (![0, 0] : Fin 2 → Nat) a + S256x1024.size a ≤ S2048x1024.size a
  inb_S8_S1_1 : ∀ a, (![1] : Fin 1 → Nat) a + S1.size a ≤ S8.size a
  inb_S2048x1024_S256x1024_256_0 : ∀ a, (![256, 0] : Fin 2 → Nat) a + S256x1024.size a ≤ S2048x1024.size a
  inb_S8_S1_2 : ∀ a, (![2] : Fin 1 → Nat) a + S1.size a ≤ S8.size a
  inb_S2048x1024_S256x1024_512_0 : ∀ a, (![512, 0] : Fin 2 → Nat) a + S256x1024.size a ≤ S2048x1024.size a
  inb_S8_S1_3 : ∀ a, (![3] : Fin 1 → Nat) a + S1.size a ≤ S8.size a
  inb_S2048x1024_S256x1024_768_0 : ∀ a, (![768, 0] : Fin 2 → Nat) a + S256x1024.size a ≤ S2048x1024.size a
  inb_S8_S1_4 : ∀ a, (![4] : Fin 1 → Nat) a + S1.size a ≤ S8.size a
  inb_S2048x1024_S256x1024_1024_0 : ∀ a, (![1024, 0] : Fin 2 → Nat) a + S256x1024.size a ≤ S2048x1024.size a
  inb_S8_S1_5 : ∀ a, (![5] : Fin 1 → Nat) a + S1.size a ≤ S8.size a
  inb_S2048x1024_S256x1024_1280_0 : ∀ a, (![1280, 0] : Fin 2 → Nat) a + S256x1024.size a ≤ S2048x1024.size a
  inb_S8_S1_6 : ∀ a, (![6] : Fin 1 → Nat) a + S1.size a ≤ S8.size a
  inb_S2048x1024_S256x1024_1536_0 : ∀ a, (![1536, 0] : Fin 2 → Nat) a + S256x1024.size a ≤ S2048x1024.size a
  inb_S8_S1_7 : ∀ a, (![7] : Fin 1 → Nat) a + S1.size a ≤ S8.size a
  inb_S2048x1024_S256x1024_1792_0 : ∀ a, (![1792, 0] : Fin 2 → Nat) a + S256x1024.size a ≤ S2048x1024.size a
  h_S256x1024 : 0 < S256x1024.numel
  reduces_S256x1024_S1024 : S256x1024.Reduces [0] S1024
  shapeCasts_S1024_S1x1024 : S1024.ShapeCasts S1x1024
  h_S1x1024 : 0 < S1x1024.numel
  shapeCasts_S1x1024_S1x1024 : S1x1024.ShapeCasts S1x1024
  hamt_31 : (31#32 : BitVec 32).msb = false
  inb_S31_S1_0 : ∀ a, (![0] : Fin 1 → Nat) a + S1.size a ≤ S31.size a
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  inb_S31_S1_30 : ∀ a, (![30] : Fin 1 → Nat) a + S1.size a ≤ S31.size a
  inb_S32x1024_S32x1024_0_0 : ∀ a, (![0, 0] : Fin 2 → Nat) a + S32x1024.size a ≤ S32x1024.size a
  h_S32x1024 : 0 < S32x1024.numel
  reduces_S32x1024_S1024 : S32x1024.Reduces [0] S1024
  inb_S1x1024_S1x1024_0_0 : ∀ a, (![0, 0] : Fin 2 → Nat) a + S1x1024.size a ≤ S1x1024.size a
  hcc0_scratch1 : 1 + S8.numel ≤ 71
  hcc0_scratch3 : 9 + S31.numel ≤ 71
  hcc0_scratch4 : 40 + S31.numel ≤ 71
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x1024.size a ≤ S32x1024.size a
  k0_off2_inb : ∀ d0 : Dev nD, ∀ a, (k0_off2 d0) a + S1x1024.size a ≤ S32x1024.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole

variable [Facts₀]

abbrev cc0_scratch1 : DmaSems sig S8 := SemArray.consecutive 1 S8 hcc0_scratch1
abbrev cc0_scratch3 : DmaSems sig S31 := SemArray.consecutive 9 S31 hcc0_scratch3
abbrev cc0_scratch4 : DmaSems sig S31 := SemArray.consecutive 40 S31 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Ideal.Contents.lean ====
/- What each device's buffers hold, as functions of the launch memory: the eight slabs of a device's block of
   the input, the device's column maxima over its block (the row it contributes), the gathered table of all 32
   devices' rows, and the result, the column maxima of that table. -/
import proofs.«900916_g7700000000000917_dist_max_ax0_shard0_i_m2048_n1024_v7x_i32_f32_1_alg».proof.Proof.Gen.KernelIdeal.Skeleton
import Idealize.ShloMosaic.Lib.Pipeline.Value
import Idealize.ShloMosaic.Lib.ValueIdx

noncomputable section

namespace Cert.KernelIdealProof

open Cert.KernelIdeal Cert.KernelIdeal.Gen
open Idealize.ShloMosaic Idealize.ShloMosaic.TcCoe

variable {F : FTy → Type} [FloatOps F]

/-- A device's block of the input array, a whole HBM buffer. -/
abbrev xM : Memref sig .tc .hbm S2048x1024 .f32 := Memref.whole main_arg0

theorem slab_inb (s : Fin 8) : ∀ a, (![256 * s.val, 0] : Fin 2 → Nat) a + S256x1024.size a ≤ S2048x1024.size a := by
  revert s; decide

/-- Slab `s` of a block: its rows `256 s … 256 s + 255`. -/
abbrev slabM (s : Fin 8) : Memref sig .tc .hbm S256x1024 .f32 :=
  xM.slice (Rect.unit (s := S2048x1024) ![256 * s.val, 0] S256x1024.size (slab_inb s)) (fun _ => rfl)

/-- The contents of slab `s` of a block holding `X`. -/
def slab (s : Fin 8) (X : (main_arg0 : Ref sig .tc).ty.Contents (Elt F)) : Vec F S256x1024 .f32 :=
  (slabM s).view.read (Elt F) X

/-- The column maxima of a block, slab by slab, as the body accumulates them. -/
def colMax (X : (main_arg0 : Ref sig .tc).ty.Contents (Elt F)) : FVec F S1x1024 .f32 :=
  k0_pay5 (k0_pay3 (k0_pay2 (slab 0 X)) (slab 1 X) (slab 2 X) (slab 3 X)) (k0_pay4 (slab 4 X)) (slab 5 X) (slab 6 X) (slab 7 X)

/-- The gathered table: row `j` holds device `j`'s column maxima. -/
def table (xb : Dev nD → (main_arg0 : Ref sig .tc).ty.Contents (Elt F)) : (cc0_scratch2 : Ref sig .tc).ty.Contents (Elt F) :=
  fun i => colMax (xb (i 0)) (ValueIdx.ix2 (0 : Fin 1) (i 1))

/-- The result on every device: the column maxima of the gathered table. -/
def result (xb : Dev nD → (main_arg0 : Ref sig .tc).ty.Contents (Elt F)) : FVec F S1x1024 .f32 :=
  k0_pay1 (table xb)

end Cert.KernelIdealProof

end
-- ==== Proof.Peers.lean ====
/- The 32 devices stand in a circle. Device `c`'s `k`-th partner (`k = 0 … 30`) is the device `k + 1` places after it,
   `fwd k c`; the device whose `k`-th partner is `c` stands `k + 1` places before it, `bwd k c`. Every device other than `c`
   is exactly one of its partners, and `c` is the `(30 - k)`-th partner of its own `k`-th partner. -/
import Idealize.ShloMosaic.Signature.Static
import Mathlib.Data.Fintype.Basic
import Mathlib.Logic.Equiv.Defs

namespace Cert.Peers

open Idealize.ShloMosaic

/-- The device `k + 1` places after `c`. -/
def fwd (k : Fin 31) (c : Dev 32) : Dev 32 := ⟨(c.val + (k.val + 1)) % 32, Nat.mod_lt _ (by decide)⟩
/-- The device `k + 1` places before `c`. -/
def bwd (k : Fin 31) (c : Dev 32) : Dev 32 := ⟨(c.val + (31 - k.val)) % 32, Nat.mod_lt _ (by decide)⟩
/-- The slot under which a partner sees the device back: `30 - k`. -/
def rev (k : Fin 31) : Fin 31 := ⟨30 - k.val, by omega⟩

theorem bwd_fwd : ∀ (k : Fin 31) (c : Dev 32), bwd k (fwd k c) = c := by decide +kernel
theorem fwd_bwd : ∀ (k : Fin 31) (c : Dev 32), fwd k (bwd k c) = c := by decide +kernel
theorem fwd_ne : ∀ (k : Fin 31) (c : Dev 32), fwd k c ≠ c := by decide +kernel
theorem bwd_ne : ∀ (k : Fin 31) (c : Dev 32), bwd k c ≠ c := by decide +kernel
theorem rev_rev : ∀ k : Fin 31, rev (rev k) = k := by decide +kernel
theorem fwd_rev : ∀ (k : Fin 31) (c : Dev 32), fwd (rev k) c = bwd k c := by decide +kernel
theorem bwd_rev : ∀ (k : Fin 31) (c : Dev 32), bwd (rev k) c = fwd k c := by decide +kernel
theorem fwd_inj_slot : ∀ (k k' : Fin 31) (c : Dev 32), fwd k c = fwd k' c → k = k' := by decide +kernel
theorem bwd_inj_slot : ∀ (k k' : Fin 31) (c : Dev 32), bwd k c = bwd k' c → k = k' := by decide +kernel
theorem exists_bwd : ∀ (c p : Dev 32), p ≠ c → ∃ k : Fin 31, bwd k c = p := by decide +kernel
theorem exists_fwd : ∀ (c p : Dev 32), p ≠ c → ∃ k : Fin 31, fwd k c = p := by decide +kernel

/-- Going `k + 1` places round the circle, as a permutation of the devices. -/
def shift (k : Fin 31) : Dev 32 ≃ Dev 32 := ⟨fwd k, bwd k, bwd_fwd k, fwd_bwd k⟩

/-- The devices other than `c` are the 31 devices before it. -/
theorem erase_eq_image_bwd (c : Dev 32) : (Finset.univ.erase c : Finset (Dev 32)) = Finset.univ.image fun k : Fin 31 => bwd k c := by
  ext p
  simp only [Finset.mem_erase, Finset.mem_univ, and_true, Finset.mem_image, true_and]
  exact ⟨fun h => exists_bwd c p h, fun ⟨k, hk⟩ => hk ▸ bwd_ne k c⟩

end Cert.Peers
-- ==== Proof.Ideal.Schedule.lean ====
/- The exchange protocol of the 32 devices, in the rounds discipline. Every cell has one round.
   A device's barrier cell has 31 duties of one unit, duty `k` paid by the device `k + 1` places before it, which hands
   over the row of ITS OWN table that the owner will write (the owner's row index). A device's `k`-th receive cell has
   one duty, paid by the transfer of the device `k + 1` places before it, which hands over that device's row of the
   owner's table, holding that device's column maxima. A device's `k`-th send cell has one duty, paid by the device's
   own `k`-th transfer, which hands back the share of the device's own row the transfer read. -/
import proofs.«900916_g7700000000000917_dist_max_ax0_shard0_i_m2048_n1024_v7x_i32_f32_1_alg».proof.Proof.Ideal.Contents
import proofs.«900916_g7700000000000917_dist_max_ax0_shard0_i_m2048_n1024_v7x_i32_f32_1_alg».proof.Proof.Peers
import proofs.«900916_g7700000000000917_dist_max_ax0_shard0_i_m2048_n1024_v7x_i32_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Transfers

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's (duties `Fin 31`), and the exclusive
counters the local transfers' invariants take their tokens from -/

abbrev UB : Type := URounds (GSem nD τ sig) (Fin 31)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

omit [FloatOps F] in
instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and cells -/

/-- The table of 32 rows, a whole scratch buffer; row `j` of it. -/
abbrev tblM : Memref sig .tc .vmem S32x1024 .f32 := Memref.whole cc0_scratch2
abbrev rowM (j : Dev nD) : Memref sig .tc .vmem S1x1024 .f32 :=
  tblM.slice (Rect.unit (s := S32x1024) (k0_off2 j) S1x1024.size (k0_off2_inb j)) (fun _ => rfl)
/-- The device's copy of its block in VMEM. -/
abbrev xvM : Memref sig .tc .vmem S2048x1024 .f32 := Memref.whole cc0_scratch0

/-- The runtime's barrier semaphore (unscoped); the load, send and receive DMA semaphores (scoped scratch). -/
abbrev barS : Sem sig := (SemArray.scalar (sig.barrier 0 rfl) : Sems sig S_).sem
abbrev loadS (s : Fin 8) : DmaSem sig := ⟨1 + s.val, by have := s.isLt; show 1 + s.val < 71; omega⟩
abbrev sendS (k : Fin 31) : DmaSem sig := ⟨9 + k.val, by have := k.isLt; show 9 + k.val < 71; omega⟩
abbrev recvS (k : Fin 31) : DmaSem sig := ⟨40 + k.val, by have := k.isLt; show 40 + k.val < 71; omega⟩

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- A row transfer's credit on a DMA semaphore (the same for every row). -/
abbrev N : ℕ := (rowM (0 : Dev nD)).view.dmaCredit
theorem N_pos : 0 < N := View.dmaCredit_pos _ (by decide)

/-- Which send (`base = 9`) or receive (`base = 40`) slot a cell is, if any. -/
def slotOf (base : ℕ) : SemLoc sig → Option (Fin 31)
  | .dma q => if h : base ≤ q.val ∧ q.val < base + 31 then some ⟨q.val - base, by omega⟩ else none
  | .reg _ => none

theorem slotOf_send (k : Fin 31) : slotOf 9 (.dma (sendS k) : SemLoc sig) = some k := by revert k; decide
theorem slotOf_recv (k : Fin 31) : slotOf 40 (.dma (recvS k) : SemLoc sig) = some k := by revert k; decide
theorem slotOf_recv_send (k : Fin 31) : slotOf 40 (.dma (sendS k) : SemLoc sig) = none := by revert k; decide

/-! ## Contents -/

/-- Device `j`'s block of the input as launched. -/
abbrev xblk (j : Dev nD) : (main_arg0 : Ref sig .tc).ty.Contents (Elt F) := m ((j : Thread nD τ).loc main_arg0)

/-- The gathered table, the same on every device: row `j` holds device `j`'s column maxima. -/
def tbl : (cc0_scratch2 : Ref sig .tc).ty.Contents (Elt F) := table (xblk m)

/-- Device `c` holding row `j` of its table at share `q` and contents `f` (of the whole table: only row `j` is read). -/
def rowPts (c j : Dev nD) (q : PosShare TreeShare) (f : Buf (Elt F) ((rowM j).view.loc (c : Thread nD τ))) : sProp 𝕄 :=
  (rowM j).view.loc (c : Thread nD τ) ↦[(rowM j).view.set]{q} f

omit [FloatOps F] in
instance rowPts_storable (c j : Dev nD) (q) (f) : BI.Storable (upEmb : UEmb _ 𝕄) (rowPts (F := F) c j q f) := by unfold rowPts; infer_instance

/-! ## The shares of a device's own row under its 31 transfers in flight -/

/-- What is left of the full share after `k` halvings; -/
def restShare : ℕ → PosShare TreeShare
  | 0 => fullShare
  | k + 1 => (restShare k).right
/-- the share the `k`-th transfer reads under: the left half of what is left, the last one all of it. -/
def xferShare (k : Fin 31) : PosShare TreeShare := if k.val = 30 then restShare 30 else (restShare k.val).left

/-! ## The schedule -/

/-- Duty `k` of `c`'s barrier cell, paid by `bwd k c`: that device's row `c`, at some contents. -/
def barPay (c : Dev nD) (k : Fin 31) : sProp 𝕄 := iprop(∃ f, rowPts (bwd k c) c fullShare f)
/-- `c`'s `k`-th receive cell: row `bwd k c` of `c`'s table, landed. -/
def recvPay (c : Dev nD) (k : Fin 31) : sProp 𝕄 := rowPts c (bwd k c) fullShare (tbl m)
/-- `c`'s `k`-th send cell: the share of its own row back. -/
def sendPay (c : Dev nD) (k : Fin 31) : sProp 𝕄 := rowPts c c (xferShare k) (tbl m)

abbrev IsBar (g : GSem nD τ sig) : Prop := g.1.2 = .tc ∧ g.2 = .reg barS
abbrev IsXfer (g : GSem nD τ sig) : Prop := g.1.2 = .tc ∧ ((slotOf 9 g.2).isSome ∨ (slotOf 40 g.2).isSome)

/-- One round, round 0. -/
def xchg : Rounds.Schedule (GSem nD τ sig) (Fin 31) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match slotOf 40 g.2 with
      | some k => recvPay m g.1.1 k
      | none => match slotOf 9 g.2 with
        | some k => sendPay m g.1.1 k
        | none => iprop(emp)
  amount_pos g _ _ _ := by
    by_cases h : g.2 = .reg barS
    · rw [if_pos h]; exact Nat.one_pos
    · rw [if_neg h]; exact N_pos

instance xchg_payload_storable (g : GSem nD τ sig) (r : ℕ) (d : Fin 31) :
    BI.Storable (upEmb : UEmb _ 𝕄) ((xchg (F := F) m).payload g r d) := by
  show BI.Storable upEmb (if g.2 = .reg barS then barPay g.1.1 d
    else match slotOf 40 g.2 with
      | some k => recvPay m g.1.1 k
      | none => match slotOf 9 g.2 with
        | some k => sendPay m g.1.1 k
        | none => iprop(emp))
  unfold barPay recvPay sendPay
  (repeat' split) <;> infer_instance

end Cert.KernelIdealProof

end
-- ==== Proof.Ideal.Ghost.lean ====
/- What each device owes and holds at launch, the levels that order the waits, and the proof data of the one
   pallas_call: the contents of the result window after the body, and the body's invariant before and after it. -/
import proofs.«900916_g7700000000000917_dist_max_ax0_shard0_i_m2048_n1024_v7x_i32_f32_1_alg».proof.Proof.Ideal.Schedule

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The slots from `n` on. -/
def slotsFrom (n : ℕ) : Finset (Fin 31) := Finset.univ.filter fun j => n ≤ j.val

/-- The signals device `c` still owes from slot `n` on: one unit to the barrier cell of each partner; -/
def owedSig (c : Dev nD) (n : ℕ) : CellTallies nD τ sig Unit := ∑ j ∈ slotsFrom n, tallyAt (barCell (fwd j c)) () 1
/-- the arrivals it still owes from slot `n` on: a row's credit to its partner's receive cell of that slot. -/
def owedArr (c : Dev nD) (n : ℕ) : CellTallies nD τ sig Unit := ∑ j ∈ slotsFrom n, tallyAt (recvCell (fwd j c) j) () N
/-- At launch: every signal and every arrival. -/
def O₀ (c : Dev nD) : CellTallies nD τ sig Unit := owedSig c 0 + owedArr c 0

def L (g : GSem nD τ sig) : Finset Unit := if g.1.2 = .tc then {()} else ∅
/-- Barrier cells at 1, receive cells at 2, everything else (staging, loads, send) at 0. -/
def lv (g : GSem nD τ sig) (_ : Unit) : ℕ := if g.2 = .reg barS then 1 else if (slotOf 40 g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- The names the launch allocates the cells' invariants at. -/
structure Names where
  bar : Dev nD → ℕ
  send : Dev nD → Fin 31 → ℕ
  recv : Dev nD → Fin 31 → ℕ

/-- Every cell's invariant, and that every cell has reached round 0 (persistent; every device holds it). -/
def records (K : Names) : sProp 𝕄 :=
  iprop((bigSep Finset.univ fun c : Dev nD => iprop(cellInv ER (xchg m) (K.bar c) (barCell c) ∗ reached ER (barCell c) 0))
    ∗ (bigSep Finset.univ fun ck : Dev nD × Fin 31 => iprop(cellInv ER (xchg m) (K.send ck.1 ck.2) (sendCell ck.1 ck.2) ∗ reached ER (sendCell ck.1 ck.2) 0))
    ∗ (bigSep Finset.univ fun ck : Dev nD × Fin 31 => iprop(cellInv ER (xchg m) (K.recv ck.1 ck.2) (recvCell ck.1 ck.2) ∗ reached ER (recvCell ck.1 ck.2) 0)))

instance records_persistent (K : Names) : BI.Persistent (records m K) := by unfold records; infer_instance

/-- The exchange's ghost state device `c` starts from: the records; its positions at round 0 of its 63 cells; the
    duty tokens it pays with — duty `k` of its `k`-th partner's barrier cell, the duty of that partner's `k`-th receive
    cell, the duty of its own `k`-th send cell. -/
def ghost (K : Names) (c : Dev nD) : sProp 𝕄 :=
  iprop(records m K
    ∗ atPos ER (barCell c) 0 ∅ 0
    ∗ (bigSep Finset.univ fun k : Fin 31 => atPos ER (sendCell c k) 0 ∅ 0)
    ∗ (bigSep Finset.univ fun k : Fin 31 => atPos ER (recvCell c k) 0 ∅ 0)
    ∗ (bigSep Finset.univ fun k : Fin 31 => dutyTok ER (barCell (fwd k c)) 0 k)
    ∗ (bigSep Finset.univ fun k : Fin 31 => dutyTok ER (recvCell (fwd k c) k) 0 0)
    ∗ (bigSep Finset.univ fun k : Fin 31 => dutyTok ER (sendCell c k) 0 0))

/-- What device `c`'s body starts from: that at some names, its credit tokens (its barrier's 31 units, each receive
    cell's credit) and the level facts. -/
def start (c : Dev nD) : sProp 𝕄 :=
  iprop((∃ K, ghost m K c) ∗ cred (tallyAt (barCell c) () 31)
    ∗ (bigSep Finset.univ fun k : Fin 31 => cred (tallyAt (recvCell c k) () N)) ∗ levAts L lv)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on every device: the column maxima of the gathered table. -/
def outAt : (cc0_stg0_0 : Ref sig .tc).ty.Contents (Elt F) := result (xblk m)

/-- The load semaphores at zero. -/
def loadsZero (c : Dev nD) : sProp 𝕄 := bigSep Finset.univ fun s : Fin 8 => semVal ((c : Thread nD τ), SemLoc.dma (loadS s)) 0

/-- Before the point: the start, the device's block of the input in HBM, the two scratch buffers at some contents, the
    load semaphores at zero. -/
def Φ₀ (c : Dev nD) : sProp 𝕄 :=
  iprop(start m c ∗ (((c : Thread nD τ).loc main_arg0) ↦{fullShare} xblk m c)
    ∗ (∃ f, ((c : Thread nD τ).loc cc0_scratch0) ↦{fullShare} f) ∗ (∃ f, ((c : Thread nD τ).loc cc0_scratch2) ↦{fullShare} f)
    ∗ loadsZero c)
/-- After the point: the block unchanged, the copy at some contents, the table gathered, every own semaphore at zero
    (the 62 own cells closed; the barrier cell is the runtime's: nothing to hand back). -/
def Φ₁ (c : Dev nD) : sProp 𝕄 :=
  iprop((((c : Thread nD τ).loc main_arg0) ↦{fullShare} xblk m c)
    ∗ (∃ f, ((c : Thread nD τ).loc cc0_scratch0) ↦{fullShare} f) ∗ (((c : Thread nD τ).loc cc0_scratch2) ↦{fullShare} tbl m)
    ∗ loadsZero c
    ∗ (bigSep Finset.univ fun k : Fin 31 => semVal (sendCell c k) 0) ∗ (bigSep Finset.univ fun k : Fin 31 => semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- A whole buffer held at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one point, `K` the names. -/
def bodyPre (K : Names) (c : Dev nD) : sProp 𝕄 :=
  iprop((ghost m K c ∗ cred (tallyAt (barCell c) () 31) ∗ (bigSep Finset.univ fun k : Fin 31 => cred (tallyAt (recvCell c k) () N)) ∗ levAts L lv)
    ∗ (((c : Thread nD τ).loc main_arg0) ↦{fullShare} xblk m c)
    ∗ (∃ f, ((c : Thread nD τ).loc cc0_scratch0) ↦{fullShare} f) ∗ (∃ f, ((c : Thread nD τ).loc cc0_scratch2) ↦{fullShare} f)
    ∗ loadsZero c
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt m))

end Cert.KernelIdealProof

end
-- ==== Proof.Ideal.Tables.lean ====
/- The schedule's tables read at each kind of cell, the slots' bookkeeping, and the records read at a cell. -/
import proofs.«900916_g7700000000000917_dist_max_ax0_shard0_i_m2048_n1024_v7x_i32_f32_1_alg».proof.Proof.Ideal.Ghost

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Sched
variable (c : Dev nD) (k : Fin 31)

theorem dma_ne_bar (q : DmaSem sig) : (SemLoc.dma q : SemLoc sig) ≠ .reg barS := fun h => by cases h
theorem not_bar_send : ¬ IsBar (sendCell c k) := fun h => dma_ne_bar _ h.2
theorem not_bar_recv : ¬ IsBar (recvCell c k) := fun h => dma_ne_bar _ h.2
theorem isXfer_send : IsXfer (sendCell c k) := ⟨rfl, .inl (by rw [slotOf_send]; rfl)⟩
theorem isXfer_recv : IsXfer (recvCell c k) := ⟨rfl, .inr (by rw [slotOf_recv]; rfl)⟩

theorem duties_bar : (xchg (F := F) m).duties (barCell c) 0 = Finset.univ := by dsimp only [xchg]; exact if_pos ⟨rfl, rfl, rfl⟩
theorem duties_send : (xchg (F := F) m).duties (sendCell c k) 0 = {0} := by
  dsimp only [xchg]; rw [if_neg (fun h => not_bar_send c k h.2)]; exact if_pos ⟨rfl, isXfer_send c k⟩
theorem duties_recv : (xchg (F := F) m).duties (recvCell c k) 0 = {0} := by
  dsimp only [xchg]; rw [if_neg (fun h => not_bar_recv c k h.2)]; exact if_pos ⟨rfl, isXfer_recv c k⟩
theorem duties_later (g : GSem nD τ sig) : ∀ r, 1 ≤ r → (xchg (F := F) m).duties g r = ∅ :=
  fun r hr => by dsimp only [xchg]; rw [if_neg fun h => by omega, if_neg fun h => by omega]

theorem amount_bar (d : Fin 31) : (xchg (F := F) m).amount (barCell c) 0 d = 1 := by dsimp only [xchg]; exact if_pos rfl
theorem amount_send (d : Fin 31) : (xchg (F := F) m).amount (sendCell c k) 0 d = N := by dsimp only [xchg]; exact if_neg (dma_ne_bar _)
theorem amount_recv (d : Fin 31) : (xchg (F := F) m).amount (recvCell c k) 0 d = N := by dsimp only [xchg]; exact if_neg (dma_ne_bar _)

theorem expect_bar : (xchg (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (xchg (F := F) m).expect (sendCell c k) 0 = N := by
  unfold Schedule.expect Schedule.amountOf; rw [duties_send, Finset.sum_singleton, amount_send]
theorem expect_recv : (xchg (F := F) m).expect (recvCell c k) 0 = N := by
  unfold Schedule.expect Schedule.amountOf; rw [duties_recv, Finset.sum_singleton, amount_recv]

theorem payload_bar (d : Fin 31) : (xchg (F := F) m).payload (barCell c) 0 d = barPay c d := by dsimp only [xchg]; rw [if_pos rfl]
theorem payload_send (d : Fin 31) : (xchg (F := F) m).payload (sendCell c k) 0 d = sendPay m c k := by
  dsimp only [xchg]; rw [if_neg (dma_ne_bar _), slotOf_recv_send, slotOf_send]
theorem payload_recv (d : Fin 31) : (xchg (F := F) m).payload (recvCell c k) 0 d = recvPay m c k := by
  dsimp only [xchg]; rw [if_neg (dma_ne_bar _), slotOf_recv]

theorem rest_bar : bigSep ((xchg (F := F) m).duties (barCell c) 0 \ ∅) (fun d => (xchg (F := F) m).payload (barCell c) 0 d)
    = bigSep Finset.univ (fun d : Fin 31 => barPay (F := F) c d) := by
  rw [Finset.sdiff_empty, duties_bar]; exact bigSep_congr fun d _ => payload_bar m c d
theorem rest_send : bigSep ((xchg (F := F) m).duties (sendCell c k) 0 \ ∅) (fun d => (xchg (F := F) m).payload (sendCell c k) 0 d) = sendPay m c k := by
  rw [Finset.sdiff_empty, duties_send, bigSep_singleton, payload_send]
theorem rest_recv : bigSep ((xchg (F := F) m).duties (recvCell c k) 0 \ ∅) (fun d => (xchg (F := F) m).payload (recvCell c k) 0 d) = recvPay m c k := by
  rw [Finset.sdiff_empty, duties_recv, bigSep_singleton, payload_recv]

end Sched

/-! ## The slots from `n` on, and those below `n` -/

def slotsBelow (n : ℕ) : Finset (Fin 31) := Finset.univ.filter fun j => j.val < n

theorem slotsFrom_zero : slotsFrom 0 = Finset.univ := by unfold slotsFrom; simp
theorem slotsFrom_end : slotsFrom 31 = ∅ := by
  unfold slotsFrom; ext j; simp only [Finset.mem_filter, Finset.mem_univ, true_and, Finset.notMem_empty, iff_false]; omega
theorem slotsBelow_zero : slotsBelow 0 = ∅ := by unfold slotsBelow; simp
theorem slotsBelow_end : slotsBelow 31 = Finset.univ := by
  unfold slotsBelow; ext j; simp only [Finset.mem_filter, Finset.mem_univ, true_and, iff_true]; exact j.isLt
theorem slotsFrom_succ (n : ℕ) (h : n < 31) : slotsFrom n = insert ⟨n, h⟩ (slotsFrom (n + 1)) := by
  unfold slotsFrom; ext j
  simp only [Finset.mem_filter, Finset.mem_univ, true_and, Finset.mem_insert, Fin.ext_iff]; omega
theorem not_mem_slotsFrom_succ (n : ℕ) (h : n < 31) : (⟨n, h⟩ : Fin 31) ∉ slotsFrom (n + 1) := by
  unfold slotsFrom; simp
theorem slotsBelow_succ (n : ℕ) (h : n < 31) : slotsBelow (n + 1) = insert ⟨n, h⟩ (slotsBelow n) := by
  unfold slotsBelow; ext j
  simp only [Finset.mem_filter, Finset.mem_univ, true_and, Finset.mem_insert, Fin.ext_iff]; omega
theorem not_mem_slotsBelow (n : ℕ) (h : n < 31) : (⟨n, h⟩ : Fin 31) ∉ slotsBelow n := by
  unfold slotsBelow; simp

theorem bigSep_slotsFrom (n : ℕ) (h : n < 31) (Φ : Fin 31 → sProp 𝕄) :
    bigSep (slotsFrom n) Φ = iprop(Φ ⟨n, h⟩ ∗ bigSep (slotsFrom (n + 1)) Φ) := by
  rw [slotsFrom_succ n h, bigSep_insert (not_mem_slotsFrom_succ n h)]; rfl
theorem bigSep_slotsBelow (n : ℕ) (h : n < 31) (Φ : Fin 31 → sProp 𝕄) :
    bigSep (slotsBelow (n + 1)) Φ = iprop(Φ ⟨n, h⟩ ∗ bigSep (slotsBelow n) Φ) := by
  rw [slotsBelow_succ n h, bigSep_insert (not_mem_slotsBelow n h)]; rfl

theorem sum_slotsFrom {A : Type} [AddCommMonoid A] (n : ℕ) (h : n < 31) (t : Fin 31 → A) :
    ∑ j ∈ slotsFrom n, t j = (∑ j ∈ slotsFrom (n + 1), t j) + t ⟨n, h⟩ := by
  rw [slotsFrom_succ n h, Finset.sum_insert (not_mem_slotsFrom_succ n h), add_comm]

theorem owedSig_succ (c : Dev nD) (n : ℕ) (h : n < 31) :
    owedSig c n = owedSig c (n + 1) + tallyAt (barCell (fwd ⟨n, h⟩ c)) () 1 := sum_slotsFrom n h _
theorem owedArr_succ (c : Dev nD) (n : ℕ) (h : n < 31) :
    owedArr c n = owedArr c (n + 1) + tallyAt (recvCell (fwd ⟨n, h⟩ c) ⟨n, h⟩) () N := sum_slotsFrom n h _
theorem owedSig_end (c : Dev nD) : owedSig c 31 = 0 := by unfold owedSig; rw [slotsFrom_end, Finset.sum_empty]
theorem owedArr_end (c : Dev nD) : owedArr c 31 = 0 := by unfold owedArr; rw [slotsFrom_end, Finset.sum_empty]

/-! ## The records read at a cell -/

section Rec
variable (K : Names) (c : Dev nD) (k : Fin 31)

theorem rec_bar : records m K ⊢ iprop(cellInv ER (xchg m) (K.bar c) (barCell c) ∗ reached ER (barCell c) 0) := by
  unfold records
  exact sep_elim_left.trans (bigSep_elim (Finset.mem_univ c) (Φ := fun c : Dev nD => iprop(cellInv ER (xchg m) (K.bar c) (barCell c) ∗ reached ER (barCell c) 0)))
theorem rec_send : records m K ⊢ iprop(cellInv ER (xchg m) (K.send c k) (sendCell c k) ∗ reached ER (sendCell c k) 0) := by
  unfold records
  exact (sep_elim_right.trans sep_elim_left).trans (bigSep_elim (Finset.mem_univ (c, k))
    (Φ := fun ck : Dev nD × Fin 31 => iprop(cellInv ER (xchg m) (K.send ck.1 ck.2) (sendCell ck.1 ck.2) ∗ reached ER (sendCell ck.1 ck.2) 0)))
theorem rec_recv : records m K ⊢ iprop(cellInv ER (xchg m) (K.recv c k) (recvCell c k) ∗ reached ER (recvCell c k) 0) := by
  unfold records
  exact (sep_elim_right.trans sep_elim_right).trans (bigSep_elim (Finset.mem_univ (c, k))
    (Φ := fun ck : Dev nD × Fin 31 => iprop(cellInv ER (xchg m) (K.recv ck.1 ck.2) (recvCell ck.1 ck.2) ∗ reached ER (recvCell ck.1 ck.2) 0)))

end Rec

end Cert.KernelIdealProof

end
-- ==== Proof.LibLandingRestated.lean ====
/- Two general facts used wherever a transfer lands in a part of a buffer that is held region by region.
   First: a view overwritten on every index holds, on its own elements, any contents whose read through the view is
   what was written; so a landing "the destination's old contents with the payload written through the view" may be
   restated at any whole-buffer function that agrees with the payload on the view (the final contents of an array that
   is written stripe by stripe, for instance), by congruence of a region points-to on its elements.
   Second: one summand of a separating conjunction over a finite set, with the remaining conjunction written out. -/
import Idealize.ShloMosaic.Lib.Pipeline.Value
import Idealize.SL.BI.BigOp

namespace Cert.Lib

open Idealize.ShloMosaic
open Idealize.SL Idealize.SL.RA Idealize.SL.BI
open scoped Idealize.SL.BI
open Idealize.SL.BI.BIBase

/-- A view overwritten on every index holds, on its elements, any contents that read back as what was written. -/
theorem write_univ_eq_on {sig : RefSig} {Val : EltTy → Type} {κ : Kind} {sp : Space} {s : Shape} {e : EltTy}
    (d : View sig κ sp s e) (fd T : d.ty.Contents Val) (w : s.Idx → Val e) (hT : ∀ y, d.read Val T y = w y) :
    ∀ i ∈ d.set, d.write Val fd w Finset.univ i = T i := by
  intro i hi
  obtain ⟨y, rfl⟩ := d.exists_emb_of_mem_set hi
  rw [View.write_emb_of_mem _ _ (Finset.mem_univ y), ← hT y, View.read_apply, cast_cast, cast_eq]

/-- One summand taken out of a separating conjunction over a finite set; the right side is written as a separating
    conjunction so that it can be destructed at once. -/
theorem bigSep_pick {M : Type} [URA M] {I : Type} [DecidableEq I] {s : Finset I} {i : I} (hi : i ∈ s) (Φ : I → sProp M) :
    bigSep s Φ ⊢ iprop(Φ i ∗ bigSep (s.erase i) Φ) := Entails.of_eq (bigSep_erase hi)

/-- info: 'Cert.Lib.write_univ_eq_on' depends on axioms: [propext, Classical.choice, Quot.sound] -/
#guard_msgs in #print axioms write_univ_eq_on

end Cert.Lib
-- ==== Proof.Ideal.Steps.lean ====
/- The cross-device steps of the body, each at a symbolic device and a symbolic slot: the signal to a partner's barrier
   cell, the wait on the device's own barrier cell, the transfer of the device's row to a partner, and the waits on the
   device's own send and receive cells, each followed by the cell's closing. -/
import proofs.«900916_g7700000000000917_dist_max_ax0_shard0_i_m2048_n1024_v7x_i32_f32_1_alg».proof.Proof.Ideal.Tables
import proofs.«900916_g7700000000000917_dist_max_ax0_shard0_i_m2048_n1024_v7x_i32_f32_1_alg».proof.Proof.LibLandingRestated

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The slot under which a partner sees the device back, as a permutation of the slots. -/
def revEquiv : Fin 31 ≃ Fin 31 := ⟨rev, rev, rev_rev, rev_rev⟩

/-! ## The signal of slot `n` -/

/-- Device `c`'s signal to its `n`-th partner pays duty `n` of that partner's barrier cell with `c`'s row of that
    partner's index, the row the partner will write. -/
theorem sig_step (K : Names) (c : Dev nD) (n : ℕ) (hn : n < 31) (p : Dev nD) (hp : p = fwd ⟨n, hn⟩ c) (Orest : CellTallies nD τ sig Unit) (W : Waits sig Unit)
    {α : Type} {Q : α → sProp 𝕄} {k : PUnit → Prog (TpuEff nD τ sig (Elt F) Λ₀ .tc) α} :
    iprop(records m K ∗ owes (c : Thread nD τ) (owedSig c n + Orest) W
        ∗ bigSep (slotsFrom n) (fun j => dutyTok ER (barCell (fwd j c)) 0 j)
        ∗ bigSep (slotsFrom n) (fun j => iprop(∃ f, rowPts (F := F) c (fwd j c) fullShare f)))
      ⊢ iprop((iprop(owes (c : Thread nD τ) (owedSig c (n + 1) + Orest) W
            ∗ bigSep (slotsFrom (n + 1)) (fun j => dutyTok ER (barCell (fwd j c)) 0 j)
            ∗ bigSep (slotsFrom (n + 1)) (fun j => iprop(∃ f, rowPts (F := F) c (fwd j c) fullShare f)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (p : Thread nD τ) barS 1) k) Q) := by
  subst hp
  rw [bigSep_slotsFrom n hn, bigSep_slotsFrom n hn]
  iintro ⟨#Hrec, HO, ⟨Htok, Htoks⟩, ⟨Hrow, Hrows⟩⟩ Hk
  ihave Hc := (rec_bar m K (fwd ⟨n, hn⟩ c)) $$ Hrec
  icases Hc with ⟨#HI, #Hr⟩
  iapply (Rounds.wp_signal 𝒱₀ ER (xchg m) (c : Thread nD τ) none (dst := (fwd ⟨n, hn⟩ c : Thread nD τ)) (κ := K.bar (fwd ⟨n, hn⟩ c))
      (d := ⟨n, hn⟩) (O₀ := owedSig c n + Orest) (by rw [duties_bar]; exact Finset.mem_univ _) (amount_bar m (fwd ⟨n, hn⟩ c) ⟨n, hn⟩) () (owedSig c (n + 1) + Orest)
      (by rw [owedSig_succ c n hn]; exact add_right_comm _ _ _)) $$ [HO Htok Hrow]
  · isplitr; · iexact HI
    isplitl [HO]; · iexact HO
    isplitl [Htok]; · iexact Htok
    isplitl [Hrow]
    · rw [payload_bar]; unfold barPay; rw [bwd_fwd]; iexact Hrow
    · iexact Hr
  iintro HO
  iapply Hk
  isplitl [HO]; · iexact HO
  isplitl [Htoks] <;> iassumption

/-! ## The wait on the device's own barrier cell -/

/-- What the barrier wait hands over, slot by slot: partner `j` is the device `30 - j` slots before. -/
theorem bar_payloads (c : Dev nD) :
    bigSep ((xchg (F := F) m).duties (barCell c) 0 \ ∅) (fun d => (xchg (F := F) m).payload (barCell c) 0 d)
      ⊢ bigSep (slotsFrom 0) (fun j => iprop(∃ f, rowPts (F := F) (fwd j c) c fullShare f)) := by
  rw [rest_bar, bigSep_univ_equiv revEquiv, slotsFrom_zero]
  exact Entails.of_eq (bigSep_congr (s := Finset.univ) fun (j : Fin 31) _ => show barPay (F := F) c (revEquiv j) = iprop(∃ f, rowPts (F := F) (fwd j c) c fullShare f) from by
    unfold barPay; show iprop(∃ f, rowPts (F := F) (bwd (rev j) c) c fullShare f) = _; rw [bwd_rev])

/-- The wait for 31 on the device's own barrier cell, owing every arrival (receive cells sit above barrier cells): every
    partner's row of the device's index comes with it. -/
theorem bar_wait (K : Names) (c : Dev nD) (W : Waits sig Unit)
    (hmw : (levAts L lv : sProp 𝕄) ⊢ MayWait (c : Thread nD τ) (.reg barS) () (owedArr c 0))
    {α : Type} {Q : α → sProp 𝕄} {k : PUnit → Prog (TpuEff nD τ sig (Elt F) Λ₀ .tc) α} :
    iprop(records m K ∗ levAts L lv ∗ cred (tallyAt (barCell c) () 31) ∗ owes (c : Thread nD τ) (owedArr c 0) W ∗ atPos ER (barCell c) 0 ∅ 0)
      ⊢ iprop((iprop(owes (c : Thread nD τ) (owedArr c 0) (insert (SemLoc.reg barS, ()) W)
            ∗ bigSep (slotsFrom 0) (fun j => iprop(∃ f, rowPts (F := F) (fwd j c) c fullShare f)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 31) k) Q) := by
  iintro ⟨#Hrec, #Hlev, Hc, HO, Hat⟩ Hk
  ihave Hb := (rec_bar m K c) $$ Hrec
  icases Hb with ⟨#HI, -⟩
  iapply (Rounds.wp_wait_rest_token 𝒱₀ ER (xchg m) (c : Thread nD τ) none (κ := K.bar c)
      (wpE_semWait_eq 𝒱₀ (c : Thread nD τ) none Set.univ) (Set.mem_univ _) () (O := owedArr c 0) (W := W) (R := 0) (m := 0) (T := ∅)
      (by rw [expect_bar])) $$ [Hc HO Hat]
  · isplitr; · iexact HI
    isplitl [Hc]; · iexact Hc
    isplitl [HO]; · iexact HO
    isplitr; · iapply hmw; iexact Hlev
    iexact Hat
  iintro ⟨HO, -, -, Hpay⟩
  iapply Hk
  isplitl [HO]; · iexact HO
  iapply (bar_payloads m c) $$ Hpay

/-! ## The transfer of slot `n` -/

/-- Device `c`'s `n`-th transfer: its own row, read under the share of slot `n`, into row `c` of its `n`-th partner's table,
    which that partner handed over at the barrier; what lands there is the gathered table's row `c`. -/
theorem send_step (K : Names) (c : Dev nD) (n : ℕ) (hn : n < 31) (p : Dev nD) (hp : p = fwd ⟨n, hn⟩ c) (W : Waits sig Unit)
    {hsc : (rowM c : Memref sig (Dev.tc p : Thread nD τ).2.kind .vmem S1x1024 .f32).view.ref.isScScratch = false}
    {hsrc : (rowM c : Memref sig .tc .vmem S1x1024 .f32).view.WordExact} {hdst : (rowM c : Memref sig .tc .vmem S1x1024 .f32).view.WordExact}
    {hsem : DmaTarget.Typed .vmem (.dma (recvS ⟨n, hn⟩)) (.remote (Dev.tc p : Thread nD τ) (rowM c : Memref sig .tc .vmem S1x1024 .f32) (.dma (sendS ⟨n, hn⟩)) hsc)}
    {α : Type} {Q : α → sProp 𝕄} {k : PUnit → Prog (TpuEff nD τ sig (Elt F) Λ₀ .tc) α} :
    iprop(records m K ∗ owes (c : Thread nD τ) (owedArr c n) W
        ∗ bigSep (slotsFrom n) (fun j => dutyTok ER (recvCell (fwd j c) j) 0 0)
        ∗ bigSep (slotsFrom n) (fun j => dutyTok ER (sendCell c j) 0 0)
        ∗ bigSep (slotsFrom n) (fun j => iprop(∃ f, rowPts (F := F) (fwd j c) c fullShare f))
        ∗ bigSep (slotsFrom n) (fun j => rowPts c c (xferShare j) (tbl m))
        ∗ bigSep (slotsBelow n) (fun j => cred (tallyAt (sendCell c j) () N)))
      ⊢ iprop((iprop(owes (c : Thread nD τ) (owedArr c (n + 1)) W
            ∗ bigSep (slotsFrom (n + 1)) (fun j => dutyTok ER (recvCell (fwd j c) j) 0 0)
            ∗ bigSep (slotsFrom (n + 1)) (fun j => dutyTok ER (sendCell c j) 0 0)
            ∗ bigSep (slotsFrom (n + 1)) (fun j => iprop(∃ f, rowPts (F := F) (fwd j c) c fullShare f))
            ∗ bigSep (slotsFrom (n + 1)) (fun j => rowPts c c (xferShare j) (tbl m))
            ∗ bigSep (slotsBelow (n + 1)) (fun j => cred (tallyAt (sendCell c j) () N)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rowM c) (.remote (Dev.tc p : Thread nD τ) (rowM c) (.dma (sendS ⟨n, hn⟩)) hsc) (.dma (recvS ⟨n, hn⟩)) hsrc hdst hsem) k) Q) := by
  subst hp
  rw [bigSep_slotsFrom n hn, bigSep_slotsFrom n hn, bigSep_slotsFrom n hn, bigSep_slotsFrom n hn, bigSep_slotsBelow n hn]
  iintro ⟨#Hrec, HO, ⟨HtV, HtVs⟩, ⟨HtS, HtSs⟩, ⟨⟨%fd, Hdst⟩, Hdsts⟩, ⟨Hsrc, Hsrcs⟩, Hcreds⟩ Hk
  ihave Hc1 := (rec_send m K c ⟨n, hn⟩) $$ Hrec
  icases Hc1 with ⟨#HIs, #Hrs⟩
  ihave Hc2 := (rec_recv m K (fwd ⟨n, hn⟩ c) ⟨n, hn⟩) $$ Hrec
  icases Hc2 with ⟨#HIv, #Hrv⟩
  unfold rowPts
  iapply (Rounds.wp_send_pointsTo 𝒱₀ ER (xchg m) (c : Thread nD τ) none (κ₁ := K.send c ⟨n, hn⟩) (κ₂ := K.recv (fwd ⟨n, hn⟩ c) ⟨n, hn⟩)
      (r₁ := 0) (r₂ := 0) (d₁ := 0) (d₂ := 0) (q := xferShare ⟨n, hn⟩) (fs := tbl m) (fd := fd)
      (by rw [duties_send]; exact Finset.mem_singleton_self _) (by rw [duties_recv]; exact Finset.mem_singleton_self _)
      () () N rfl (amount_send m c ⟨n, hn⟩ 0) (amount_recv m (fwd ⟨n, hn⟩ c) ⟨n, hn⟩ 0) (owedArr c (n + 1)) (owedArr_succ c n hn) (W := W)
      (by rw [payload_send]; exact BI.Entails.refl _)
      (by
        rw [payload_recv]; unfold recvPay rowPts; rw [bwd_fwd]
        exact Entails.of_eq (pointsTo_congr (Cert.Lib.write_univ_eq_on (Val := Elt F) (rowM c).view fd (tbl m) ((rowM c).view.read (Elt F) (tbl m)) (fun _ => rfl))))) $$ [HO HtV HtS Hdst Hsrc]
  · isplitr; · iexact HIs
    isplitr; · iexact HIv
    isplitl [Hsrc]; · iexact Hsrc
    isplitl [Hdst]; · iexact Hdst
    isplitl [HO]; · iexact HO
    isplitl [HtS]; · iexact HtS
    isplitr; · iexact Hrs
    isplitl [HtV]; · iexact HtV
    iexact Hrv
  iintro ⟨Hcr, HO⟩
  iapply Hk
  isplitl [HO]; · iexact HO
  isplitl [HtVs]; · iexact HtVs
  isplitl [HtSs]; · iexact HtSs
  isplitl [Hdsts]; · iexact Hdsts
  isplitl [Hsrcs]; · iexact Hsrcs
  isplitl [Hcr]; · iexact Hcr
  iexact Hcreds

/-! ## The waits on the device's own send and receive cells of slot `n` -/

/-- The wait on the `n`-th send cell, owing nothing: the share of the device's row the transfer read comes back, and the
    cell closes, its counter at zero the device's again. -/
theorem wait_send_step (K : Names) (c : Dev nD) (n : ℕ) (hn : n < 31) (W : Waits sig Unit)
    {sp' : Space} {s' : Shape} {e' : EltTy} {src : Memref sig (c : Thread nD τ).2.kind sp' s' e'} {hsrc : src.view.WordExact}
    {hdst : (rowM c : Memref sig .tc .vmem S1x1024 .f32).view.WordExact}
    {α : Type} {Q : α → sProp 𝕄} {k : PUnit → Prog (TpuEff nD τ sig (Elt F) Λ₀ .tc) α} :
    iprop(records m K ∗ owes (c : Thread nD τ) 0 W
        ∗ bigSep (slotsFrom n) (fun j => cred (tallyAt (sendCell c j) () N))
        ∗ bigSep (slotsFrom n) (fun j => atPos ER (sendCell c j) 0 ∅ 0)
        ∗ bigSep (slotsBelow n) (fun j => rowPts c c (xferShare j) (tbl m))
        ∗ bigSep (slotsBelow n) (fun j => semVal (sendCell c j) 0))
      ⊢ iprop((iprop(owes (c : Thread nD τ) 0 (insert (SemLoc.dma (sendS ⟨n, hn⟩), ()) W)
            ∗ bigSep (slotsFrom (n + 1)) (fun j => cred (tallyAt (sendCell c j) () N))
            ∗ bigSep (slotsFrom (n + 1)) (fun j => atPos ER (sendCell c j) 0 ∅ 0)
            ∗ bigSep (slotsBelow (n + 1)) (fun j => rowPts c c (xferShare j) (tbl m))
            ∗ bigSep (slotsBelow (n + 1)) (fun j => semVal (sendCell c j) 0))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (sendS ⟨n, hn⟩) src (rowM c : Memref sig .tc .vmem S1x1024 .f32) hsrc hdst) k) Q) := by
  rw [bigSep_slotsFrom n hn, bigSep_slotsFrom n hn, bigSep_slotsBelow n hn, bigSep_slotsBelow n hn]
  iintro ⟨#Hrec, HO, ⟨Hcr, Hcrs⟩, ⟨Hat, Hats⟩, Hshs, Hzs⟩ Hk
  ihave Hc1 := (rec_send m K c ⟨n, hn⟩) $$ Hrec
  icases Hc1 with ⟨#HI, -⟩
  iapply (Rounds.wp_wait_rest_token 𝒱₀ ER (xchg m) (c : Thread nD τ) none (κ := K.send c ⟨n, hn⟩)
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hsh := (Entails.of_eq (rest_send m c ⟨n, hn⟩)) $$ Hpay
  imod (Rounds.cell_close ER (xchg m) (Set.mem_univ (K.send c ⟨n, hn⟩)) (fun h => h) (R := 0 + 1) (duties_later m (sendCell c ⟨n, hn⟩))) $$ [Hat] with Hz
  · isplitr; · iexact HI
    iexact Hat
  iapply Hk
  isplitl [HO]; · iexact HO
  isplitl [Hcrs]; · iexact Hcrs
  isplitl [Hats]; · iexact Hats
  isplitl [Hsh Hshs]
  · isplitl [Hsh]; · unfold sendPay; iexact Hsh
    iexact Hshs
  isplitl [Hz]; · iexact Hz
  iexact Hzs

/-- The wait on the `n`-th receive cell, owing nothing: the row of the device `n + 1` places before comes landed, holding
    the gathered table's row of that index, and the cell closes. -/
theorem wait_recv_step (K : Names) (c : Dev nD) (n : ℕ) (hn : n < 31) (W : Waits sig Unit)
    {sp' : Space} {s' : Shape} {e' : EltTy} {src : Memref sig (c : Thread nD τ).2.kind sp' s' e'} {hsrc : src.view.WordExact}
    {hdst : (rowM c : Memref sig .tc .vmem S1x1024 .f32).view.WordExact}
    {α : Type} {Q : α → sProp 𝕄} {k : PUnit → Prog (TpuEff nD τ sig (Elt F) Λ₀ .tc) α} :
    iprop(records m K ∗ owes (c : Thread nD τ) 0 W
        ∗ bigSep (slotsFrom n) (fun j => cred (tallyAt (recvCell c j) () N))
        ∗ bigSep (slotsFrom n) (fun j => atPos ER (recvCell c j) 0 ∅ 0)
        ∗ bigSep (slotsBelow n) (fun j => rowPts c (bwd j c) fullShare (tbl m))
        ∗ bigSep (slotsBelow n) (fun j => semVal (recvCell c j) 0))
      ⊢ iprop((iprop(owes (c : Thread nD τ) 0 (insert (SemLoc.dma (recvS ⟨n, hn⟩), ()) W)
            ∗ bigSep (slotsFrom (n + 1)) (fun j => cred (tallyAt (recvCell c j) () N))
            ∗ bigSep (slotsFrom (n + 1)) (fun j => atPos ER (recvCell c j) 0 ∅ 0)
            ∗ bigSep (slotsBelow (n + 1)) (fun j => rowPts c (bwd j c) fullShare (tbl m))
            ∗ bigSep (slotsBelow (n + 1)) (fun j => semVal (recvCell c j) 0))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (recvS ⟨n, hn⟩) src (rowM c : Memref sig .tc .vmem S1x1024 .f32) hsrc hdst) k) Q) := by
  rw [bigSep_slotsFrom n hn, bigSep_slotsFrom n hn, bigSep_slotsBelow n hn, bigSep_slotsBelow n hn]
  iintro ⟨#Hrec, HO, ⟨Hcr, Hcrs⟩, ⟨Hat, Hats⟩, Hshs, Hzs⟩ Hk
  ihave Hc1 := (rec_recv m K c ⟨n, hn⟩) $$ Hrec
  icases Hc1 with ⟨#HI, -⟩
  iapply (Rounds.wp_wait_rest_token 𝒱₀ ER (xchg m) (c : Thread nD τ) none (κ := K.recv c ⟨n, hn⟩)
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hsh := (Entails.of_eq (rest_recv m c ⟨n, hn⟩)) $$ Hpay
  imod (Rounds.cell_close ER (xchg m) (Set.mem_univ (K.recv c ⟨n, hn⟩)) (fun h => h) (R := 0 + 1) (duties_later m (recvCell c ⟨n, hn⟩))) $$ [Hat] with Hz
  · isplitr; · iexact HI
    iexact Hat
  iapply Hk
  isplitl [HO]; · iexact HO
  isplitl [Hcrs]; · iexact Hcrs
  isplitl [Hats]; · iexact Hats
  isplitl [Hsh Hshs]
  · isplitl [Hsh]; · unfold recvPay; iexact Hsh
    iexact Hshs
  isplitl [Hz]; · iexact Hz
  iexact Hzs

end Cert.KernelIdealProof

end
-- ==== Proof.Ideal.Levels.lean ====
/- The order of the waits. Barrier cells sit at level 1, receive cells at level 2, every other cell at level 0.
   Whatever a device still owes is owed to barrier cells and receive cells, so a wait at level 0 is below all of it;
   at its barrier wait a device owes arrivals only, which are receive cells, above its barrier cell. -/
import proofs.«900916_g7700000000000917_dist_max_ax0_shard0_i_m2048_n1024_v7x_i32_f32_1_alg».proof.Proof.Ideal.Tables

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the dues are positive -/

omit [FloatOps F] in
/-- A signal still owed is owed to a partner's barrier cell; -/
theorem owedSig_pos {c : Dev nD} {n : ℕ} {g : GSem nD τ sig} {u : Unit} (h : 0 < owedSig c n g u) : ∃ j : Fin 31, g = barCell (fwd j c) := by
  unfold owedSig at h
  obtain ⟨j, -, hj⟩ := Pipeline.sum_pos_exists h
  exact ⟨j, (Pipeline.tallyAt_pos hj).1⟩

omit [FloatOps F] in
/-- an arrival still owed is owed to a partner's receive cell. -/
theorem owedArr_pos {c : Dev nD} {n : ℕ} {g : GSem nD τ sig} {u : Unit} (h : 0 < owedArr c n g u) : ∃ j : Fin 31, g = recvCell (fwd j c) j := by
  unfold owedArr at h
  obtain ⟨j, -, hj⟩ := Pipeline.sum_pos_exists h
  exact ⟨j, (Pipeline.tallyAt_pos hj).1⟩

/-- The dues a wait at level 0 may stand below: positive only at barrier cells and receive cells of TensorCores. -/
def HighDues (O : CellTallies nD τ sig Unit) : Prop :=
  ∀ g u, 0 < O g u → (g.2 = .reg barS ∨ (slotOf 40 g.2).isSome) ∧ g.1.2 = .tc

omit [FloatOps F] in
theorem highDues_zero : HighDues (0 : CellTallies nD τ sig Unit) := fun g u h => by
  rw [Pi.zero_apply, Finsupp.zero_apply] at h; exact absurd h (Nat.lt_irrefl 0)
omit [FloatOps F] in
theorem highDues_add {O D : CellTallies nD τ sig Unit} (hO : HighDues O) (hD : HighDues D) : HighDues (O + D) := fun g u h => by
  rcases Pipeline.add_pos_cases h with h | h
  · exact hO g u h
  · exact hD g u h
omit [FloatOps F] in
theorem highDues_sig (c : Dev nD) (n : ℕ) : HighDues (owedSig c n) := fun g u h => by
  obtain ⟨j, rfl⟩ := owedSig_pos h; exact ⟨.inl rfl, rfl⟩
omit [FloatOps F] in
theorem highDues_arr (c : Dev nD) (n : ℕ) : HighDues (owedArr c n) := fun g u h => by
  obtain ⟨j, rfl⟩ := owedArr_pos h; exact ⟨.inr (by rw [slotOf_recv]; rfl), rfl⟩
omit [FloatOps F] in
theorem highDues_launch (c : Dev nD) : HighDues (O₀ c) := highDues_add (highDues_sig c 0) (highDues_arr c 0)
omit [FloatOps F] in
theorem highDues_tallyAt_bar (p : Dev nD) (n : ℕ) : HighDues (tallyAt (barCell p) () n) := fun g u h => by
  rw [(Pipeline.tallyAt_pos h).1]; exact ⟨.inl rfl, rfl⟩
omit [FloatOps F] in
theorem highDues_tallyAt_recv (p : Dev nD) (k : Fin 31) (n : ℕ) : HighDues (tallyAt (recvCell p k) () n) := fun g u h => by
  rw [(Pipeline.tallyAt_pos h).1]; exact ⟨.inr (by rw [slotOf_recv]; rfl), rfl⟩

/-! ## The waits -/

omit [FloatOps F] in
/-- A wait on a DMA semaphore that is no receive cell (staging, load, send: level 0) is below every barrier and receive cell. -/
theorem mayWait_low (c : Dev nD) (q : DmaSem sig) (hq : (slotOf 40 (SemLoc.dma q : SemLoc sig)).isSome = false) (O : CellTallies nD τ sig Unit)
    (hO : HighDues O) : (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by unfold L; rw [if_pos (hO g u hg).2]; exact Finset.mem_singleton_self _)
    (fun p hp => by
      rw [Finset.mem_singleton.mp hp]; dsimp only [lv]
      rw [if_neg (dma_ne_bar q), if_neg (by rw [hq]; exact Bool.false_ne_true)])
    (fun g u hg => by
      rcases (hO g u hg).1 with h | h
      · dsimp only [lv]; rw [if_pos h]; exact Nat.one_pos
      · dsimp only [lv]; split
        · exact Nat.one_pos
        · exact Nat.succ_pos 1)

omit [FloatOps F] in
/-- At its barrier wait a device owes arrivals only: receive cells, above its barrier cell. -/
theorem mayWait_bar (c : Dev nD) (n : ℕ) : (levAts L lv : sProp 𝕄) ⊢ MayWait (c : Thread nD τ) (.reg barS) () (owedArr c n) :=
  MayOwe.of_cut (L := L) (lev := lv) 1
    (fun p hp => by rw [Finset.mem_singleton.mp hp, L_tc]; exact Finset.mem_singleton_self _)
    (fun g u hg => by obtain ⟨j, rfl⟩ := owedArr_pos hg; rw [L_tc]; exact Finset.mem_singleton_self _)
    (fun p hp => by rw [Finset.mem_singleton.mp hp]; dsimp only [lv]; rw [if_pos rfl])
    (fun g u hg => by
      obtain ⟨j, rfl⟩ := owedArr_pos hg
      dsimp only [lv]; rw [if_neg (dma_ne_bar _), slotOf_recv, if_pos (show (some j).isSome = true from rfl)]; exact Nat.lt_succ_self 1)

end Cert.KernelIdealProof

end
-- ==== Proof.Ideal.Rows.lean ====
/- The geometry of the table of 32 rows and the shares of a row. Row `j` of the table is the set of its elements whose
   first coordinate is `j`; the rows are pairwise disjoint and cover the table, so the table held whole is the 32 rows
   held one by one. A conjunction over all 32 devices is one device's own summand and the 31 summands of its partners,
   counted forwards or backwards round the circle. A row held in full is the 31 shares its transfers read under: 30
   successive left halves and what is left at the end. Last, the device's own row as the body's load and store reach
   it, and that the row just written holds the device's column maxima, as the gathered table does there. -/
import proofs.«900916_g7700000000000917_dist_max_ax0_shard0_i_m2048_n1024_v7x_i32_f32_1_alg».proof.Proof.Ideal.Tables
import proofs.«900916_g7700000000000917_dist_max_ax0_shard0_i_m2048_n1024_v7x_i32_f32_1_alg».proof.Proof.LibLandingRestated

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which elements a row holds -/

theorem mem_row (j : Dev nD) (i : (rowM j).view.ty.Idx) : i ∈ (rowM j).view.set ↔ (i 0).val = j.val := by
  show i ∈ ((View.whole cc0_scratch2).slice _).set ↔ _
  rw [View.set_slice_whole, Rect.mem_set_unit, k0_off2_eq]
  show (∀ a : Fin 2, (![j.val, 0] : Fin 2 → ℕ) a ≤ (i a).val
    ∧ (i a).val < (![j.val, 0] : Fin 2 → ℕ) a + (![1, 1024] : Fin 2 → ℕ) a) ↔ _
  rw [Fin.forall_fin_two]
  have h1 : (i 1).val < 1024 := (i 1).isLt
  show (j.val ≤ (i 0).val ∧ (i 0).val < j.val + 1) ∧ (0 ≤ (i 1).val ∧ (i 1).val < 0 + 1024) ↔ _
  omega

theorem rows_disjoint (j j' : Dev nD) (h : j ≠ j') : Disjoint (rowM j).view.set (rowM j').view.set := by
  rw [Finset.disjoint_left]
  intro i hi hi'
  rw [mem_row] at hi hi'
  exact h (Fin.ext (hi.symm.trans hi'))

theorem rows_cover : Finset.biUnion (β := tblM.view.ty.Idx) (Finset.univ : Finset (Dev nD)) (fun j => (rowM j).view.set) = Finset.univ := by
  ext i
  simp only [Finset.mem_biUnion, Finset.mem_univ, true_and, iff_true]
  exact ⟨⟨(i 0).val, (i 0).isLt⟩, (mem_row ⟨(i 0).val, (i 0).isLt⟩ i).mpr rfl⟩

/-! ## The table whole is its rows -/

theorem tbl_rows (c : Dev nD) (f : Buf (Elt F) ((c : Thread nD τ).loc cc0_scratch2)) :
    ((((c : Thread nD τ).loc cc0_scratch2) ↦{fullShare} f) : sProp 𝕄)
      = bigSep Finset.univ (fun j : Dev nD => rowPts c j fullShare f) := by
  have h := pointsTo_biUnion (ℓ := (c : Thread nD τ).loc cc0_scratch2) (q := fullShare) (f := f) (Val := Elt F)
    (Ix := Unit) (Name := ℕ) (U := UU) (Lvl := ℕ)
    (Finset.univ : Finset (Dev nD)) (fun j => (rowM j).view.set) (fun j _ j' _ hne => rows_disjoint j j' hne)
  rw [rows_cover] at h
  exact h

theorem rows_join (c : Dev nD) :
    bigSep Finset.univ (fun j : Dev nD => rowPts c j fullShare (tbl m))
      = ((((c : Thread nD τ).loc cc0_scratch2) ↦{fullShare} tbl m) : sProp 𝕄) :=
  (tbl_rows c (tbl m)).symm

/-! ## All devices: one and its 31 partners -/

theorem erase_eq_image_fwd (c : Dev nD) :
    (Finset.univ.erase c : Finset (Dev nD)) = Finset.univ.image fun k : Fin 31 => fwd k c := by
  ext p
  simp only [Finset.mem_erase, Finset.mem_univ, and_true, Finset.mem_image, true_and]
  exact ⟨fun h => exists_fwd c p h, fun ⟨k, hk⟩ => hk ▸ fwd_ne k c⟩

theorem univ_fwd (c : Dev nD) (Φ : Dev nD → sProp 𝕄) :
    bigSep Finset.univ Φ = iprop(Φ c ∗ bigSep Finset.univ (fun k : Fin 31 => Φ (fwd k c))) := by
  have hmap : (Finset.univ.image fun k : Fin 31 => fwd k c)
      = Finset.univ.map ⟨fun k : Fin 31 => fwd k c, fun k k' h => fwd_inj_slot k k' c h⟩ := by
    rw [Finset.map_eq_image]; rfl
  rw [bigSep_univ_split c, erase_eq_image_fwd c, hmap, bigSep_map]; rfl

theorem univ_bwd (c : Dev nD) (Φ : Dev nD → sProp 𝕄) :
    bigSep Finset.univ Φ = iprop(Φ c ∗ bigSep Finset.univ (fun k : Fin 31 => Φ (bwd k c))) := by
  have hmap : (Finset.univ.image fun k : Fin 31 => bwd k c)
      = Finset.univ.map ⟨fun k : Fin 31 => bwd k c, fun k k' h => bwd_inj_slot k k' c h⟩ := by
    rw [Finset.map_eq_image]; rfl
  rw [bigSep_univ_split c, erase_eq_image_bwd c, hmap, bigSep_map]; rfl

/-! ## A row's 31 shares -/

/-- Separating conjunction is commutative, -/
theorem sep_swap (P Q : sProp 𝕄) : iprop(P ∗ Q) = iprop(Q ∗ P) := by
  have h1 : iprop(P ∗ Q) ⊢ iprop(Q ∗ P) := by
    iintro ⟨HP, HQ⟩
    isplitl [HQ]; · iexact HQ
    iexact HP
  have h2 : iprop(Q ∗ P) ⊢ iprop(P ∗ Q) := by
    iintro ⟨HQ, HP⟩
    isplitl [HP]; · iexact HP
    iexact HQ
  exact BI.equiv_iff.mp ⟨h1, h2⟩

/-- and a conjunct of the right factor may be moved in front of the left factor. -/
theorem sep_rot (B L R : sProp 𝕄) : iprop(B ∗ (L ∗ R)) = iprop((L ∗ B) ∗ R) := by
  have h1 : iprop(B ∗ (L ∗ R)) ⊢ iprop((L ∗ B) ∗ R) := by
    iintro ⟨HB, HL, HR⟩
    isplitr [HR]
    · isplitl [HL]; · iexact HL
      iexact HB
    · iexact HR
  have h2 : iprop((L ∗ B) ∗ R) ⊢ iprop(B ∗ (L ∗ R)) := by
    iintro ⟨⟨HL, HB⟩, HR⟩
    isplitl [HB]; · iexact HB
    isplitl [HL]; · iexact HL
    iexact HR
  exact BI.equiv_iff.mp ⟨h1, h2⟩

/-- A row held at a share is the row held at the share's two halves. -/
theorem rowPts_halve (c j : Dev nD) (q : PosShare TreeShare) (f : Buf (Elt F) ((rowM j).view.loc (c : Thread nD τ))) :
    (rowPts c j q f : sProp 𝕄) = iprop(rowPts c j q.left f ∗ rowPts c j q.right f) := by
  unfold rowPts
  have h := pointsTo_share (ℓ := (rowM j).view.loc (c : Thread nD τ)) (I := (rowM j).view.set) (f := f) (Val := Elt F)
    (Ix := Unit) (Name := ℕ) (U := UU) (Lvl := ℕ) (PosShare.mem_left_op_right q)
  exact BI.equiv_iff.mp ⟨h.1, h.2⟩

/-- After `n ≤ 30` halvings: the first `n` transfers' shares and what is left. -/
theorem row_shares_upto (c j : Dev nD) (f : Buf (Elt F) ((rowM j).view.loc (c : Thread nD τ))) :
    ∀ n, n ≤ 30 → (rowPts c j fullShare f : sProp 𝕄)
      = iprop(bigSep (slotsBelow n) (fun k : Fin 31 => rowPts c j (xferShare k) f) ∗ rowPts c j (restShare n) f)
  | 0, _ => by
    rw [slotsBelow_zero, bigSep_empty]
    exact (BI.equiv_iff.mp ⟨emp_sep_elim, emp_sep_intro⟩).symm
  | n + 1, h => by
    have hn : n < 31 := by omega
    have hx : xferShare ⟨n, hn⟩ = (restShare n).left := by
      unfold xferShare; exact if_neg (by show ¬ n = 30; omega)
    rw [bigSep_slotsBelow n hn, hx, row_shares_upto c j f n (by omega), rowPts_halve c j (restShare n) f]
    exact sep_rot _ _ _

theorem row_shares_eq (c j : Dev nD) (f : Buf (Elt F) ((rowM j).view.loc (c : Thread nD τ))) :
    (rowPts c j fullShare f : sProp 𝕄) = bigSep Finset.univ (fun k : Fin 31 => rowPts c j (xferShare k) f) := by
  have hx : xferShare ⟨30, by omega⟩ = restShare 30 := by unfold xferShare; exact if_pos rfl
  rw [← slotsBelow_end, bigSep_slotsBelow 30 (by omega), hx, row_shares_upto c j f 30 le_rfl]
  exact sep_swap _ _

theorem row_shares (c j : Dev nD) (f : Buf (Elt F) ((rowM j).view.loc (c : Thread nD τ))) :
    (rowPts c j fullShare f : sProp 𝕄) ⊣⊢ bigSep Finset.univ (fun k : Fin 31 => rowPts c j (xferShare k) f) :=
  .of_eq (row_shares_eq c j f)

theorem row_shares_split (c j : Dev nD) (f : Buf (Elt F) ((rowM j).view.loc (c : Thread nD τ))) :
    (rowPts c j fullShare f : sProp 𝕄) ⊢ bigSep Finset.univ (fun k : Fin 31 => rowPts c j (xferShare k) f) :=
  (row_shares c j f).1

theorem row_shares_join (c j : Dev nD) (f : Buf (Elt F) ((rowM j).view.loc (c : Thread nD τ))) :
    bigSep Finset.univ (fun k : Fin 31 => rowPts c j (xferShare k) f) ⊢ (rowPts c j fullShare f : sProp 𝕄) :=
  (row_shares c j f).2

/-! ## The device's own row under the body's load and store -/

/-- The rectangle the body loads and stores its own row through. -/
abbrev r1 (c : Dev nD) : Rect S32x1024 := Rect.unit (s := S32x1024) (k0_off1 c) S1x1024.size (k0_off1_inb c)

/-- The body's rectangle holds the same elements as the device's row: those of first coordinate `c`. -/
theorem mem_r1 (c : Dev nD) (i : tblM.view.ty.Idx) : i ∈ (r1 c).set ↔ (i 0).val = c.val := by
  rw [Rect.mem_set_unit, k0_off1_eq]
  show (∀ a : Fin 2, (![c.val, 0] : Fin 2 → ℕ) a ≤ (i a).val
    ∧ (i a).val < (![c.val, 0] : Fin 2 → ℕ) a + (![1, 1024] : Fin 2 → ℕ) a) ↔ _
  rw [Fin.forall_fin_two]
  have h1 : (i 1).val < 1024 := (i 1).isLt
  show (c.val ≤ (i 0).val ∧ (i 0).val < c.val + 1) ∧ (0 ≤ (i 1).val ∧ (i 1).val < 0 + 1024) ↔ _
  omega

theorem r1_set_eq (c : Dev nD) : (r1 c).set = (rowM c).view.set := by
  ext i; rw [mem_r1, mem_row]

theorem own_row_load_sub (c : Dev nD) : tblM.view.setOn (r1 c).toLoadRect.set ⊆ (rowM c).view.set := by
  have h : tblM.view.setOn (r1 c).toLoadRect.set = (r1 c).set := by
    unfold View.setOn; exact Finset.map_refl
  rw [h, r1_set_eq]

theorem own_row_set (c : Dev nD) : (tblM.access (r1 c)).set = (rowM c).view.set := by
  rw [← r1_set_eq]; exact View.set_slice_whole cc0_scratch2 (r1 c)

theorem own_row_store_sub (c : Dev nD) : (tblM.access (r1 c)).setOn Finset.univ ⊆ (rowM c).view.set := by
  rw [View.setOn_univ, own_row_set]

/-- Read through the body's rectangle, the gathered table is the device's column maxima. -/
theorem own_row_read (c : Dev nD) (y : S1x1024.Idx) :
    (tblM.access (r1 c)).read (Elt F) (tbl m) y = colMax (xblk m c) y := by
  have hy0 : (y 0).val = 0 := by have h := (y 0).isLt; change (y 0).val < 1 at h; omega
  have h0 : ((tblM.access (r1 c)).emb y) 0 = c := by
    apply Fin.ext
    show k0_off1 c 0 + 1 * (y 0).val = c.val
    rw [k0_off1_eq, hy0]; show c.val + 1 * 0 = c.val; omega
  have h1 : ((tblM.access (r1 c)).emb y) 1 = y 1 := by
    apply Fin.ext
    show k0_off1 c 1 + 1 * (y 1).val = (y 1).val
    rw [k0_off1_eq]; show 0 + 1 * (y 1).val = (y 1).val; omega
  have hy : ValueIdx.ix2 (0 : Fin 1) (y 1) = y := by
    funext a
    match a with
    | ⟨0, _⟩ => exact Fin.ext hy0.symm
    | ⟨1, _⟩ => rfl
  rw [View.read_apply]
  show tbl m ((tblM.access (r1 c)).emb y) = _
  unfold tbl table
  show colMax (xblk m (((tblM.access (r1 c)).emb y) 0)) (ValueIdx.ix2 (0 : Fin 1) (((tblM.access (r1 c)).emb y) 1)) = _
  rw [h0, h1]
  exact congrArg (colMax (xblk m c)) hy

theorem own_row_written (c : Dev nD) (ft : (tblM.access (r1 c)).ty.Contents (Elt F)) (w : S1x1024.Idx → Elt F .f32)
    (hw : w = colMax (xblk m c)) :
    ∀ i ∈ (rowM c).view.set, (tblM.access (r1 c)).write (Elt F) ft w Finset.univ i = tbl m i := by
  intro i hi
  rw [← own_row_set] at hi
  exact Cert.Lib.write_univ_eq_on (tblM.access (r1 c)) ft (tbl m) w (fun y => by rw [hw]; exact own_row_read m c y) i hi

/-- info: 'Cert.KernelIdealProof.tbl_rows' depends on axioms: [propext, Classical.choice, Quot.sound] -/
#guard_msgs in #print axioms tbl_rows

/-- info: 'Cert.KernelIdealProof.row_shares' depends on axioms: [propext, Classical.choice, Quot.sound] -/
#guard_msgs in #print axioms row_shares

/-- info: 'Cert.KernelIdealProof.own_row_written' depends on axioms: [propext, Classical.choice, Quot.sound] -/
#guard_msgs in #print axioms own_row_written

end Cert.KernelIdealProof

end
-- ==== Proof.Ideal.Slabs.lean ====
/- The device's block of the input, 2048 rows, is copied from HBM to VMEM in eight slabs of 256 rows. Slab `s` of either
   buffer is the set of its elements whose first coordinate lies in `256 s … 256 s + 255`; the slabs are pairwise
   disjoint and cover the buffer, so a buffer held whole (at any share) is its eight slabs held one by one, and eight
   slabs held at the full share, each at its own contents, are the whole buffer at some contents. A load of slab `s`
   of the VMEM buffer reaches exactly the elements of the slab. -/
import proofs.«900916_g7700000000000917_dist_max_ax0_shard0_i_m2048_n1024_v7x_i32_f32_1_alg».proof.Proof.Ideal.Rows

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slab rectangles and the rows from a slab on -/

/-- Rows `o … o + 255` of a block of 2048 rows. -/
abbrev slabR (o : ℕ) (h : ∀ a, (![o, 0] : Fin 2 → ℕ) a + S256x1024.size a ≤ S2048x1024.size a) : Rect S2048x1024 :=
  Rect.unit (s := S2048x1024) ![o, 0] S256x1024.size h

theorem mem_slabR (o : ℕ) (h : ∀ a, (![o, 0] : Fin 2 → ℕ) a + S256x1024.size a ≤ S2048x1024.size a) (i : S2048x1024.Idx) :
    i ∈ (slabR o h).set ↔ o ≤ (i 0).val ∧ (i 0).val < o + 256 := by
  rw [Rect.mem_set_unit]
  show (∀ a : Fin 2, (![o, 0] : Fin 2 → ℕ) a ≤ (i a).val
    ∧ (i a).val < (![o, 0] : Fin 2 → ℕ) a + (![256, 1024] : Fin 2 → ℕ) a) ↔ _
  rw [Fin.forall_fin_two]
  have h1 : (i 1).val < 1024 := (i 1).isLt
  show (o ≤ (i 0).val ∧ (i 0).val < o + 256) ∧ (0 ≤ (i 1).val ∧ (i 1).val < 0 + 1024) ↔ _
  omega

/-- The elements of a block in rows `n` and later. -/
def rowsFrom (n : ℕ) : Finset S2048x1024.Idx := Finset.univ.filter fun i => n ≤ (i 0).val

theorem mem_rowsFrom (n : ℕ) (i : S2048x1024.Idx) : i ∈ rowsFrom n ↔ n ≤ (i 0).val := by
  unfold rowsFrom; simp only [Finset.mem_filter, Finset.mem_univ, true_and]

theorem rowsFrom_zero : rowsFrom 0 = Finset.univ := by
  ext i; rw [mem_rowsFrom]; simp only [Nat.zero_le, Finset.mem_univ]

theorem rowsFrom_split (o o' : ℕ) (ho : o' = o + 256) (h : ∀ a, (![o, 0] : Fin 2 → ℕ) a + S256x1024.size a ≤ S2048x1024.size a) :
    rowsFrom o = (slabR o h).set ∪ rowsFrom o' := by
  ext i; rw [Finset.mem_union, mem_rowsFrom, mem_rowsFrom, mem_slabR]; omega

theorem rowsFrom_disj (o o' : ℕ) (ho : o' = o + 256) (h : ∀ a, (![o, 0] : Fin 2 → ℕ) a + S256x1024.size a ≤ S2048x1024.size a) :
    Disjoint (slabR o h).set (rowsFrom o') := by
  rw [Finset.disjoint_left]; intro i hi hi'; rw [mem_slabR] at hi; rw [mem_rowsFrom] at hi'; omega

theorem rowsFrom_last (h : ∀ a, (![1792, 0] : Fin 2 → ℕ) a + S256x1024.size a ≤ S2048x1024.size a) :
    rowsFrom 1792 = (slabR 1792 h).set := by
  ext i; rw [mem_rowsFrom, mem_slabR]
  have h0 : (i 0).val < 2048 := (i 0).isLt
  omega

/-! ## The eight slabs of the HBM block and of its VMEM copy, sliced as the kernel slices them -/

abbrev srcSlab0 : Memref sig .tc .hbm S256x1024 .f32 :=
  (Memref.whole main_arg0).slice (Rect.unit (s := S2048x1024) ![0, 0] S256x1024.size Gen.inb_S2048x1024_S256x1024_0_0) (fun _ => rfl)
abbrev srcSlab1 : Memref sig .tc .hbm S256x1024 .f32 :=
  (Memref.whole main_arg0).slice (Rect.unit (s := S2048x1024) ![256, 0] S256x1024.size Gen.inb_S2048x1024_S256x1024_256_0) (fun _ => rfl)
abbrev srcSlab2 : Memref sig .tc .hbm S256x1024 .f32 :=
  (Memref.whole main_arg0).slice (Rect.unit (s := S2048x1024) ![512, 0] S256x1024.size Gen.inb_S2048x1024_S256x1024_512_0) (fun _ => rfl)
abbrev srcSlab3 : Memref sig .tc .hbm S256x1024 .f32 :=
  (Memref.whole main_arg0).slice (Rect.unit (s := S2048x1024) ![768, 0] S256x1024.size Gen.inb_S2048x1024_S256x1024_768_0) (fun _ => rfl)
abbrev srcSlab4 : Memref sig .tc .hbm S256x1024 .f32 :=
  (Memref.whole main_arg0).slice (Rect.unit (s := S2048x1024) ![1024, 0] S256x1024.size Gen.inb_S2048x1024_S256x1024_1024_0) (fun _ => rfl)
abbrev srcSlab5 : Memref sig .tc .hbm S256x1024 .f32 :=
  (Memref.whole main_arg0).slice (Rect.unit (s := S2048x1024) ![1280, 0] S256x1024.size Gen.inb_S2048x1024_S256x1024_1280_0) (fun _ => rfl)
abbrev srcSlab6 : Memref sig .tc .hbm S256x1024 .f32 :=
  (Memref.whole main_arg0).slice (Rect.unit (s := S2048x1024) ![1536, 0] S256x1024.size Gen.inb_S2048x1024_S256x1024_1536_0) (fun _ => rfl)
abbrev srcSlab7 : Memref sig .tc .hbm S256x1024 .f32 :=
  (Memref.whole main_arg0).slice (Rect.unit (s := S2048x1024) ![1792, 0] S256x1024.size Gen.inb_S2048x1024_S256x1024_1792_0) (fun _ => rfl)

abbrev dstSlab0 : Memref sig .tc .vmem S256x1024 .f32 :=
  (Memref.whole cc0_scratch0).slice (Rect.unit (s := S2048x1024) ![0, 0] S256x1024.size Gen.inb_S2048x1024_S256x1024_0_0) (fun _ => rfl)
abbrev dstSlab1 : Memref sig .tc .vmem S256x1024 .f32 :=
  (Memref.whole cc0_scratch0).slice (Rect.unit (s := S2048x1024) ![256, 0] S256x1024.size Gen.inb_S2048x1024_S256x1024_256_0) (fun _ => rfl)
abbrev dstSlab2 : Memref sig .tc .vmem S256x1024 .f32 :=
  (Memref.whole cc0_scratch0).slice (Rect.unit (s := S2048x1024) ![512, 0] S256x1024.size Gen.inb_S2048x1024_S256x1024_512_0) (fun _ => rfl)
abbrev dstSlab3 : Memref sig .tc .vmem S256x1024 .f32 :=
  (Memref.whole cc0_scratch0).slice (Rect.unit (s := S2048x1024) ![768, 0] S256x1024.size Gen.inb_S2048x1024_S256x1024_768_0) (fun _ => rfl)
abbrev dstSlab4 : Memref sig .tc .vmem S256x1024 .f32 :=
  (Memref.whole cc0_scratch0).slice (Rect.unit (s := S2048x1024) ![1024, 0] S256x1024.size Gen.inb_S2048x1024_S256x1024_1024_0) (fun _ => rfl)
abbrev dstSlab5 : Memref sig .tc .vmem S256x1024 .f32 :=
  (Memref.whole cc0_scratch0).slice (Rect.unit (s := S2048x1024) ![1280, 0] S256x1024.size Gen.inb_S2048x1024_S256x1024_1280_0) (fun _ => rfl)
abbrev dstSlab6 : Memref sig .tc .vmem S256x1024 .f32 :=
  (Memref.whole cc0_scratch0).slice (Rect.unit (s := S2048x1024) ![1536, 0] S256x1024.size Gen.inb_S2048x1024_S256x1024_1536_0) (fun _ => rfl)
abbrev dstSlab7 : Memref sig .tc .vmem S256x1024 .f32 :=
  (Memref.whole cc0_scratch0).slice (Rect.unit (s := S2048x1024) ![1792, 0] S256x1024.size Gen.inb_S2048x1024_S256x1024_1792_0) (fun _ => rfl)

theorem srcSlab0_set : srcSlab0.view.set = (slabR 0 Gen.inb_S2048x1024_S256x1024_0_0).set := View.set_slice_whole main_arg0 _
theorem srcSlab1_set : srcSlab1.view.set = (slabR 256 Gen.inb_S2048x1024_S256x1024_256_0).set := View.set_slice_whole main_arg0 _
theorem srcSlab2_set : srcSlab2.view.set = (slabR 512 Gen.inb_S2048x1024_S256x1024_512_0).set := View.set_slice_whole main_arg0 _
theorem srcSlab3_set : srcSlab3.view.set = (slabR 768 Gen.inb_S2048x1024_S256x1024_768_0).set := View.set_slice_whole main_arg0 _
theorem srcSlab4_set : srcSlab4.view.set = (slabR 1024 Gen.inb_S2048x1024_S256x1024_1024_0).set := View.set_slice_whole main_arg0 _
theorem srcSlab5_set : srcSlab5.view.set = (slabR 1280 Gen.inb_S2048x1024_S256x1024_1280_0).set := View.set_slice_whole main_arg0 _
theorem srcSlab6_set : srcSlab6.view.set = (slabR 1536 Gen.inb_S2048x1024_S256x1024_1536_0).set := View.set_slice_whole main_arg0 _
theorem srcSlab7_set : srcSlab7.view.set = (slabR 1792 Gen.inb_S2048x1024_S256x1024_1792_0).set := View.set_slice_whole main_arg0 _

theorem dstSlab0_set : dstSlab0.view.set = (slabR 0 Gen.inb_S2048x1024_S256x1024_0_0).set := View.set_slice_whole cc0_scratch0 _
theorem dstSlab1_set : dstSlab1.view.set = (slabR 256 Gen.inb_S2048x1024_S256x1024_256_0).set := View.set_slice_whole cc0_scratch0 _
theorem dstSlab2_set : dstSlab2.view.set = (slabR 512 Gen.inb_S2048x1024_S256x1024_512_0).set := View.set_slice_whole cc0_scratch0 _
theorem dstSlab3_set : dstSlab3.view.set = (slabR 768 Gen.inb_S2048x1024_S256x1024_768_0).set := View.set_slice_whole cc0_scratch0 _
theorem dstSlab4_set : dstSlab4.view.set = (slabR 1024 Gen.inb_S2048x1024_S256x1024_1024_0).set := View.set_slice_whole cc0_scratch0 _
theorem dstSlab5_set : dstSlab5.view.set = (slabR 1280 Gen.inb_S2048x1024_S256x1024_1280_0).set := View.set_slice_whole cc0_scratch0 _
theorem dstSlab6_set : dstSlab6.view.set = (slabR 1536 Gen.inb_S2048x1024_S256x1024_1536_0).set := View.set_slice_whole cc0_scratch0 _
theorem dstSlab7_set : dstSlab7.view.set = (slabR 1792 Gen.inb_S2048x1024_S256x1024_1792_0).set := View.set_slice_whole cc0_scratch0 _

theorem mem_srcSlab0 (i : srcSlab0.view.ty.Idx) : i ∈ srcSlab0.view.set ↔ 0 ≤ (i 0).val ∧ (i 0).val < 0 + 256 := by
  rw [srcSlab0_set]; exact mem_slabR _ _ i
theorem mem_srcSlab1 (i : srcSlab1.view.ty.Idx) : i ∈ srcSlab1.view.set ↔ 256 ≤ (i 0).val ∧ (i 0).val < 256 + 256 := by
  rw [srcSlab1_set]; exact mem_slabR _ _ i
theorem mem_srcSlab2 (i : srcSlab2.view.ty.Idx) : i ∈ srcSlab2.view.set ↔ 512 ≤ (i 0).val ∧ (i 0).val < 512 + 256 := by
  rw [srcSlab2_set]; exact mem_slabR _ _ i
theorem mem_srcSlab3 (i : srcSlab3.view.ty.Idx) : i ∈ srcSlab3.view.set ↔ 768 ≤ (i 0).val ∧ (i 0).val < 768 + 256 := by
  rw [srcSlab3_set]; exact mem_slabR _ _ i
theorem mem_srcSlab4 (i : srcSlab4.view.ty.Idx) : i ∈ srcSlab4.view.set ↔ 1024 ≤ (i 0).val ∧ (i 0).val < 1024 + 256 := by
  rw [srcSlab4_set]; exact mem_slabR _ _ i
theorem mem_srcSlab5 (i : srcSlab5.view.ty.Idx) : i ∈ srcSlab5.view.set ↔ 1280 ≤ (i 0).val ∧ (i 0).val < 1280 + 256 := by
  rw [srcSlab5_set]; exact mem_slabR _ _ i
theorem mem_srcSlab6 (i : srcSlab6.view.ty.Idx) : i ∈ srcSlab6.view.set ↔ 1536 ≤ (i 0).val ∧ (i 0).val < 1536 + 256 := by
  rw [srcSlab6_set]; exact mem_slabR _ _ i
theorem mem_srcSlab7 (i : srcSlab7.view.ty.Idx) : i ∈ srcSlab7.view.set ↔ 1792 ≤ (i 0).val ∧ (i 0).val < 1792 + 256 := by
  rw [srcSlab7_set]; exact mem_slabR _ _ i

theorem mem_dstSlab0 (i : dstSlab0.view.ty.Idx) : i ∈ dstSlab0.view.set ↔ 0 ≤ (i 0).val ∧ (i 0).val < 0 + 256 := by
  rw [dstSlab0_set]; exact mem_slabR _ _ i
theorem mem_dstSlab1 (i : dstSlab1.view.ty.Idx) : i ∈ dstSlab1.view.set ↔ 256 ≤ (i 0).val ∧ (i 0).val < 256 + 256 := by
  rw [dstSlab1_set]; exact mem_slabR _ _ i
theorem mem_dstSlab2 (i : dstSlab2.view.ty.Idx) : i ∈ dstSlab2.view.set ↔ 512 ≤ (i 0).val ∧ (i 0).val < 512 + 256 := by
  rw [dstSlab2_set]; exact mem_slabR _ _ i
theorem mem_dstSlab3 (i : dstSlab3.view.ty.Idx) : i ∈ dstSlab3.view.set ↔ 768 ≤ (i 0).val ∧ (i 0).val < 768 + 256 := by
  rw [dstSlab3_set]; exact mem_slabR _ _ i
theorem mem_dstSlab4 (i : dstSlab4.view.ty.Idx) : i ∈ dstSlab4.view.set ↔ 1024 ≤ (i 0).val ∧ (i 0).val < 1024 + 256 := by
  rw [dstSlab4_set]; exact mem_slabR _ _ i
theorem mem_dstSlab5 (i : dstSlab5.view.ty.Idx) : i ∈ dstSlab5.view.set ↔ 1280 ≤ (i 0).val ∧ (i 0).val < 1280 + 256 := by
  rw [dstSlab5_set]; exact mem_slabR _ _ i
theorem mem_dstSlab6 (i : dstSlab6.view.ty.Idx) : i ∈ dstSlab6.view.set ↔ 1536 ≤ (i 0).val ∧ (i 0).val < 1536 + 256 := by
  rw [dstSlab6_set]; exact mem_slabR _ _ i
theorem mem_dstSlab7 (i : dstSlab7.view.ty.Idx) : i ∈ dstSlab7.view.set ↔ 1792 ≤ (i 0).val ∧ (i 0).val < 1792 + 256 := by
  rw [dstSlab7_set]; exact mem_slabR _ _ i

/-! ## A buffer held whole is its eight slabs -/

/-- Along disjoint element sets, as an equation. -/
theorem pts_union_eq {ℓ : Loc nD τ sig} {I J : Finset (Idx ℓ)} (q : PosShare TreeShare) (f : Buf (Elt F) ℓ) (h : Disjoint I J) :
    (ℓ ↦[I ∪ J]{q} f : sProp 𝕄) = iprop((ℓ ↦[I]{q} f) ∗ ℓ ↦[J]{q} f) := by
  have hu := pointsTo_union (ℓ := ℓ) (I := I) (J := J) (q := q) (f := f) (Val := Elt F) (Ix := Unit) (Name := ℕ) (U := UU)
    (Lvl := ℕ) h
  exact BI.equiv_iff.mp ⟨hu.1, hu.2⟩

theorem src_slabs (c : Dev nD) (q : PosShare TreeShare) (f : Buf (Elt F) ((c : Thread nD τ).loc main_arg0)) :
    ((((c : Thread nD τ).loc main_arg0) ↦{q} f) : sProp 𝕄)
      = iprop((srcSlab0.view.loc (c : Thread nD τ) ↦[srcSlab0.view.set]{q} f)
        ∗ (srcSlab1.view.loc (c : Thread nD τ) ↦[srcSlab1.view.set]{q} f)
        ∗ (srcSlab2.view.loc (c : Thread nD τ) ↦[srcSlab2.view.set]{q} f)
        ∗ (srcSlab3.view.loc (c : Thread nD τ) ↦[srcSlab3.view.set]{q} f)
        ∗ (srcSlab4.view.loc (c : Thread nD τ) ↦[srcSlab4.view.set]{q} f)
        ∗ (srcSlab5.view.loc (c : Thread nD τ) ↦[srcSlab5.view.set]{q} f)
        ∗ (srcSlab6.view.loc (c : Thread nD τ) ↦[srcSlab6.view.set]{q} f)
        ∗ (srcSlab7.view.loc (c : Thread nD τ) ↦[srcSlab7.view.set]{q} f)) := by
  have step : ∀ (o o' : ℕ) (ho : o' = o + 256) (h : ∀ a, (![o, 0] : Fin 2 → ℕ) a + S256x1024.size a ≤ S2048x1024.size a),
      ((((c : Thread nD τ).loc main_arg0) ↦[rowsFrom o]{q} f) : sProp 𝕄)
        = iprop((((c : Thread nD τ).loc main_arg0) ↦[(slabR o h).set]{q} f) ∗ (((c : Thread nD τ).loc main_arg0) ↦[rowsFrom o']{q} f)) :=
    fun o o' ho h => by rw [rowsFrom_split o o' ho h]; exact pts_union_eq q f (rowsFrom_disj o o' ho h)
  have H : ((((c : Thread nD τ).loc main_arg0) ↦[rowsFrom 0]{q} f) : sProp 𝕄) = _ :=
    (step 0 256 rfl Gen.inb_S2048x1024_S256x1024_0_0).trans (congrArg _
    ((step 256 512 rfl Gen.inb_S2048x1024_S256x1024_256_0).trans (congrArg _
    ((step 512 768 rfl Gen.inb_S2048x1024_S256x1024_512_0).trans (congrArg _
    ((step 768 1024 rfl Gen.inb_S2048x1024_S256x1024_768_0).trans (congrArg _
    ((step 1024 1280 rfl Gen.inb_S2048x1024_S256x1024_1024_0).trans (congrArg _
    ((step 1280 1536 rfl Gen.inb_S2048x1024_S256x1024_1280_0).trans (congrArg _
    (step 1536 1792 rfl Gen.inb_S2048x1024_S256x1024_1536_0))))))))))))
  rw [rowsFrom_zero, rowsFrom_last Gen.inb_S2048x1024_S256x1024_1792_0, ← srcSlab0_set, ← srcSlab1_set, ← srcSlab2_set, ← srcSlab3_set, ← srcSlab4_set, ← srcSlab5_set, ← srcSlab6_set, ← srcSlab7_set] at H
  exact H

theorem dst_slabs (c : Dev nD) (f : Buf (Elt F) ((c : Thread nD τ).loc cc0_scratch0)) :
    ((((c : Thread nD τ).loc cc0_scratch0) ↦{fullShare} f) : sProp 𝕄)
      = iprop((dstSlab0.view.loc (c : Thread nD τ) ↦[dstSlab0.view.set]{fullShare} f)
        ∗ (dstSlab1.view.loc (c : Thread nD τ) ↦[dstSlab1.view.set]{fullShare} f)
        ∗ (dstSlab2.view.loc (c : Thread nD τ) ↦[dstSlab2.view.set]{fullShare} f)
        ∗ (dstSlab3.view.loc (c : Thread nD τ) ↦[dstSlab3.view.set]{fullShare} f)
        ∗ (dstSlab4.view.loc (c : Thread nD τ) ↦[dstSlab4.view.set]{fullShare} f)
        ∗ (dstSlab5.view.loc (c : Thread nD τ) ↦[dstSlab5.view.set]{fullShare} f)
        ∗ (dstSlab6.view.loc (c : Thread nD τ) ↦[dstSlab6.view.set]{fullShare} f)
        ∗ (dstSlab7.view.loc (c : Thread nD τ) ↦[dstSlab7.view.set]{fullShare} f)) := by
  have step : ∀ (o o' : ℕ) (ho : o' = o + 256) (h : ∀ a, (![o, 0] : Fin 2 → ℕ) a + S256x1024.size a ≤ S2048x1024.size a),
      ((((c : Thread nD τ).loc cc0_scratch0) ↦[rowsFrom o]{fullShare} f) : sProp 𝕄)
        = iprop((((c : Thread nD τ).loc cc0_scratch0) ↦[(slabR o h).set]{fullShare} f) ∗ (((c : Thread nD τ).loc cc0_scratch0) ↦[rowsFrom o']{fullShare} f)) :=
    fun o o' ho h => by rw [rowsFrom_split o o' ho h]; exact pts_union_eq fullShare f (rowsFrom_disj o o' ho h)
  have H : ((((c : Thread nD τ).loc cc0_scratch0) ↦[rowsFrom 0]{fullShare} f) : sProp 𝕄) = _ :=
    (step 0 256 rfl Gen.inb_S2048x1024_S256x1024_0_0).trans (congrArg _
    ((step 256 512 rfl Gen.inb_S2048x1024_S256x1024_256_0).trans (congrArg _
    ((step 512 768 rfl Gen.inb_S2048x1024_S256x1024_512_0).trans (congrArg _
    ((step 768 1024 rfl Gen.inb_S2048x1024_S256x1024_768_0).trans (congrArg _
    ((step 1024 1280 rfl Gen.inb_S2048x1024_S256x1024_1024_0).trans (congrArg _
    ((step 1280 1536 rfl Gen.inb_S2048x1024_S256x1024_1280_0).trans (congrArg _
    (step 1536 1792 rfl Gen.inb_S2048x1024_S256x1024_1536_0))))))))))))
  rw [rowsFrom_zero, rowsFrom_last Gen.inb_S2048x1024_S256x1024_1792_0, ← dstSlab0_set, ← dstSlab1_set, ← dstSlab2_set, ← dstSlab3_set, ← dstSlab4_set, ← dstSlab5_set, ← dstSlab6_set, ← dstSlab7_set] at H
  exact H

/-! ## Eight slabs held in full, each at its own contents, are the whole buffer -/

/-- A slab at its contents joins the rows after it, held at some contents, to the rows from it on. -/
theorem join_step (c : Dev nD) (o o' : ℕ) (ho : o' = o + 256) (h : ∀ a, (![o, 0] : Fin 2 → ℕ) a + S256x1024.size a ≤ S2048x1024.size a)
    (f : Buf (Elt F) ((c : Thread nD τ).loc cc0_scratch0)) :
    (iprop((((c : Thread nD τ).loc cc0_scratch0) ↦[(slabR o h).set]{fullShare} f) ∗ (∃ g, ((c : Thread nD τ).loc cc0_scratch0) ↦[rowsFrom o']{fullShare} g)) : sProp 𝕄)
      ⊢ iprop(∃ g, ((c : Thread nD τ).loc cc0_scratch0) ↦[rowsFrom o]{fullShare} g) := by
  iintro ⟨H1, H2⟩
  icases H2 with ⟨%g, H2⟩
  iexists ((rowsFrom o').piecewise g f)
  rw [rowsFrom_split o o' ho h]
  iapply (pointsTo_join (rowsFrom_disj o o' ho h))
  isplitl [H1]; · iexact H1
  iexact H2

theorem dst_join (c : Dev nD) (f0 f1 f2 f3 f4 f5 f6 f7 : Buf (Elt F) ((c : Thread nD τ).loc cc0_scratch0)) :
    (iprop((dstSlab0.view.loc (c : Thread nD τ) ↦[dstSlab0.view.set]{fullShare} f0)
        ∗ (dstSlab1.view.loc (c : Thread nD τ) ↦[dstSlab1.view.set]{fullShare} f1)
        ∗ (dstSlab2.view.loc (c : Thread nD τ) ↦[dstSlab2.view.set]{fullShare} f2)
        ∗ (dstSlab3.view.loc (c : Thread nD τ) ↦[dstSlab3.view.set]{fullShare} f3)
        ∗ (dstSlab4.view.loc (c : Thread nD τ) ↦[dstSlab4.view.set]{fullShare} f4)
        ∗ (dstSlab5.view.loc (c : Thread nD τ) ↦[dstSlab5.view.set]{fullShare} f5)
        ∗ (dstSlab6.view.loc (c : Thread nD τ) ↦[dstSlab6.view.set]{fullShare} f6)
        ∗ (dstSlab7.view.loc (c : Thread nD τ) ↦[dstSlab7.view.set]{fullShare} f7)) : sProp 𝕄)
      ⊢ iprop(∃ f, ((c : Thread nD τ).loc cc0_scratch0) ↦{fullShare} f) := by
  rw [dstSlab0_set, dstSlab1_set, dstSlab2_set, dstSlab3_set, dstSlab4_set, dstSlab5_set, dstSlab6_set, dstSlab7_set]
  have e7 : ((((c : Thread nD τ).loc cc0_scratch0) ↦[(slabR 1792 Gen.inb_S2048x1024_S256x1024_1792_0).set]{fullShare} f7) : sProp 𝕄)
      ⊢ iprop(∃ g, ((c : Thread nD τ).loc cc0_scratch0) ↦[rowsFrom 1792]{fullShare} g) := by
    rw [← rowsFrom_last]; iintro H; iexists f7; iexact H
  have e6 := (sep_mono_right e7).trans (join_step c 1536 1792 rfl Gen.inb_S2048x1024_S256x1024_1536_0 f6)
  have e5 := (sep_mono_right e6).trans (join_step c 1280 1536 rfl Gen.inb_S2048x1024_S256x1024_1280_0 f5)
  have e4 := (sep_mono_right e5).trans (join_step c 1024 1280 rfl Gen.inb_S2048x1024_S256x1024_1024_0 f4)
  have e3 := (sep_mono_right e4).trans (join_step c 768 1024 rfl Gen.inb_S2048x1024_S256x1024_768_0 f3)
  have e2 := (sep_mono_right e3).trans (join_step c 512 768 rfl Gen.inb_S2048x1024_S256x1024_512_0 f2)
  have e1 := (sep_mono_right e2).trans (join_step c 256 512 rfl Gen.inb_S2048x1024_S256x1024_256_0 f1)
  have e0 := (sep_mono_right e1).trans (join_step c 0 256 rfl Gen.inb_S2048x1024_S256x1024_0_0 f0)
  rw [rowsFrom_zero] at e0
  exact e0

/-! ## What a load of a slab of the VMEM copy reaches -/

theorem load0_set_eq : (xvM.access (Rect.unit (s := S2048x1024) ![0, 0] S256x1024.size Gen.inb_S2048x1024_S256x1024_0_0)).set = dstSlab0.view.set := rfl
theorem load0_set_sub : (xvM.access (Rect.unit (s := S2048x1024) ![0, 0] S256x1024.size Gen.inb_S2048x1024_S256x1024_0_0)).set ⊆ dstSlab0.view.set :=
  Finset.Subset.refl _
theorem load0_setOn_eq :
    xvM.view.setOn (Rect.unit (s := S2048x1024) ![0, 0] S256x1024.size Gen.inb_S2048x1024_S256x1024_0_0).toLoadRect.set = dstSlab0.view.set := by
  rw [dstSlab0_set]; unfold View.setOn; exact Finset.map_refl
theorem load0_setOn_sub :
    xvM.view.setOn (Rect.unit (s := S2048x1024) ![0, 0] S256x1024.size Gen.inb_S2048x1024_S256x1024_0_0).toLoadRect.set ⊆ dstSlab0.view.set :=
  (load0_setOn_eq).subset
theorem load1_set_eq : (xvM.access (Rect.unit (s := S2048x1024) ![256, 0] S256x1024.size Gen.inb_S2048x1024_S256x1024_256_0)).set = dstSlab1.view.set := rfl
theorem load1_set_sub : (xvM.access (Rect.unit (s := S2048x1024) ![256, 0] S256x1024.size Gen.inb_S2048x1024_S256x1024_256_0)).set ⊆ dstSlab1.view.set :=
  Finset.Subset.refl _
theorem load1_setOn_eq :
    xvM.view.setOn (Rect.unit (s := S2048x1024) ![256, 0] S256x1024.size Gen.inb_S2048x1024_S256x1024_256_0).toLoadRect.set = dstSlab1.view.set := by
  rw [dstSlab1_set]; unfold View.setOn; exact Finset.map_refl
theorem load1_setOn_sub :
    xvM.view.setOn (Rect.unit (s := S2048x1024) ![256, 0] S256x1024.size Gen.inb_S2048x1024_S256x1024_256_0).toLoadRect.set ⊆ dstSlab1.view.set :=
  (load1_setOn_eq).subset
theorem load2_set_eq : (xvM.access (Rect.unit (s := S2048x1024) ![512, 0] S256x1024.size Gen.inb_S2048x1024_S256x1024_512_0)).set = dstSlab2.view.set := rfl
theorem load2_set_sub : (xvM.access (Rect.unit (s := S2048x1024) ![512, 0] S256x1024.size Gen.inb_S2048x1024_S256x1024_512_0)).set ⊆ dstSlab2.view.set :=
  Finset.Subset.refl _
theorem load2_setOn_eq :
    xvM.view.setOn (Rect.unit (s := S2048x1024) ![512, 0] S256x1024.size Gen.inb_S2048x1024_S256x1024_512_0).toLoadRect.set = dstSlab2.view.set := by
  rw [dstSlab2_set]; unfold View.setOn; exact Finset.map_refl
theorem load2_setOn_sub :
    xvM.view.setOn (Rect.unit (s := S2048x1024) ![512, 0] S256x1024.size Gen.inb_S2048x1024_S256x1024_512_0).toLoadRect.set ⊆ dstSlab2.view.set :=
  (load2_setOn_eq).subset
theorem load3_set_eq : (xvM.access (Rect.unit (s := S2048x1024) ![768, 0] S256x1024.size Gen.inb_S2048x1024_S256x1024_768_0)).set = dstSlab3.view.set := rfl
theorem load3_set_sub : (xvM.access (Rect.unit (s := S2048x1024) ![768, 0] S256x1024.size Gen.inb_S2048x1024_S256x1024_768_0)).set ⊆ dstSlab3.view.set :=
  Finset.Subset.refl _
theorem load3_setOn_eq :
    xvM.view.setOn (Rect.unit (s := S2048x1024) ![768, 0] S256x1024.size Gen.inb_S2048x1024_S256x1024_768_0).toLoadRect.set = dstSlab3.view.set := by
  rw [dstSlab3_set]; unfold View.setOn; exact Finset.map_refl
theorem load3_setOn_sub :
    xvM.view.setOn (Rect.unit (s := S2048x1024) ![768, 0] S256x1024.size Gen.inb_S2048x1024_S256x1024_768_0).toLoadRect.set ⊆ dstSlab3.view.set :=
  (load3_setOn_eq).subset
theorem load4_set_eq : (xvM.access (Rect.unit (s := S2048x1024) ![1024, 0] S256x1024.size Gen.inb_S2048x1024_S256x1024_1024_0)).set = dstSlab4.view.set := rfl
theorem load4_set_sub : (xvM.access (Rect.unit (s := S2048x1024) ![1024, 0] S256x1024.size Gen.inb_S2048x1024_S256x1024_1024_0)).set ⊆ dstSlab4.view.set :=
  Finset.Subset.refl _
theorem load4_setOn_eq :
    xvM.view.setOn (Rect.unit (s := S2048x1024) ![1024, 0] S256x1024.size Gen.inb_S2048x1024_S256x1024_1024_0).toLoadRect.set = dstSlab4.view.set := by
  rw [dstSlab4_set]; unfold View.setOn; exact Finset.map_refl
theorem load4_setOn_sub :
    xvM.view.setOn (Rect.unit (s := S2048x1024) ![1024, 0] S256x1024.size Gen.inb_S2048x1024_S256x1024_1024_0).toLoadRect.set ⊆ dstSlab4.view.set :=
  (load4_setOn_eq).subset
theorem load5_set_eq : (xvM.access (Rect.unit (s := S2048x1024) ![1280, 0] S256x1024.size Gen.inb_S2048x1024_S256x1024_1280_0)).set = dstSlab5.view.set := rfl
theorem load5_set_sub : (xvM.access (Rect.unit (s := S2048x1024) ![1280, 0] S256x1024.size Gen.inb_S2048x1024_S256x1024_1280_0)).set ⊆ dstSlab5.view.set :=
  Finset.Subset.refl _
theorem load5_setOn_eq :
    xvM.view.setOn (Rect.unit (s := S2048x1024) ![1280, 0] S256x1024.size Gen.inb_S2048x1024_S256x1024_1280_0).toLoadRect.set = dstSlab5.view.set := by
  rw [dstSlab5_set]; unfold View.setOn; exact Finset.map_refl
theorem load5_setOn_sub :
    xvM.view.setOn (Rect.unit (s := S2048x1024) ![1280, 0] S256x1024.size Gen.inb_S2048x1024_S256x1024_1280_0).toLoadRect.set ⊆ dstSlab5.view.set :=
  (load5_setOn_eq).subset
theorem load6_set_eq : (xvM.access (Rect.unit (s := S2048x1024) ![1536, 0] S256x1024.size Gen.inb_S2048x1024_S256x1024_1536_0)).set = dstSlab6.view.set := rfl
theorem load6_set_sub : (xvM.access (Rect.unit (s := S2048x1024) ![1536, 0] S256x1024.size Gen.inb_S2048x1024_S256x1024_1536_0)).set ⊆ dstSlab6.view.set :=
  Finset.Subset.refl _
theorem load6_setOn_eq :
    xvM.view.setOn (Rect.unit (s := S2048x1024) ![1536, 0] S256x1024.size Gen.inb_S2048x1024_S256x1024_1536_0).toLoadRect.set = dstSlab6.view.set := by
  rw [dstSlab6_set]; unfold View.setOn; exact Finset.map_refl
theorem load6_setOn_sub :
    xvM.view.setOn (Rect.unit (s := S2048x1024) ![1536, 0] S256x1024.size Gen.inb_S2048x1024_S256x1024_1536_0).toLoadRect.set ⊆ dstSlab6.view.set :=
  (load6_setOn_eq).subset
theorem load7_set_eq : (xvM.access (Rect.unit (s := S2048x1024) ![1792, 0] S256x1024.size Gen.inb_S2048x1024_S256x1024_1792_0)).set = dstSlab7.view.set := rfl
theorem load7_set_sub : (xvM.access (Rect.unit (s := S2048x1024) ![1792, 0] S256x1024.size Gen.inb_S2048x1024_S256x1024_1792_0)).set ⊆ dstSlab7.view.set :=
  Finset.Subset.refl _
theorem load7_setOn_eq :
    xvM.view.setOn (Rect.unit (s := S2048x1024) ![1792, 0] S256x1024.size Gen.inb_S2048x1024_S256x1024_1792_0).toLoadRect.set = dstSlab7.view.set := by
  rw [dstSlab7_set]; unfold View.setOn; exact Finset.map_refl
theorem load7_setOn_sub :
    xvM.view.setOn (Rect.unit (s := S2048x1024) ![1792, 0] S256x1024.size Gen.inb_S2048x1024_S256x1024_1792_0).toLoadRect.set ⊆ dstSlab7.view.set :=
  (load7_setOn_eq).subset

/-! ## What is read back from a slab of the VMEM copy after the transfer has landed in it -/

/-- A load of rows `o … o + 255` of the VMEM buffer, after one write of `P` through the whole of that slab's view over any
    contents, reads `P`. -/
theorem slab_readback_at (o : ℕ) (h : ∀ a, (![o, 0] : Fin 2 → ℕ) a + S256x1024.size a ≤ S2048x1024.size a) (fd : (cc0_scratch0 : Ref sig .tc).ty.Contents (Elt F))
    (P : Vec F S256x1024 .f32) :
    View.readAt (Elt F) (Memref.whole cc0_scratch0).view (Rect.unit (s := S2048x1024) ![o, 0] S256x1024.size h).toLoadRect
      (((Memref.whole cc0_scratch0).slice (Rect.unit (s := S2048x1024) ![o, 0] S256x1024.size h) (fun _ => rfl)).view.writes
        (Elt F) fd [⟨Rect.whole S256x1024, P⟩]) = P := by
  funext y
  have e := View.read_writes_cons_emb
    (v := ((Memref.whole cc0_scratch0).slice (Rect.unit (s := S2048x1024) ![o, 0] S256x1024.size h) (fun _ => rfl)).view)
    (Val := Elt F) fd (Rect.whole S256x1024) P [] y
  have hy : (Rect.whole S256x1024).emb y = y := Rect.emb_whole_apply S256x1024 y
  exact (congrArg _ hy.symm).trans e

theorem slab_readback_0 {fd : (cc0_scratch0 : Ref sig .tc).ty.Contents (Elt F)} (P : Vec F S256x1024 .f32) :
    View.readAt (Elt F) (Memref.whole cc0_scratch0).view (Rect.unit (s := S2048x1024) ![0, 0] S256x1024.size Gen.inb_S2048x1024_S256x1024_0_0).toLoadRect
      (dstSlab0.view.writes (Elt F) fd [⟨Rect.whole S256x1024, P⟩]) = P :=
  slab_readback_at 0 Gen.inb_S2048x1024_S256x1024_0_0 fd P
theorem slab_readback_1 {fd : (cc0_scratch0 : Ref sig .tc).ty.Contents (Elt F)} (P : Vec F S256x1024 .f32) :
    View.readAt (Elt F) (Memref.whole cc0_scratch0).view (Rect.unit (s := S2048x1024) ![256, 0] S256x1024.size Gen.inb_S2048x1024_S256x1024_256_0).toLoadRect
      (dstSlab1.view.writes (Elt F) fd [⟨Rect.whole S256x1024, P⟩]) = P :=
  slab_readback_at 256 Gen.inb_S2048x1024_S256x1024_256_0 fd P
theorem slab_readback_2 {fd : (cc0_scratch0 : Ref sig .tc).ty.Contents (Elt F)} (P : Vec F S256x1024 .f32) :
    View.readAt (Elt F) (Memref.whole cc0_scratch0).view (Rect.unit (s := S2048x1024) ![512, 0] S256x1024.size Gen.inb_S2048x1024_S256x1024_512_0).toLoadRect
      (dstSlab2.view.writes (Elt F) fd [⟨Rect.whole S256x1024, P⟩]) = P :=
  slab_readback_at 512 Gen.inb_S2048x1024_S256x1024_512_0 fd P
theorem slab_readback_3 {fd : (cc0_scratch0 : Ref sig .tc).ty.Contents (Elt F)} (P : Vec F S256x1024 .f32) :
    View.readAt (Elt F) (Memref.whole cc0_scratch0).view (Rect.unit (s := S2048x1024) ![768, 0] S256x1024.size Gen.inb_S2048x1024_S256x1024_768_0).toLoadRect
      (dstSlab3.view.writes (Elt F) fd [⟨Rect.whole S256x1024, P⟩]) = P :=
  slab_readback_at 768 Gen.inb_S2048x1024_S256x1024_768_0 fd P
theorem slab_readback_4 {fd : (cc0_scratch0 : Ref sig .tc).ty.Contents (Elt F)} (P : Vec F S256x1024 .f32) :
    View.readAt (Elt F) (Memref.whole cc0_scratch0).view (Rect.unit (s := S2048x1024) ![1024, 0] S256x1024.size Gen.inb_S2048x1024_S256x1024_1024_0).toLoadRect
      (dstSlab4.view.writes (Elt F) fd [⟨Rect.whole S256x1024, P⟩]) = P :=
  slab_readback_at 1024 Gen.inb_S2048x1024_S256x1024_1024_0 fd P
theorem slab_readback_5 {fd : (cc0_scratch0 : Ref sig .tc).ty.Contents (Elt F)} (P : Vec F S256x1024 .f32) :
    View.readAt (Elt F) (Memref.whole cc0_scratch0).view (Rect.unit (s := S2048x1024) ![1280, 0] S256x1024.size Gen.inb_S2048x1024_S256x1024_1280_0).toLoadRect
      (dstSlab5.view.writes (Elt F) fd [⟨Rect.whole S256x1024, P⟩]) = P :=
  slab_readback_at 1280 Gen.inb_S2048x1024_S256x1024_1280_0 fd P
theorem slab_readback_6 {fd : (cc0_scratch0 : Ref sig .tc).ty.Contents (Elt F)} (P : Vec F S256x1024 .f32) :
    View.readAt (Elt F) (Memref.whole cc0_scratch0).view (Rect.unit (s := S2048x1024) ![1536, 0] S256x1024.size Gen.inb_S2048x1024_S256x1024_1536_0).toLoadRect
      (dstSlab6.view.writes (Elt F) fd [⟨Rect.whole S256x1024, P⟩]) = P :=
  slab_readback_at 1536 Gen.inb_S2048x1024_S256x1024_1536_0 fd P
theorem slab_readback_7 {fd : (cc0_scratch0 : Ref sig .tc).ty.Contents (Elt F)} (P : Vec F S256x1024 .f32) :
    View.readAt (Elt F) (Memref.whole cc0_scratch0).view (Rect.unit (s := S2048x1024) ![1792, 0] S256x1024.size Gen.inb_S2048x1024_S256x1024_1792_0).toLoadRect
      (dstSlab7.view.writes (Elt F) fd [⟨Rect.whole S256x1024, P⟩]) = P :=
  slab_readback_at 1792 Gen.inb_S2048x1024_S256x1024_1792_0 fd P

/-! ## A slab of the HBM block read through the kernel's slice is the slab the contents are stated over -/

theorem src_slab_read_0 (X : (main_arg0 : Ref sig .tc).ty.Contents (Elt F)) : srcSlab0.view.read (Elt F) X = slab 0 X := by
  unfold slab; rfl
theorem src_slab_read_1 (X : (main_arg0 : Ref sig .tc).ty.Contents (Elt F)) : srcSlab1.view.read (Elt F) X = slab 1 X := by
  unfold slab; rfl
theorem src_slab_read_2 (X : (main_arg0 : Ref sig .tc).ty.Contents (Elt F)) : srcSlab2.view.read (Elt F) X = slab 2 X := by
  unfold slab; rfl
theorem src_slab_read_3 (X : (main_arg0 : Ref sig .tc).ty.Contents (Elt F)) : srcSlab3.view.read (Elt F) X = slab 3 X := by
  unfold slab; rfl
theorem src_slab_read_4 (X : (main_arg0 : Ref sig .tc).ty.Contents (Elt F)) : srcSlab4.view.read (Elt F) X = slab 4 X := by
  unfold slab; rfl
theorem src_slab_read_5 (X : (main_arg0 : Ref sig .tc).ty.Contents (Elt F)) : srcSlab5.view.read (Elt F) X = slab 5 X := by
  unfold slab; rfl
theorem src_slab_read_6 (X : (main_arg0 : Ref sig .tc).ty.Contents (Elt F)) : srcSlab6.view.read (Elt F) X = slab 6 X := by
  unfold slab; rfl
theorem src_slab_read_7 (X : (main_arg0 : Ref sig .tc).ty.Contents (Elt F)) : srcSlab7.view.read (Elt F) X = slab 7 X := by
  unfold slab; rfl

/-- info: 'Cert.KernelIdealProof.src_slabs' depends on axioms: [propext, Classical.choice, Quot.sound] -/
#guard_msgs in #print axioms src_slabs

/-- info: 'Cert.KernelIdealProof.dst_join' depends on axioms: [propext, Classical.choice, Quot.sound] -/
#guard_msgs in #print axioms dst_join

/-- info: 'Cert.KernelIdealProof.slab_readback_7' depends on axioms: [propext, Classical.choice, Quot.sound] -/
#guard_msgs in #print axioms slab_readback_7

end Cert.KernelIdealProof

end
-- ==== Proof.Ideal.Whole.lean ====
/- The table read through its full rectangle is the table; one write of the whole one-row output buffer over any
   contents leaves the written vector; so the body's last store, of the column maxima of the table it has just read
   whole, leaves the result: the column maxima of the gathered table. -/
import proofs.«900916_g7700000000000917_dist_max_ax0_shard0_i_m2048_n1024_v7x_i32_f32_1_alg».proof.Proof.Ideal.Tables
import Idealize.ShloMosaic.Lib.Writes

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The offsets `[0, 0]` are zero on both axes. -/
theorem off00_zero : (![0, 0] : Fin 2 → ℕ) = fun _ => 0 := by
  funext a
  match a with
  | ⟨0, _⟩ => rfl
  | ⟨1, _⟩ => rfl

/-- The whole table read through its full rectangle is the table. -/
theorem tbl_read_whole (T : (cc0_scratch2 : Ref sig .tc).ty.Contents (Elt F)) :
    View.readAt (Elt F) tblM.view
      (Rect.unit (s := S32x1024) ![0, 0] S32x1024.size Gen.inb_S32x1024_S32x1024_0_0).toLoadRect T = T :=
  Memref.readAt_unit_zero (Elt F) cc0_scratch2 off00_zero _ T

/-- One write of the whole output buffer, over any contents, leaves the written vector. -/
theorem out_written (g0 : (cc0_stg0_0 : Ref sig .tc).ty.Contents (Elt F)) (v : FVec F S1x1024 .f32) :
    (Memref.whole cc0_stg0_0 : Memref sig .tc .vmem S1x1024 .f32).view.writes (Elt F) g0
      [⟨Rect.unit (s := S1x1024) ![0, 0] S1x1024.size Gen.inb_S1x1024_S1x1024_0_0, v⟩] = v := by
  rw [View.writes_singleton]
  exact Memref.write_access_unit_zero_univ (Elt F) cc0_stg0_0 off00_zero _ g0 v

/-- The body's last store leaves the result. -/
theorem out_final (g0 : (cc0_stg0_0 : Ref sig .tc).ty.Contents (Elt F)) :
    (Memref.whole cc0_stg0_0 : Memref sig .tc .vmem S1x1024 .f32).view.writes (Elt F) g0
      [⟨Rect.unit (s := S1x1024) ![0, 0] S1x1024.size Gen.inb_S1x1024_S1x1024_0_0,
        k0_pay1 (View.readAt (Elt F) tblM.view
          (Rect.unit (s := S32x1024) ![0, 0] S32x1024.size Gen.inb_S32x1024_S32x1024_0_0).toLoadRect (tbl m))⟩]
      = outAt m := by
  rw [tbl_read_whole, out_written]
  unfold outAt result tbl
  rfl

/-- info: 'Cert.KernelIdealProof.out_final' depends on axioms: [propext, Classical.choice, Quot.sound] -/
#guard_msgs in #print axioms out_final

end Cert.KernelIdealProof

end
-- ==== Proof.Ideal.Body.lean ====
/- The body of the one pallas_call, run once on a symbolic device: the 31 signals, the 8 local copies of the block's
   slabs with their waits and the column maxima, the device's row stored, the barrier wait, the 31 transfers of the row
   and the 62 waits, the column maxima of the gathered table. -/
import proofs.«900916_g7700000000000917_dist_max_ax0_shard0_i_m2048_n1024_v7x_i32_f32_1_alg».proof.Proof.Ideal.Steps
import proofs.«900916_g7700000000000917_dist_max_ax0_shard0_i_m2048_n1024_v7x_i32_f32_1_alg».proof.Proof.Ideal.Levels
import proofs.«900916_g7700000000000917_dist_max_ax0_shard0_i_m2048_n1024_v7x_i32_f32_1_alg».proof.Proof.Ideal.Rows
import proofs.«900916_g7700000000000917_dist_max_ax0_shard0_i_m2048_n1024_v7x_i32_f32_1_alg».proof.Proof.Ideal.Slabs
import proofs.«900916_g7700000000000917_dist_max_ax0_shard0_i_m2048_n1024_v7x_i32_f32_1_alg».proof.Proof.Ideal.Whole
import proofs.«900916_g7700000000000917_dist_max_ax0_shard0_i_m2048_n1024_v7x_i32_f32_1_alg».proof.Proof.Gen.KernelIdeal.Points

noncomputable section

namespace Cert.KernelIdealProof

open Cert.KernelIdeal Cert.KernelIdeal.Gen Cert.Peers

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the body addresses: its `k`-th signal and its `k`-th transfer both name its `k`-th partner -/

open Lean Elab Command in
elab "mk_dev_eqs" : command => do
  for k in [0:31] do
    let nm1 := mkIdent (Name.mkSimple s!"sigDev{k}_eq")
    let nm2 := mkIdent (Name.mkSimple s!"xferDev{k}_eq")
    let d1 := mkIdent (Name.mkSimple s!"k0_dev{k+1}")
    let d1lt := mkIdent (Name.mkSimple s!"k0_dev{k+1}_lt")
    let d1eq := mkIdent (Name.mkSimple s!"k0_dev{k+1}_eq")
    let d2 := mkIdent (Name.mkSimple s!"k0_dev{k+32}")
    let d2lt := mkIdent (Name.mkSimple s!"k0_dev{k+32}_lt")
    let d2eq := mkIdent (Name.mkSimple s!"k0_dev{k+32}_eq")
    let kk := Syntax.mkNumLit (toString k)
    elabCommand (← `(theorem $nm1 (c : Dev nD) : (⟨$d1 c, $d1lt c⟩ : Dev nD) = fwd ($kk : Fin 31) c := Fin.ext ($d1eq c)))
    elabCommand (← `(theorem $nm2 (c : Dev nD) : (⟨$d2 c, $d2lt c⟩ : Dev nD) = fwd ($kk : Fin 31) c := Fin.ext ($d2eq c)))

mk_dev_eqs

/-! ## Small restatements -/

omit [FloatOps F] in
/-- A whole buffer's points-to, read through its whole memref's view. -/
theorem whole_pts (c : Dev nD) (b : Ref sig .tc) (q : PosShare TreeShare) (f : Buf (Elt F) ((c : Thread nD τ).loc b)) :
    ((((c : Thread nD τ).loc b) ↦{q} f) : sProp 𝕄)
      = ((Memref.whole b : Memref sig .tc _ _ _).view.loc (c : Thread nD τ) ↦[(Memref.whole b : Memref sig .tc _ _ _).view.set]{q} f) := by
  rw [View.set_whole]

omit [FloatOps F] in
/-- The eight load semaphores' counters, one by one. -/
theorem loads_list (c : Dev nD) : loadsZero (F := F) c
    = iprop(semVal ((c : Thread nD τ), SemLoc.dma (loadS 0)) 0 ∗ semVal ((c : Thread nD τ), SemLoc.dma (loadS 1)) 0
      ∗ semVal ((c : Thread nD τ), SemLoc.dma (loadS 2)) 0 ∗ semVal ((c : Thread nD τ), SemLoc.dma (loadS 3)) 0
      ∗ semVal ((c : Thread nD τ), SemLoc.dma (loadS 4)) 0 ∗ semVal ((c : Thread nD τ), SemLoc.dma (loadS 5)) 0
      ∗ semVal ((c : Thread nD τ), SemLoc.dma (loadS 6)) 0 ∗ semVal ((c : Thread nD τ), SemLoc.dma (loadS 7)) 0) :=
  bigSep_univ_eq_bigSepL [0, 1, 2, 3, 4, 5, 6, 7] (by decide) (by decide) _

omit [FloatOps F] in
/-- The rows handed to the partners are handed over at whatever they hold. -/
theorem rows_weaken (c : Dev nD) (ft : Buf (Elt F) ((c : Thread nD τ).loc cc0_scratch2)) :
    (bigSep Finset.univ (fun k : Fin 31 => rowPts (F := F) c (fwd k c) fullShare ft) : sProp 𝕄)
      ⊢ bigSep Finset.univ (fun k : Fin 31 => iprop(∃ f, rowPts (F := F) c (fwd k c) fullShare f)) :=
  bigSep_mono fun k _ => exists_intro (Φ := fun f => rowPts (F := F) c (fwd k c) fullShare f) ft

omit [FloatOps F] in
/-- Nothing below slot 0. -/
theorem below0 (Φ : Fin 31 → sProp 𝕄) : ⊢ (bigSep (slotsBelow 0) Φ : sProp 𝕄) := by
  rw [slotsBelow_zero, bigSep_empty]; exact BI.Entails.refl _

/-- The device's row at the gathered table's contents, cut into the 31 transfers' shares. -/
theorem own_shares (c : Dev nD) :
    ((rowM c).view.loc (c : Thread nD τ) ↦[(rowM c).view.set]{fullShare} tbl m : sProp 𝕄)
      ⊢ bigSep (slotsFrom 0) (fun j => rowPts c c (xferShare j) (tbl m)) := by
  rw [slotsFrom_zero]; exact row_shares_split c c (tbl m)

/-- The device's row and the 31 landed rows are the whole table. -/
theorem table_join (c : Dev nD) :
    iprop(rowPts c c fullShare (tbl m) ∗ bigSep Finset.univ (fun k : Fin 31 => rowPts c (bwd k c) fullShare (tbl m)))
      ⊢ ((tblM : Memref sig .tc .vmem S32x1024 .f32).view.loc (c : Thread nD τ) ↦[(tblM : Memref sig .tc .vmem S32x1024 .f32).view.set]{fullShare} tbl m : sProp 𝕄) := by
  rw [← univ_bwd c (fun j => rowPts c j fullShare (tbl m)), rows_join m c, whole_pts]

omit [FloatOps F] in
/-- A program that has nothing left to do. -/
theorem wp_done {Ef : Type → Type} {Mask : Type} (Fr : Mask → sProp 𝕄) (wpE : Mask → ∀ ⦃β : Type⦄, Ef β → sWPT 𝕄 β) (E : Mask)
    (Q : PUnit → sProp 𝕄) :
    Q ⟨⟩ ⊢ wp Fr wpE E ((Prog.ret PUnit.unit : Prog Ef PUnit).bind fun _ => (Pure.pure PUnit.unit : Prog Ef PUnit)) Q := by
  rw [show ((Prog.ret PUnit.unit : Prog Ef PUnit).bind fun _ => (Pure.pure PUnit.unit : Prog Ef PUnit)) = Prog.ret PUnit.unit from rfl, wp_ret]
  iintro H; imodintro; iexact H

/-- Owing nothing after the point. -/
theorem owesAt_done (c : Dev nD) (W : Waits sig Unit) :
    (owes (c : Thread nD τ) 0 W : sProp 𝕄) ⊢ (dats m ρ 0 c).owesAt () t₀.succ := by
  unfold Dat.owesAt Pipeline.owesWithin
  rw [show (dats m ρ 0 c).owed t₀.succ = 0 from rfl]
  iintro HO
  iexists W
  isplitr; · ipureintro; exact fun _ _ => Or.inl trivial
  iexact HO

theorem owedSig_last (c : Dev nD) : owedSig c (30 + 1) = 0 := owedSig_end c
theorem owedArr_last (c : Dev nD) : owedArr c (30 + 1) = 0 := owedArr_end c
theorem slotsBelow_last : slotsBelow (30 + 1) = Finset.univ := slotsBelow_end

/-! ## The repeated steps, slot by slot -/

set_option hygiene false in
macro "sig_at " n:num e:ident : tactic => `(tactic| (
  iapply (sig_step m K c $n (by decide) _ ($e c) (owedArr c 0) _) $$ [HO HtB Hout]
  · isplitr; · iexact Hrec
    isplitl [HO]; · iexact HO
    isplitl [HtB] <;> iassumption
  iintro ⟨HO, HtB, Hout⟩
  sl_exec))

open Lean Elab Tactic in
elab "sig_all" : tactic => do
  for k in [0:31] do
    let e := mkIdent (Name.mkSimple s!"sigDev{k}_eq")
    let n := Syntax.mkNumLit (toString k)
    evalTactic (← `(tactic| sig_at $n $e))

set_option hygiene false in
macro "send_at " n:num e:ident : tactic => `(tactic| (
  iapply (send_step m K c $n (by decide) _ ($e c) _) $$ [HO HtV HtS Hdst Hsh HcS]
  · isplitr; · iexact Hrec
    isplitl [HO]; · iexact HO
    isplitl [HtV]; · iexact HtV
    isplitl [HtS]; · iexact HtS
    isplitl [Hdst]; · iexact Hdst
    isplitl [Hsh] <;> iassumption
  iintro ⟨HO, HtV, HtS, Hdst, Hsh, HcS⟩
  sl_exec))

open Lean Elab Tactic in
elab "send_all" : tactic => do
  for k in [0:31] do
    let e := mkIdent (Name.mkSimple s!"xferDev{k}_eq")
    let n := Syntax.mkNumLit (toString k)
    evalTactic (← `(tactic| send_at $n $e))

set_option hygiene false in
macro "waits_at " n:num : tactic => `(tactic| (
  iapply (wait_send_step m K c $n (by decide) _) $$ [HO HcS HatS HshB HzS]
  · isplitr; · iexact Hrec
    isplitl [HO]; · iexact HO
    isplitl [HcS]; · iexact HcS
    isplitl [HatS]; · iexact HatS
    isplitl [HshB] <;> iassumption
  iintro ⟨HO, HcS, HatS, HshB, HzS⟩
  sl_exec
  iapply (wait_recv_step m K c $n (by decide) _) $$ [HO HcV HatV Hland HzV]
  · isplitr; · iexact Hrec
    isplitl [HO]; · iexact HO
    isplitl [HcV]; · iexact HcV
    isplitl [HatV]; · iexact HatV
    isplitl [Hland] <;> iassumption
  iintro ⟨HO, HcV, HatV, Hland, HzV⟩
  first | sl_exec | skip))

open Lean Elab Tactic in
elab "waits_all" : tactic => do
  for k in [0:31] do
    let n := Syntax.mkNumLit (toString k)
    evalTactic (← `(tactic| waits_at $n))

/-! ## The body -/

set_option maxHeartbeats 4000000 in
/-- The body, run from `bodyPre` to `bodyPost`. -/
theorem sound_body (K : Names) (c : Dev nD) (Kt : PUnit → sProp 𝕄) :
    iprop(bodyPre m ρ K c ∗ (bodyPost m ρ c -∗ Kt ⟨⟩))
      ⊢ wp frame (wpE (defs₀ (F := F)) 𝒱₀ c none) Set.univ (bodyAt0 (F := F) t₀) Kt := by
  unfold bodyAt0
  unfold bodyPre ghost
  iintro ⟨⟨⟨⟨#Hrec, HatB, HatS, HatV, HtB, HtV, HtS⟩, HcB, HcV, #Hlev⟩, Hx, ⟨%fx, Hxv⟩, ⟨%ft, Htb⟩, Hld, Ho, ⟨%d0, %g0, %hg0, Hout0⟩⟩, Hk⟩
  unfold Dat.owesAt Pipeline.owesWithin
  icases Ho with ⟨%W, %hW, HO⟩
  rw [show (dats m ρ 0 c).owed t₀.castSucc = O₀ c from rfl]
  unfold O₀
  -- the table row by row: the device keeps its own row and hands row `fwd k c` to its `k`-th partner
  ihave Hrows := (Entails.of_eq ((tbl_rows c ft).trans (univ_fwd c _))) $$ Htb
  icases Hrows with ⟨Hown, Hout⟩
  ihave Hout := (rows_weaken c ft) $$ Hout
  rw [← slotsFrom_zero]
  sl_exec
  sig_all
  rw [owedSig_last, zero_add]
  -- the eight local copies, their waits and the column maxima
  ihave Hld := (Entails.of_eq (loads_list (F := F) c)) $$ Hld
  icases Hld with ⟨Hl0, Hl1, Hl2, Hl3, Hl4, Hl5, Hl6, Hl7⟩
  ihave Hx := (Entails.of_eq (src_slabs (F := F) c fullShare _)) $$ Hx
  icases Hx with ⟨Hx0, Hx1, Hx2, Hx3, Hx4, Hx5, Hx6, Hx7⟩
  ihave Hxv := (Entails.of_eq (dst_slabs (F := F) c _)) $$ Hxv
  icases Hxv with ⟨Hv0, Hv1, Hv2, Hv3, Hv4, Hv5, Hv6, Hv7⟩
  ihave Hout0 := (Entails.of_eq (whole_pts (F := F) c cc0_stg0_0 fullShare _)) $$ Hout0
  have hO : HighDues (owedArr c 0) := highDues_arr c 0
  have hmw := mayWait_low (F := F) c
  sl_exec
  -- the device's own row: the (dead) load and the store of its column maxima
  unfold rowPts
  iapply (wp_load 𝒱₀ (c : Thread nD τ) none Set.univ (m := tblM) (own_row_load_sub c)) $$ Hown; iintro Hown
  iapply (wp_store 𝒱₀ (c : Thread nD τ) none Set.univ (m := tblM) (r := r1 c) (Mk := Finset.univ) (own_row_store_sub c)) $$ Hown; iintro Hown
  iapply (wp_done _ _ _ _)
  beta_reduce
  sl_exec
  -- the wait on the device's own barrier cell
  iapply (bar_wait m K c _ (mayWait_bar c 0)) $$ [HcB HO HatB]
  · isplitr; · iexact Hrec
    isplitr; · iexact Hlev
    isplitl [HcB]; · iexact HcB
    isplitl [HO] <;> iassumption
  iintro ⟨HO, Hdst⟩
  sl_exec
  -- the device's row holds its row of the gathered table; it is cut into the 31 transfers' shares
  generalize hw : k0_pay5 (F := F) _ _ _ _ _ = w
  have hw' : w = colMax (xblk m c) := by
    rw [← hw]
    unfold colMax
    sl_unfold_run_names
    rw [slab_readback_0, slab_readback_1, slab_readback_2, slab_readback_3, slab_readback_4, slab_readback_5,
      slab_readback_6, slab_readback_7]
    rfl
  ihave Hown := (Entails.of_eq (pointsTo_congr (own_row_written m c ft w hw'))) $$ Hown
  ihave Hsh := (own_shares m c) $$ Hown
  ihave HcS := (below0 (F := F) (fun j => cred (tallyAt (sendCell c j) () N)))
  send_all
  rw [owedArr_last]
  -- the 62 waits, each cell closed after its wait
  ihave HshB := (below0 (F := F) (fun j => rowPts c c (xferShare j) (tbl m)))
  ihave HzS := (below0 (F := F) (fun j => semVal (sendCell c j) 0))
  ihave Hland := (below0 (F := F) (fun j => rowPts c (bwd j c) fullShare (tbl m)))
  ihave HzV := (below0 (F := F) (fun j => semVal (recvCell c j) 0))
  waits_all
  -- the table whole again, every row at the gathered table's contents; its column maxima are the result
  rw [slotsBelow_last]
  ihave Hown := (row_shares_join c c (tbl m)) $$ HshB
  ihave Htb := (table_join m c) $$ [Hown Hland]
  · isplitl [Hown] <;> iassumption
  sl_exec
  rw [wp_ret]; imodintro
  iapply Hk
  unfold bodyPost Φ₁
  -- the block, the copy and the table whole again; the load semaphores back
  ihave Hx := (Entails.of_eq (src_slabs (F := F) c fullShare _).symm) $$ [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  ihave Hxv := (dst_join (F := F) c _ _ _ _ _ _ _ _) $$ [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  ihave Htb := (Entails.of_eq (whole_pts (F := F) c cc0_scratch2 fullShare _).symm) $$ Htb
  ihave Hld := (Entails.of_eq (loads_list (F := F) c).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  rw [out_final m g0]
  ihave Hout0 := (Entails.of_eq (whole_pts (F := F) c cc0_stg0_0 fullShare _).symm) $$ Hout0
  isplitl [Hx Hxv Htb Hld HzS HzV]
  · isplitl [Hx]; · iexact Hx
    isplitl [Hxv]; · iexact Hxv
    isplitl [Htb]; · iexact Htb
    isplitl [Hld]; · iexact Hld
    isplitl [HzS] <;> iassumption
  isplitl [HO]
  · iapply (owesAt_done m ρ c _); iexact HO
  iexists _
  isplitr; · (ipureintro; rfl)
  iexact Hout0

omit [FloatOps F] in
/-- A whole buffer owned at full share through its whole memref is the buffer held at contents equal to those. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ (bodyAt0 (F := F) t₀) (fun _ => bodyPost m ρ c)
  unfold Φ₀ start
  iintro ⟨⟨⟨⟨%K, Hg⟩, Hc1, Hc2, Hlev⟩, Hx, Hs0, Hs2, Hl⟩, Ho, Hout⟩
  iapply (sound_body m ρ K c fun _ => bodyPost m ρ c)
  unfold bodyPre
  isplitr []
  · isplitl [Hg Hc1 Hc2 Hlev]
    · isplitl [Hg]; · iexact Hg
      isplitl [Hc1]; · iexact Hc1
      isplitl [Hc2]; · iexact Hc2
      iexact Hlev
    isplitl [Hx]; · iexact Hx
    isplitl [Hs0]; · iexact Hs0
    isplitl [Hs2]; · iexact Hs2
    isplitl [Hl]; · iexact Hl
    isplitl [Ho]; · iexact Ho
    iexact Hout
  · iintro H; iexact H

end Cert.KernelIdealProof

end
-- ==== Proof.Ideal.Launch.lean ====
/- The launch of the kernel on the 32 devices: the kernel's own semaphores, the exchange's cells and duty
   tokens as the launch funds them, the invariants allocated for all devices at once and the tokens dealt round the
   circle to their payers, the launch credit each device waits with, the levels that order the waits, and the run. -/
import proofs.«900916_g7700000000000917_dist_max_ax0_shard0_i_m2048_n1024_v7x_i32_f32_1_alg».proof.Proof.Ideal.Body
import proofs.«900916_g7700000000000917_dist_max_ax0_shard0_i_m2048_n1024_v7x_i32_f32_1_alg».proof.Proof.Ideal.Levels
import proofs.«900916_g7700000000000917_dist_max_ax0_shard0_i_m2048_n1024_v7x_i32_f32_1_alg».proof.Proof.Gen.KernelIdeal.Points

noncomputable section

namespace Cert.KernelIdealProof

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families indexed by a sum of three types -/

omit [FloatOps F] in
theorem bigSep_sum3 {A B C : Type} [Fintype A] [Fintype B] [Fintype C] (Φ : A ⊕ (B ⊕ C) → sProp 𝕄) :
    bigSep Finset.univ Φ = iprop((bigSep Finset.univ fun a => Φ (.inl a)) ∗ (bigSep Finset.univ fun b => Φ (.inr (.inl b)))
      ∗ bigSep Finset.univ fun c => Φ (.inr (.inr c))) := by
  rw [bigSep_univ_sum, bigSep_univ_sum]; rfl

omit [FloatOps F] in
theorem bigSep_unit_sum3 {B C : Type} [Fintype B] [Fintype C] (Φ : Unit ⊕ (B ⊕ C) → sProp 𝕄) :
    bigSep Finset.univ Φ = iprop(Φ (.inl ()) ∗ (bigSep Finset.univ fun b => Φ (.inr (.inl b))) ∗ bigSep Finset.univ fun c => Φ (.inr (.inr c))) := by
  rw [bigSep_sum3, bigSep_univ_of_subsingleton ()]

/-! ## The kernel's own semaphores -/

/-- The kernel's own scoped semaphores: the 8 load, the 31 send and the 31 receive DMA semaphores. -/
abbrev OwnIx : Type := Fin 8 ⊕ (Fin 31 ⊕ Fin 31)
abbrev osem : OwnIx → SemLoc sig
  | .inl s => .dma (loadS s)
  | .inr (.inl k) => .dma (sendS k)
  | .inr (.inr k) => .dma (recvS k)

theorem ownSemFacts : Pipeline.OwnSemFacts cfg0.spec osem := by decide +kernel

omit [FloatOps F] in
/-- The own semaphores at zero: the load semaphores, the send cells and the receive cells. -/
theorem ownSems0_eq (c : Dev nD) : (Pipeline.ownSems0 (Ix := Unit) (Name := ℕ) (U := UU) (Lvl := ℕ) (Val := Elt F) (τ := τ) osem c : sProp 𝕄)
    = iprop(loadsZero c ∗ (bigSep Finset.univ fun k : Fin 31 => semVal (sendCell c k) 0) ∗ (bigSep Finset.univ fun k : Fin 31 => semVal (recvCell c k) 0)) := by
  unfold Pipeline.ownSems0 loadsZero
  rw [bigSep_sum3]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The exchange's cells and duty tokens -/

/-- A device's cells: its barrier cell, its 31 send cells, its 31 receive cells. -/
abbrev CellIx : Type := Unit ⊕ (Fin 31 ⊕ Fin 31)
abbrev csem : CellIx → SemLoc sig
  | .inl _ => .reg barS
  | .inr (.inl k) => .dma (sendS k)
  | .inr (.inr k) => .dma (recvS k)
abbrev kcell (ck : Dev nD × CellIx) : GSem nD τ sig := ((ck.1 : Thread nD τ), csem ck.2)

theorem csem_injective : Function.Injective csem := by decide +kernel
theorem kcell_injective : Function.Injective (kcell : Dev nD × CellIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def xCells : Finset (GSem nD τ sig) := Finset.univ.map ⟨kcell, kcell_injective⟩

/-- The duty tokens of a device's own cells as minted: the 31 duties of its barrier cell, the one duty of each send
    and of each receive cell. -/
abbrev TokIx : Type := Fin 31 ⊕ (Fin 31 ⊕ Fin 31)
abbrev tsem : TokIx → SemLoc sig × Fin 31
  | .inl k => (.reg barS, k)
  | .inr (.inl k) => (.dma (sendS k), 0)
  | .inr (.inr k) => (.dma (recvS k), 0)
abbrev tokOf (cj : Dev nD × TokIx) : GSem nD τ sig × ℕ × Fin 31 := (((cj.1 : Thread nD τ), (tsem cj.2).1), 0, (tsem cj.2).2)

theorem tsem_injective : Function.Injective tsem := by decide +kernel
theorem tokOf_injective : Function.Injective (tokOf : Dev nD × TokIx → GSem nD τ sig × ℕ × Fin 31) := by
  rintro ⟨c, j⟩ ⟨c', j'⟩ h
  have h1 : c = c' := congrArg (fun x : GSem nD τ sig × ℕ × Fin 31 => x.1.1.1) h
  subst h1
  have h2 : tsem j = tsem j' := Prod.ext (congrArg (fun x : GSem nD τ sig × ℕ × Fin 31 => x.1.2) h) (congrArg (fun x : GSem nD τ sig × ℕ × Fin 31 => x.2.2) h)
  rw [tsem_injective h2]
def xToks : Finset (GSem nD τ sig × ℕ × Fin 31) := Finset.univ.map ⟨tokOf, tokOf_injective⟩

/-- The launch element: the pipeline library's at the staging cell, the exchange's at its cells and tokens, no counter yet. -/
def u₀ : UU :=
  (initOf (Pipeline.cells cfgs cellOf_inj) (Pipeline.launchToks cfgs cellOf_inj), (initOf xCells xToks, 1))

/-- The duty tokens of device `c`'s own cells. -/
def toks (c : Dev nD) : sProp 𝕄 :=
  iprop((bigSep Finset.univ fun k : Fin 31 => dutyTok ER (barCell c) 0 k)
    ∗ (bigSep Finset.univ fun k : Fin 31 => dutyTok ER (sendCell c k) 0 0)
    ∗ (bigSep Finset.univ fun k : Fin 31 => dutyTok ER (recvCell c k) 0 0))

/-- What the launch element deals device `c`: the round state, position and reached-mark of each of its 63 cells, and
    the tokens of its own cells' duties. -/
def G (c : Dev nD) : sProp 𝕄 :=
  iprop((bigSep Finset.univ fun k : CellIx => roundState ER (xchg m) (kcell (c, k)) 0)
    ∗ (bigSep Finset.univ fun k : CellIx => iprop(atPos ER (kcell (c, k)) 0 ∅ 0 ∗ reached ER (kcell (c, k)) 0)) ∗ toks c)

/-- What the global step makes of it: the ghost state at some names, and the load semaphores at zero kept aside. -/
def G' (c : Dev nD) : sProp 𝕄 := iprop((∃ K, ghost m K c) ∗ loadsZero c)

theorem fund_xchg : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : CellIx => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_sum3]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the circle -/

omit [FloatOps F] in
/-- The semaphores at zero a device brings: the load semaphores, and the counter of each of its 63 cells. -/
theorem sems0_eq (c : Dev nD) :
    iprop(Pipeline.ownSems0 (Ix := Unit) (Name := ℕ) (U := UU) (Lvl := ℕ) (Val := Elt F) (τ := τ) osem c ∗ unscopedSems0 c)
      ⊢ (iprop(loadsZero c ∗ bigSep Finset.univ fun k : CellIx => semVal (kcell (c, k)) 0) : sProp 𝕄) := by
  rw [ownSems0_eq, unscopedSems0_eq, bigSep_unit_sum3]
  iintro ⟨⟨HL, HS, HV⟩, HB⟩
  isplitl [HL]; · iexact HL
  isplitl [HB]; · iexact HB
  isplitl [HS] <;> iassumption

/-- Each of a device's cells gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (xchg m) κ (kcell (c, k))))
          ∗ (bigSep Finset.univ fun k : CellIx => iprop(atPos ER (kcell (c, k)) 0 ∅ 0 ∗ reached ER (kcell (c, k)) 0)) ∗ toks c ∗ loadsZero c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CellIx => semVal (kcell (c, k)) 0) ∗ bigSep Finset.univ fun k : CellIx => roundState ER (xchg m) (kcell (c, k)) 0)
      ⊢ (|={Set.univ}=> bigSep Finset.univ fun k : CellIx => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- The names read off one choice per cell. -/
def namesOf (K' : Dev nD × CellIx → ℕ) : Names :=
  ⟨fun c => K' (c, .inl ()), fun c k => K' (c, .inr (.inl k)), fun c k => K' (c, .inr (.inr k))⟩

/-- The records from every cell's invariant and reached-mark, cell kind by cell kind. -/
theorem records_intro (K' : Dev nD × CellIx → ℕ) :
    iprop((bigSep Finset.univ fun ck : Dev nD × CellIx => cellInv ER (xchg m) (K' ck) (kcell ck)) ∗ (bigSep Finset.univ fun ck : Dev nD × CellIx => reached ER (kcell ck) 0))
      ⊢ records m (namesOf K') := by
  unfold records
  rw [← bigSep_sep', bigSep_univ_prod (fun ck : Dev nD × CellIx => iprop(cellInv ER (xchg m) (K' ck) (kcell ck) ∗ reached ER (kcell ck) 0)),
    bigSep_univ_prod (fun ck : Dev nD × Fin 31 => iprop(cellInv ER (xchg m) ((namesOf K').send ck.1 ck.2) (sendCell ck.1 ck.2) ∗ reached ER (sendCell ck.1 ck.2) 0)),
    bigSep_univ_prod (fun ck : Dev nD × Fin 31 => iprop(cellInv ER (xchg m) ((namesOf K').recv ck.1 ck.2) (recvCell ck.1 ck.2) ∗ reached ER (recvCell ck.1 ck.2) 0)),
    ← bigSep_sep', ← bigSep_sep']
  exact Entails.of_eq (bigSep_congr fun c _ => by rw [bigSep_unit_sum3]; rfl)

omit [FloatOps F] in
/-- A family indexed by (device, slot), summed over both, may be read at the slot's partner instead of the device:
    for each slot, going round the circle by that slot's distance permutes the devices. -/
theorem deal (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (fwd k c) k :=
  (bigSep_univ_comm Φ).trans ((bigSep_congr fun k _ => bigSep_univ_equiv (shift k) (fun c => Φ c k)).trans
    (bigSep_univ_comm (fun (k : Fin 31) (c : Dev nD) => Φ (fwd k c) k)))

/-- The tokens a device pays with: duty `k` of its `k`-th partner's barrier cell, the duty of that partner's `k`-th
    receive cell, the duty of its own `k`-th send cell. -/
def payToks (c : Dev nD) : sProp 𝕄 :=
  iprop((bigSep Finset.univ fun k : Fin 31 => dutyTok ER (barCell (fwd k c)) 0 k)
    ∗ (bigSep Finset.univ fun k : Fin 31 => dutyTok ER (recvCell (fwd k c) k) 0 0)
    ∗ (bigSep Finset.univ fun k : Fin 31 => dutyTok ER (sendCell c k) 0 0))

omit [FloatOps F] in
/-- The tokens dealt round: each barrier and receive token from the cell's owner to the duty's payer; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun c k => (dutyTok ER (barCell c) 0 k : sProp 𝕄)), deal (fun c k => (dutyTok ER (recvCell c k) 0 0 : sProp 𝕄))]
  iintro ⟨H1, H2, H3⟩
  isplitl [H1]; · iexact H1
  isplitl [H3]; · iexact H3
  iexact H2

/-- What stays with device `c`: its positions at its 63 cells, and the tokens it pays with. -/
def linear (c : Dev nD) : sProp 𝕄 :=
  iprop((atPos ER (barCell c) 0 ∅ 0 ∗ (bigSep Finset.univ fun k : Fin 31 => atPos ER (sendCell c k) 0 ∅ 0) ∗ (bigSep Finset.univ fun k : Fin 31 => atPos ER (recvCell c k) 0 ∅ 0))
    ∗ payToks c)

omit [FloatOps F] in
theorem linear_intro (c : Dev nD) :
    iprop(((bigSep Finset.univ fun k : CellIx => (atPos ER (kcell (c, k)) 0 ∅ 0 : sProp 𝕄)) ∗ payToks c) ∗ loadsZero c) ⊢ iprop(linear c ∗ loadsZero c) := by
  unfold linear; rw [bigSep_unit_sum3]

theorem ghost_intro (K : Names) (c : Dev nD) : iprop(records m K ∗ linear c ∗ loadsZero c) ⊢ G' m c := by
  unfold linear payToks G'
  iintro ⟨HR, ⟨⟨Ha, Hs, Hr⟩, Ht1, Ht2, Ht3⟩, HZ⟩
  isplitr [HZ]
  · iexists K; unfold ghost
    isplitl [HR]; · iexact HR
    isplitl [Ha]; · iexact Ha
    isplitl [Hs]; · iexact Hs
    isplitl [Hr]; · iexact Hr
    isplitl [Ht1]; · iexact Ht1
    isplitl [Ht2]; · iexact Ht2
    iexact Ht3
  · iexact HZ

omit [FloatOps F] in
/-- A persistent assertion is there for every member of a family. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (xchg m) κ (kcell (c, k))))
          ∗ (bigSep Finset.univ fun k : CellIx => iprop(atPos ER (kcell (c, k)) 0 ∅ 0 ∗ reached ER (kcell (c, k)) 0)) ∗ toks c ∗ loadsZero c) : sProp 𝕄)
      ⊢ bigSep Finset.univ (G' m) := by
  rw [bigSep_sep', bigSep_sep', bigSep_sep', ← bigSep_univ_prod (fun ck : Dev nD × CellIx => iprop(∃ κ : ℕ, cellInv ER (xchg m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, HZ⟩
  ihave HK := (BI.bigSep_exists_pi Finset.univ (fun (ck : Dev nD × CellIx) (κ : ℕ) => (cellInv ER (xchg m) κ (kcell ck) : sProp 𝕄))) $$ HI
  icases HK with ⟨%K', #HI⟩
  ihave Htk := (toks_around (F := F)) $$ Htok
  iapply (bigSep_under_persistent (R := records m (namesOf K')) fun c _ => ghost_intro m (namesOf K') c)
  isplitr
  · iapply (records_intro m K'); isplitl; · iexact HI
    iexact HR
  · iapply (show iprop(((bigSep Finset.univ fun c : Dev nD => bigSep Finset.univ fun k : CellIx => (atPos ER (kcell (c, k)) 0 ∅ 0 : sProp 𝕄)) ∗ bigSep Finset.univ fun c : Dev nD => payToks c)
        ∗ bigSep Finset.univ fun c : Dev nD => loadsZero c) ⊢ (bigSep Finset.univ fun c : Dev nD => iprop(linear c ∗ loadsZero c) : sProp 𝕄) from by
      rw [← bigSep_sep', ← bigSep_sep']
      exact bigSep_mono fun c _ => linear_intro c)
    isplitr [HZ]
    · isplitl [Hat]; · iexact Hat
      iexact Htk
    · iexact HZ

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- So many one-unit tallies at a cell are one tally of so many units. -/
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- The launch deals device `c` the credit of its own waits: each slot's signals, sent one partner on, come back to every
    device's barrier cell once, 31 units in all; slot `k`'s arrivals come to its `k`-th receive cell. -/
theorem creds (c : Dev nD) :
    (Pipeline.launchCred O₀ c : sProp 𝕄) ⊢ iprop(cred (tallyAt (barCell c) () 31) ∗ bigSep Finset.univ fun k : Fin 31 => cred (tallyAt (recvCell c k) () N)) := by
  show (Pipeline.launchCred (fun d : Dev nD => (∑ j ∈ slotsFrom 0, tallyAt (barCell (fwd j d)) () 1) + ∑ j ∈ slotsFrom 0, tallyAt (recvCell (fwd j d) j) () N) c : sProp 𝕄) ⊢ _
  rw [Pipeline.launchCred_add, Pipeline.launchCred_sum, Pipeline.launchCred_sum, slotsFrom_zero]
  refine (sep_mono_left ?_).trans (sep_mono_right ?_)
  · refine (bigSep_mono fun j _ => Pipeline.launchCred_tallyAt (.reg barS) (fwd j) (bwd j) (fwd_bwd j) (bwd_fwd j) () 1 c).trans ?_
    rw [← Pipeline.cred_finsetSum, Finset.sum_const, Finset.card_univ, Fintype.card_fin, nsmul_tallyAt]
    exact BI.Entails.refl _
  · exact bigSep_mono fun j _ => Pipeline.launchCred_tallyAt (.dma (recvS j)) (fwd j) (bwd j) (fwd_bwd j) (bwd_fwd j) () N c

/-! ## The levels -/

/-- The staging cell sits at level 0, below everything a device owes at launch; after the one point it owes nothing. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact highDues_launch c
      · exact highDues_zero)

/-! ## The theorem's side conditions -/

theorem share_eq (c : Dev nD) (w : Fin cfg0.W) : (dats m ρ 0 c).share w = fullShare := by unfold Dat.share; split <;> rfl

/-- What a device's body starts from beside the scoped buffers: the start, its block of the input, the load semaphores at zero. -/
def X (c : Dev nD) : sProp 𝕄 :=
  iprop(start m c ∗ (((c : Thread nD τ).loc main_arg0) ↦{fullShare} xblk m c) ∗ loadsZero c)
/-- What it hands back at the end: its block of the input. -/
abbrev Y (c : Dev nD) : sProp 𝕄 := (((c : Thread nD τ).loc main_arg0) ↦{fullShare} xblk m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' X start
  iintro ⟨Hx, Hlev, Hcr, -, HK, HZ⟩
  ihave Hc := (creds (F := F) c) $$ Hcr
  icases Hc with ⟨H1, HN⟩
  imodintro
  isplitl
  · isplitl [HK H1 HN Hlev]
    · isplitl [HK]; · iexact HK
      isplitl [H1]; · iexact H1
      isplitl [HN]; · iexact HN
      iexact Hlev
    isplitl [Hx]; · iexact Hx
    iexact HZ
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨Hs, Hx, HZ⟩, -, Hs0, Hs2⟩
  isplitl [Hs]; · iexact Hs
  isplitl [Hx]; · iexact Hx
  isplitl [Hs0]; · iexact Hs0
  isplitl [Hs2]; · iexact Hs2
  iexact HZ

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hx, Hs0, Hs2, HZ, HS, HV⟩
  isplitl [Hx]; · iexact Hx
  isplitl [HZ HS HV]
  · isplitl [HZ]; · iexact HZ
    isplitl [HS] <;> iassumption
  isplitl [Hs0]; · iexact Hs0
  iexists (tbl m); iexact Hs2

attribute [local irreducible] outAt in
/-- What the body leaves in the result window's staging buffer at the one point: the proof data stores the result there
    as it is named, so the equation needs nothing of the column maximum itself. -/
theorem after_eq (c : Dev nD) : (dats m ρ 0 c).after (0 : Fin 1) t₀ = outAt m := rfl

/-- What the one point writes back: all of it (the window is uncut). -/
theorem flushed_eq (c : Dev nD) : (dats m ρ 0 c).flushed (0 : Fin 1) t₀ = outAt m := by
  funext j
  show (dats m ρ 0 c).after (0 : Fin 1) t₀ ((cfg0.win (0 : Fin 1)).xinj (cfg0.grid.coords t₀) j) = outAt m j
  rw [after_eq]

/-- The result window's array after the one point: the body's result. -/
theorem arrAt_out (c : Dev nD) : (dats m ρ 0 c).arrAt (0 : Fin 1) cfg0.N = outAt m := by
  -- the window's one block is the whole array at block index 0: reading it reads the array
  have hz : (fun a => ((cfg0.win (0 : Fin 1)).index t₀) a * (main_v1 : Ref sig .tc).ty.shape.size a) = fun _ => 0 :=
    funext fun a => by fin_cases a <;> rfl
  have hr := fun f => Memref.read_access_unit_zero (Elt F) main_v1 hz (fun a => by fin_cases a <;> decide) f
  have h1 : (dats m ρ 0 c).arrAt (0 : Fin 1) cfg0.N = (dats m ρ 0 c).arrAt (0 : Fin 1) ((t₀ : Fin cfg0.N).val + 1) := rfl
  rw [h1, Dat.arrAt_succ, if_pos (flush0_0 t₀)]
  have e1 := View.read_write_univ (Val := Elt F) (v := ((cfg0.win (0 : Fin 1)).blk t₀).view) ((dats m ρ 0 c).arrAt (0 : Fin 1) (t₀ : Fin cfg0.N).val) ((dats m ρ 0 c).flushed (0 : Fin 1) t₀)
  exact ((hr _).symm.trans e1).trans (flushed_eq m ρ c)

/-! ## The run -/

set_option maxRecDepth 32000 in
/-- At the compiled mesh of 32 devices, for any float values, from any memory with zero counters: every weakly fair
    execution of @main terminates, and every final state has each device's result array at the column maxima of the
    gathered table and its block of the input unchanged. -/
theorem run_main : θ_run defs (onTc (τ := τ) (main (F := F))) ⟨m, fun _ => 0, ρ⟩ (fun r => ∀ c : Dev nD,
    r.2.mem ((c.tc : Thread nD τ).loc main_v1) = outAt m ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HB⟩
      ihave H2 := (own_pair_emb embR _ _) $$ HB
      icases H2 with ⟨HX, -⟩
      imod (fund_xchg m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := fun c mem => mem.mem ((c : Thread nD τ).loc main_arg0) = m ((c : Thread nD τ).loc main_arg0))
    (hY := fun c s' => by
      iintro ⟨Hx, -, HSI⟩
      icombine HSI Hx gives %hx
      imodintro
      isplitr; · ipureintro; exact Buf.eq_of_forall_mem_univ hx
      iexact HSI)
    (hQ := fun s h c => ⟨((h c).1 0).trans (arrAt_out m ρ c), (h c).2.2⟩)

/-- info: 'Cert.KernelIdealProof.run_main' depends on axioms: [propext, Classical.choice, Quot.sound] -/
#guard_msgs in #print axioms run_main

end Cert.KernelIdealProof

end
-- ==== Proof.Bits.Contents.lean ====
/- What each device's buffers hold, as functions of the launch memory: the eight slabs of a device's block of
   the input, the device's column maxima over its block (the row it contributes), the gathered table of all 32
   devices' rows, and the result, the column maxima of that table. -/
import proofs.«900916_g7700000000000917_dist_max_ax0_shard0_i_m2048_n1024_v7x_i32_f32_1_alg».proof.Proof.Gen.Kernel.Skeleton
import Idealize.ShloMosaic.Lib.Pipeline.Value
import Idealize.ShloMosaic.Lib.ValueIdx

noncomputable section

namespace Cert.KernelProof

open Cert.Kernel Cert.Kernel.Gen
open Idealize.ShloMosaic Idealize.ShloMosaic.TcCoe

variable {F : FTy → Type} [FloatOps F]

/-- A device's block of the input array, a whole HBM buffer. -/
abbrev xM : Memref sig .tc .hbm S2048x1024 .f32 := Memref.whole main_arg0

theorem slab_inb (s : Fin 8) : ∀ a, (![256 * s.val, 0] : Fin 2 → Nat) a + S256x1024.size a ≤ S2048x1024.size a := by
  revert s; decide

/-- Slab `s` of a block: its rows `256 s … 256 s + 255`. -/
abbrev slabM (s : Fin 8) : Memref sig .tc .hbm S256x1024 .f32 :=
  xM.slice (Rect.unit (s := S2048x1024) ![256 * s.val, 0] S256x1024.size (slab_inb s)) (fun _ => rfl)

/-- The contents of slab `s` of a block holding `X`. -/
def slab (s : Fin 8) (X : (main_arg0 : Ref sig .tc).ty.Contents (Elt F)) : Vec F S256x1024 .f32 :=
  (slabM s).view.read (Elt F) X

/-- The column maxima of a block, slab by slab, as the body accumulates them. -/
def colMax (X : (main_arg0 : Ref sig .tc).ty.Contents (Elt F)) : FVec F S1x1024 .f32 :=
  k0_pay5 (k0_pay3 (k0_pay2 (slab 0 X)) (slab 1 X) (slab 2 X) (slab 3 X)) (k0_pay4 (slab 4 X)) (slab 5 X) (slab 6 X) (slab 7 X)

/-- The gathered table: row `j` holds device `j`'s column maxima. -/
def table (xb : Dev nD → (main_arg0 : Ref sig .tc).ty.Contents (Elt F)) : (cc0_scratch2 : Ref sig .tc).ty.Contents (Elt F) :=
  fun i => colMax (xb (i 0)) (ValueIdx.ix2 (0 : Fin 1) (i 1))

/-- The result on every device: the column maxima of the gathered table. -/
def result (xb : Dev nD → (main_arg0 : Ref sig .tc).ty.Contents (Elt F)) : FVec F S1x1024 .f32 :=
  k0_pay1 (table xb)

end Cert.KernelProof

end
-- ==== Proof.Bits.Schedule.lean ====
/- The exchange protocol of the 32 devices, in the rounds discipline. Every cell has one round.
   A device's barrier cell has 31 duties of one unit, duty `k` paid by the device `k + 1` places before it, which hands
   over the row of ITS OWN table that the owner will write (the owner's row index). A device's `k`-th receive cell has
   one duty, paid by the transfer of the device `k + 1` places before it, which hands over that device's row of the
   owner's table, holding that device's column maxima. A device's `k`-th send cell has one duty, paid by the device's
   own `k`-th transfer, which hands back the share of the device's own row the transfer read. -/
import proofs.«900916_g7700000000000917_dist_max_ax0_shard0_i_m2048_n1024_v7x_i32_f32_1_alg».proof.Proof.Bits.Contents
import proofs.«900916_g7700000000000917_dist_max_ax0_shard0_i_m2048_n1024_v7x_i32_f32_1_alg».proof.Proof.Peers
import proofs.«900916_g7700000000000917_dist_max_ax0_shard0_i_m2048_n1024_v7x_i32_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Transfers

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's (duties `Fin 31`), and the exclusive
counters the local transfers' invariants take their tokens from -/

abbrev UB : Type := URounds (GSem nD τ sig) (Fin 31)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

omit [FloatOps F] in
instance ER_landsIn : (ER (F := F)).LandsIn (upEmb : UEmb _ (MT nD τ sig Unit (Elt F) ℕ UU ℕ)) := by
  unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and cells -/

/-- The table of 32 rows, a whole scratch buffer; row `j` of it. -/
abbrev tblM : Memref sig .tc .vmem S32x1024 .f32 := Memref.whole cc0_scratch2
abbrev rowM (j : Dev nD) : Memref sig .tc .vmem S1x1024 .f32 :=
  tblM.slice (Rect.unit (s := S32x1024) (k0_off2 j) S1x1024.size (k0_off2_inb j)) (fun _ => rfl)
/-- The device's copy of its block in VMEM. -/
abbrev xvM : Memref sig .tc .vmem S2048x1024 .f32 := Memref.whole cc0_scratch0

/-- The runtime's barrier semaphore (unscoped); the load, send and receive DMA semaphores (scoped scratch). -/
abbrev barS : Sem sig := (SemArray.scalar (sig.barrier 0 rfl) : Sems sig S_).sem
abbrev loadS (s : Fin 8) : DmaSem sig := ⟨1 + s.val, by have := s.isLt; show 1 + s.val < 71; omega⟩
abbrev sendS (k : Fin 31) : DmaSem sig := ⟨9 + k.val, by have := k.isLt; show 9 + k.val < 71; omega⟩
abbrev recvS (k : Fin 31) : DmaSem sig := ⟨40 + k.val, by have := k.isLt; show 40 + k.val < 71; omega⟩

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-- A row transfer's credit on a DMA semaphore (the same for every row). -/
abbrev N : ℕ := (rowM (0 : Dev nD)).view.dmaCredit
theorem N_pos : 0 < N := View.dmaCredit_pos _ (by decide)

/-- Which send (`base = 9`) or receive (`base = 40`) slot a cell is, if any. -/
def slotOf (base : ℕ) : SemLoc sig → Option (Fin 31)
  | .dma q => if h : base ≤ q.val ∧ q.val < base + 31 then some ⟨q.val - base, by omega⟩ else none
  | .reg _ => none

theorem slotOf_send (k : Fin 31) : slotOf 9 (.dma (sendS k) : SemLoc sig) = some k := by revert k; decide
theorem slotOf_recv (k : Fin 31) : slotOf 40 (.dma (recvS k) : SemLoc sig) = some k := by revert k; decide
theorem slotOf_recv_send (k : Fin 31) : slotOf 40 (.dma (sendS k) : SemLoc sig) = none := by revert k; decide

/-! ## Contents -/

/-- Device `j`'s block of the input as launched. -/
abbrev xblk (j : Dev nD) : (main_arg0 : Ref sig .tc).ty.Contents (Elt F) := m ((j : Thread nD τ).loc main_arg0)

/-- The gathered table, the same on every device: row `j` holds device `j`'s column maxima. -/
def tbl : (cc0_scratch2 : Ref sig .tc).ty.Contents (Elt F) := table (xblk m)

/-- Device `c` holding row `j` of its table at share `q` and contents `f` (of the whole table: only row `j` is read). -/
def rowPts (c j : Dev nD) (q : PosShare TreeShare) (f : Buf (Elt F) ((rowM j).view.loc (c : Thread nD τ))) : sProp 𝕄 :=
  (rowM j).view.loc (c : Thread nD τ) ↦[(rowM j).view.set]{q} f

omit [FloatOps F] in
instance rowPts_storable (c j : Dev nD) (q) (f) : BI.Storable (upEmb : UEmb _ 𝕄) (rowPts (F := F) c j q f) := by unfold rowPts; infer_instance

/-! ## The shares of a device's own row under its 31 transfers in flight -/

/-- What is left of the full share after `k` halvings; -/
def restShare : ℕ → PosShare TreeShare
  | 0 => fullShare
  | k + 1 => (restShare k).right
/-- the share the `k`-th transfer reads under: the left half of what is left, the last one all of it. -/
def xferShare (k : Fin 31) : PosShare TreeShare := if k.val = 30 then restShare 30 else (restShare k.val).left

/-! ## The schedule -/

/-- Duty `k` of `c`'s barrier cell, paid by `bwd k c`: that device's row `c`, at some contents. -/
def barPay (c : Dev nD) (k : Fin 31) : sProp 𝕄 := iprop(∃ f, rowPts (bwd k c) c fullShare f)
/-- `c`'s `k`-th receive cell: row `bwd k c` of `c`'s table, landed. -/
def recvPay (c : Dev nD) (k : Fin 31) : sProp 𝕄 := rowPts c (bwd k c) fullShare (tbl m)
/-- `c`'s `k`-th send cell: the share of its own row back. -/
def sendPay (c : Dev nD) (k : Fin 31) : sProp 𝕄 := rowPts c c (xferShare k) (tbl m)

abbrev IsBar (g : GSem nD τ sig) : Prop := g.1.2 = .tc ∧ g.2 = .reg barS
abbrev IsXfer (g : GSem nD τ sig) : Prop := g.1.2 = .tc ∧ ((slotOf 9 g.2).isSome ∨ (slotOf 40 g.2).isSome)

/-- One round, round 0. -/
def xchg : Rounds.Schedule (GSem nD τ sig) (Fin 31) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match slotOf 40 g.2 with
      | some k => recvPay m g.1.1 k
      | none => match slotOf 9 g.2 with
        | some k => sendPay m g.1.1 k
        | none => iprop(emp)
  amount_pos g _ _ _ := by
    by_cases h : g.2 = .reg barS
    · rw [if_pos h]; exact Nat.one_pos
    · rw [if_neg h]; exact N_pos

instance xchg_payload_storable (g : GSem nD τ sig) (r : ℕ) (d : Fin 31) :
    BI.Storable (upEmb : UEmb _ 𝕄) ((xchg (F := F) m).payload g r d) := by
  show BI.Storable upEmb (if g.2 = .reg barS then barPay g.1.1 d
    else match slotOf 40 g.2 with
      | some k => recvPay m g.1.1 k
      | none => match slotOf 9 g.2 with
        | some k => sendPay m g.1.1 k
        | none => iprop(emp))
  unfold barPay recvPay sendPay
  (repeat' split) <;> infer_instance

end Cert.KernelProof

end
-- ==== Proof.Bits.Ghost.lean ====
/- What each device owes and holds at launch, the levels that order the waits, and the proof data of the one
   pallas_call: the contents of the result window after the body, and the body's invariant before and after it. -/
import proofs.«900916_g7700000000000917_dist_max_ax0_shard0_i_m2048_n1024_v7x_i32_f32_1_alg».proof.Proof.Bits.Schedule

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- The slots from `n` on. -/
def slotsFrom (n : ℕ) : Finset (Fin 31) := Finset.univ.filter fun j => n ≤ j.val

/-- The signals device `c` still owes from slot `n` on: one unit to the barrier cell of each partner; -/
def owedSig (c : Dev nD) (n : ℕ) : CellTallies nD τ sig Unit := ∑ j ∈ slotsFrom n, tallyAt (barCell (fwd j c)) () 1
/-- the arrivals it still owes from slot `n` on: a row's credit to its partner's receive cell of that slot. -/
def owedArr (c : Dev nD) (n : ℕ) : CellTallies nD τ sig Unit := ∑ j ∈ slotsFrom n, tallyAt (recvCell (fwd j c) j) () N
/-- At launch: every signal and every arrival. -/
def O₀ (c : Dev nD) : CellTallies nD τ sig Unit := owedSig c 0 + owedArr c 0

def L (g : GSem nD τ sig) : Finset Unit := if g.1.2 = .tc then {()} else ∅
/-- Barrier cells at 1, receive cells at 2, everything else (staging, loads, send) at 0. -/
def lv (g : GSem nD τ sig) (_ : Unit) : ℕ := if g.2 = .reg barS then 1 else if (slotOf 40 g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

/-- The names the launch allocates the cells' invariants at. -/
structure Names where
  bar : Dev nD → ℕ
  send : Dev nD → Fin 31 → ℕ
  recv : Dev nD → Fin 31 → ℕ

/-- Every cell's invariant, and that every cell has reached round 0 (persistent; every device holds it). -/
def records (K : Names) : sProp 𝕄 :=
  iprop((bigSep Finset.univ fun c : Dev nD => iprop(cellInv ER (xchg m) (K.bar c) (barCell c) ∗ reached ER (barCell c) 0))
    ∗ (bigSep Finset.univ fun ck : Dev nD × Fin 31 => iprop(cellInv ER (xchg m) (K.send ck.1 ck.2) (sendCell ck.1 ck.2) ∗ reached ER (sendCell ck.1 ck.2) 0))
    ∗ (bigSep Finset.univ fun ck : Dev nD × Fin 31 => iprop(cellInv ER (xchg m) (K.recv ck.1 ck.2) (recvCell ck.1 ck.2) ∗ reached ER (recvCell ck.1 ck.2) 0)))

instance records_persistent (K : Names) : BI.Persistent (records m K) := by unfold records; infer_instance

/-- The exchange's ghost state device `c` starts from: the records; its positions at round 0 of its 63 cells; the
    duty tokens it pays with — duty `k` of its `k`-th partner's barrier cell, the duty of that partner's `k`-th receive
    cell, the duty of its own `k`-th send cell. -/
def ghost (K : Names) (c : Dev nD) : sProp 𝕄 :=
  iprop(records m K
    ∗ atPos ER (barCell c) 0 ∅ 0
    ∗ (bigSep Finset.univ fun k : Fin 31 => atPos ER (sendCell c k) 0 ∅ 0)
    ∗ (bigSep Finset.univ fun k : Fin 31 => atPos ER (recvCell c k) 0 ∅ 0)
    ∗ (bigSep Finset.univ fun k : Fin 31 => dutyTok ER (barCell (fwd k c)) 0 k)
    ∗ (bigSep Finset.univ fun k : Fin 31 => dutyTok ER (recvCell (fwd k c) k) 0 0)
    ∗ (bigSep Finset.univ fun k : Fin 31 => dutyTok ER (sendCell c k) 0 0))

/-- What device `c`'s body starts from: that at some names, its credit tokens (its barrier's 31 units, each receive
    cell's credit) and the level facts. -/
def start (c : Dev nD) : sProp 𝕄 :=
  iprop((∃ K, ghost m K c) ∗ cred (tallyAt (barCell c) () 31)
    ∗ (bigSep Finset.univ fun k : Fin 31 => cred (tallyAt (recvCell c k) () N)) ∗ levAts L lv)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on every device: the column maxima of the gathered table. -/
def outAt : (cc0_stg0_0 : Ref sig .tc).ty.Contents (Elt F) := result (xblk m)

/-- The load semaphores at zero. -/
def loadsZero (c : Dev nD) : sProp 𝕄 := bigSep Finset.univ fun s : Fin 8 => semVal ((c : Thread nD τ), SemLoc.dma (loadS s)) 0

/-- Before the point: the start, the device's block of the input in HBM, the two scratch buffers at some contents, the
    load semaphores at zero. -/
def Φ₀ (c : Dev nD) : sProp 𝕄 :=
  iprop(start m c ∗ (((c : Thread nD τ).loc main_arg0) ↦{fullShare} xblk m c)
    ∗ (∃ f, ((c : Thread nD τ).loc cc0_scratch0) ↦{fullShare} f) ∗ (∃ f, ((c : Thread nD τ).loc cc0_scratch2) ↦{fullShare} f)
    ∗ loadsZero c)
/-- After the point: the block unchanged, the copy at some contents, the table gathered, every own semaphore at zero
    (the 62 own cells closed; the barrier cell is the runtime's: nothing to hand back). -/
def Φ₁ (c : Dev nD) : sProp 𝕄 :=
  iprop((((c : Thread nD τ).loc main_arg0) ↦{fullShare} xblk m c)
    ∗ (∃ f, ((c : Thread nD τ).loc cc0_scratch0) ↦{fullShare} f) ∗ (((c : Thread nD τ).loc cc0_scratch2) ↦{fullShare} tbl m)
    ∗ loadsZero c
    ∗ (bigSep Finset.univ fun k : Fin 31 => semVal (sendCell c k) 0) ∗ (bigSep Finset.univ fun k : Fin 31 => semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- A whole buffer held at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one point, `K` the names. -/
def bodyPre (K : Names) (c : Dev nD) : sProp 𝕄 :=
  iprop((ghost m K c ∗ cred (tallyAt (barCell c) () 31) ∗ (bigSep Finset.univ fun k : Fin 31 => cred (tallyAt (recvCell c k) () N)) ∗ levAts L lv)
    ∗ (((c : Thread nD τ).loc main_arg0) ↦{fullShare} xblk m c)
    ∗ (∃ f, ((c : Thread nD τ).loc cc0_scratch0) ↦{fullShare} f) ∗ (∃ f, ((c : Thread nD τ).loc cc0_scratch2) ↦{fullShare} f)
    ∗ loadsZero c
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt m))

end Cert.KernelProof

end
-- ==== Proof.Bits.Tables.lean ====
/- The schedule's tables read at each kind of cell, the slots' bookkeeping, and the records read at a cell. -/
import proofs.«900916_g7700000000000917_dist_max_ax0_shard0_i_m2048_n1024_v7x_i32_f32_1_alg».proof.Proof.Bits.Ghost

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Sched
variable (c : Dev nD) (k : Fin 31)

theorem dma_ne_bar (q : DmaSem sig) : (SemLoc.dma q : SemLoc sig) ≠ .reg barS := fun h => by cases h
theorem not_bar_send : ¬ IsBar (sendCell c k) := fun h => dma_ne_bar _ h.2
theorem not_bar_recv : ¬ IsBar (recvCell c k) := fun h => dma_ne_bar _ h.2
theorem isXfer_send : IsXfer (sendCell c k) := ⟨rfl, .inl (by rw [slotOf_send]; rfl)⟩
theorem isXfer_recv : IsXfer (recvCell c k) := ⟨rfl, .inr (by rw [slotOf_recv]; rfl)⟩

theorem duties_bar : (xchg (F := F) m).duties (barCell c) 0 = Finset.univ := by dsimp only [xchg]; exact if_pos ⟨rfl, rfl, rfl⟩
theorem duties_send : (xchg (F := F) m).duties (sendCell c k) 0 = {0} := by
  dsimp only [xchg]; rw [if_neg (fun h => not_bar_send c k h.2)]; exact if_pos ⟨rfl, isXfer_send c k⟩
theorem duties_recv : (xchg (F := F) m).duties (recvCell c k) 0 = {0} := by
  dsimp only [xchg]; rw [if_neg (fun h => not_bar_recv c k h.2)]; exact if_pos ⟨rfl, isXfer_recv c k⟩
theorem duties_later (g : GSem nD τ sig) : ∀ r, 1 ≤ r → (xchg (F := F) m).duties g r = ∅ :=
  fun r hr => by dsimp only [xchg]; rw [if_neg fun h => by omega, if_neg fun h => by omega]

theorem amount_bar (d : Fin 31) : (xchg (F := F) m).amount (barCell c) 0 d = 1 := by dsimp only [xchg]; exact if_pos rfl
theorem amount_send (d : Fin 31) : (xchg (F := F) m).amount (sendCell c k) 0 d = N := by dsimp only [xchg]; exact if_neg (dma_ne_bar _)
theorem amount_recv (d : Fin 31) : (xchg (F := F) m).amount (recvCell c k) 0 d = N := by dsimp only [xchg]; exact if_neg (dma_ne_bar _)

theorem expect_bar : (xchg (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (xchg (F := F) m).expect (sendCell c k) 0 = N := by
  unfold Schedule.expect Schedule.amountOf; rw [duties_send, Finset.sum_singleton, amount_send]
theorem expect_recv : (xchg (F := F) m).expect (recvCell c k) 0 = N := by
  unfold Schedule.expect Schedule.amountOf; rw [duties_recv, Finset.sum_singleton, amount_recv]

theorem payload_bar (d : Fin 31) : (xchg (F := F) m).payload (barCell c) 0 d = barPay c d := by dsimp only [xchg]; rw [if_pos rfl]
theorem payload_send (d : Fin 31) : (xchg (F := F) m).payload (sendCell c k) 0 d = sendPay m c k := by
  dsimp only [xchg]; rw [if_neg (dma_ne_bar _), slotOf_recv_send, slotOf_send]
theorem payload_recv (d : Fin 31) : (xchg (F := F) m).payload (recvCell c k) 0 d = recvPay m c k := by
  dsimp only [xchg]; rw [if_neg (dma_ne_bar _), slotOf_recv]

theorem rest_bar : bigSep ((xchg (F := F) m).duties (barCell c) 0 \ ∅) (fun d => (xchg (F := F) m).payload (barCell c) 0 d)
    = bigSep Finset.univ (fun d : Fin 31 => barPay (F := F) c d) := by
  rw [Finset.sdiff_empty, duties_bar]; exact bigSep_congr fun d _ => payload_bar m c d
theorem rest_send : bigSep ((xchg (F := F) m).duties (sendCell c k) 0 \ ∅) (fun d => (xchg (F := F) m).payload (sendCell c k) 0 d) = sendPay m c k := by
  rw [Finset.sdiff_empty, duties_send, bigSep_singleton, payload_send]
theorem rest_recv : bigSep ((xchg (F := F) m).duties (recvCell c k) 0 \ ∅) (fun d => (xchg (F := F) m).payload (recvCell c k) 0 d) = recvPay m c k := by
  rw [Finset.sdiff_empty, duties_recv, bigSep_singleton, payload_recv]

end Sched

/-! ## The slots from `n` on, and those below `n` -/

def slotsBelow (n : ℕ) : Finset (Fin 31) := Finset.univ.filter fun j => j.val < n

theorem slotsFrom_zero : slotsFrom 0 = Finset.univ := by unfold slotsFrom; simp
theorem slotsFrom_end : slotsFrom 31 = ∅ := by
  unfold slotsFrom; ext j; simp only [Finset.mem_filter, Finset.mem_univ, true_and, Finset.notMem_empty, iff_false]; omega
theorem slotsBelow_zero : slotsBelow 0 = ∅ := by unfold slotsBelow; simp
theorem slotsBelow_end : slotsBelow 31 = Finset.univ := by
  unfold slotsBelow; ext j; simp only [Finset.mem_filter, Finset.mem_univ, true_and, iff_true]; exact j.isLt
theorem slotsFrom_succ (n : ℕ) (h : n < 31) : slotsFrom n = insert ⟨n, h⟩ (slotsFrom (n + 1)) := by
  unfold slotsFrom; ext j
  simp only [Finset.mem_filter, Finset.mem_univ, true_and, Finset.mem_insert, Fin.ext_iff]; omega
theorem not_mem_slotsFrom_succ (n : ℕ) (h : n < 31) : (⟨n, h⟩ : Fin 31) ∉ slotsFrom (n + 1) := by
  unfold slotsFrom; simp
theorem slotsBelow_succ (n : ℕ) (h : n < 31) : slotsBelow (n + 1) = insert ⟨n, h⟩ (slotsBelow n) := by
  unfold slotsBelow; ext j
  simp only [Finset.mem_filter, Finset.mem_univ, true_and, Finset.mem_insert, Fin.ext_iff]; omega
theorem not_mem_slotsBelow (n : ℕ) (h : n < 31) : (⟨n, h⟩ : Fin 31) ∉ slotsBelow n := by
  unfold slotsBelow; simp

theorem bigSep_slotsFrom (n : ℕ) (h : n < 31) (Φ : Fin 31 → sProp 𝕄) :
    bigSep (slotsFrom n) Φ = iprop(Φ ⟨n, h⟩ ∗ bigSep (slotsFrom (n + 1)) Φ) := by
  rw [slotsFrom_succ n h, bigSep_insert (not_mem_slotsFrom_succ n h)]; rfl
theorem bigSep_slotsBelow (n : ℕ) (h : n < 31) (Φ : Fin 31 → sProp 𝕄) :
    bigSep (slotsBelow (n + 1)) Φ = iprop(Φ ⟨n, h⟩ ∗ bigSep (slotsBelow n) Φ) := by
  rw [slotsBelow_succ n h, bigSep_insert (not_mem_slotsBelow n h)]; rfl

theorem sum_slotsFrom {A : Type} [AddCommMonoid A] (n : ℕ) (h : n < 31) (t : Fin 31 → A) :
    ∑ j ∈ slotsFrom n, t j = (∑ j ∈ slotsFrom (n + 1), t j) + t ⟨n, h⟩ := by
  rw [slotsFrom_succ n h, Finset.sum_insert (not_mem_slotsFrom_succ n h), add_comm]

theorem owedSig_succ (c : Dev nD) (n : ℕ) (h : n < 31) :
    owedSig c n = owedSig c (n + 1) + tallyAt (barCell (fwd ⟨n, h⟩ c)) () 1 := sum_slotsFrom n h _
theorem owedArr_succ (c : Dev nD) (n : ℕ) (h : n < 31) :
    owedArr c n = owedArr c (n + 1) + tallyAt (recvCell (fwd ⟨n, h⟩ c) ⟨n, h⟩) () N := sum_slotsFrom n h _
theorem owedSig_end (c : Dev nD) : owedSig c 31 = 0 := by unfold owedSig; rw [slotsFrom_end, Finset.sum_empty]
theorem owedArr_end (c : Dev nD) : owedArr c 31 = 0 := by unfold owedArr; rw [slotsFrom_end, Finset.sum_empty]

/-! ## The records read at a cell -/

section Rec
variable (K : Names) (c : Dev nD) (k : Fin 31)

theorem rec_bar : records m K ⊢ iprop(cellInv ER (xchg m) (K.bar c) (barCell c) ∗ reached ER (barCell c) 0) := by
  unfold records
  exact sep_elim_left.trans (bigSep_elim (Finset.mem_univ c) (Φ := fun c : Dev nD => iprop(cellInv ER (xchg m) (K.bar c) (barCell c) ∗ reached ER (barCell c) 0)))
theorem rec_send : records m K ⊢ iprop(cellInv ER (xchg m) (K.send c k) (sendCell c k) ∗ reached ER (sendCell c k) 0) := by
  unfold records
  exact (sep_elim_right.trans sep_elim_left).trans (bigSep_elim (Finset.mem_univ (c, k))
    (Φ := fun ck : Dev nD × Fin 31 => iprop(cellInv ER (xchg m) (K.send ck.1 ck.2) (sendCell ck.1 ck.2) ∗ reached ER (sendCell ck.1 ck.2) 0)))
theorem rec_recv : records m K ⊢ iprop(cellInv ER (xchg m) (K.recv c k) (recvCell c k) ∗ reached ER (recvCell c k) 0) := by
  unfold records
  exact (sep_elim_right.trans sep_elim_right).trans (bigSep_elim (Finset.mem_univ (c, k))
    (Φ := fun ck : Dev nD × Fin 31 => iprop(cellInv ER (xchg m) (K.recv ck.1 ck.2) (recvCell ck.1 ck.2) ∗ reached ER (recvCell ck.1 ck.2) 0)))

end Rec

end Cert.KernelProof

end
-- ==== Proof.Bits.Steps.lean ====
/- The cross-device steps of the body, each at a symbolic device and a symbolic slot: the signal to a partner's barrier
   cell, the wait on the device's own barrier cell, the transfer of the device's row to a partner, and the waits on the
   device's own send and receive cells, each followed by the cell's closing. -/
import proofs.«900916_g7700000000000917_dist_max_ax0_shard0_i_m2048_n1024_v7x_i32_f32_1_alg».proof.Proof.Bits.Tables
import proofs.«900916_g7700000000000917_dist_max_ax0_shard0_i_m2048_n1024_v7x_i32_f32_1_alg».proof.Proof.LibLandingRestated

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The slot under which a partner sees the device back, as a permutation of the slots. -/
def revEquiv : Fin 31 ≃ Fin 31 := ⟨rev, rev, rev_rev, rev_rev⟩

/-! ## The signal of slot `n` -/

/-- Device `c`'s signal to its `n`-th partner pays duty `n` of that partner's barrier cell with `c`'s row of that
    partner's index, the row the partner will write. -/
theorem sig_step (K : Names) (c : Dev nD) (n : ℕ) (hn : n < 31) (p : Dev nD) (hp : p = fwd ⟨n, hn⟩ c) (Orest : CellTallies nD τ sig Unit) (W : Waits sig Unit)
    {α : Type} {Q : α → sProp 𝕄} {k : PUnit → Prog (TpuEff nD τ sig (Elt F) Λ₀ .tc) α} :
    iprop(records m K ∗ owes (c : Thread nD τ) (owedSig c n + Orest) W
        ∗ bigSep (slotsFrom n) (fun j => dutyTok ER (barCell (fwd j c)) 0 j)
        ∗ bigSep (slotsFrom n) (fun j => iprop(∃ f, rowPts (F := F) c (fwd j c) fullShare f)))
      ⊢ iprop((iprop(owes (c : Thread nD τ) (owedSig c (n + 1) + Orest) W
            ∗ bigSep (slotsFrom (n + 1)) (fun j => dutyTok ER (barCell (fwd j c)) 0 j)
            ∗ bigSep (slotsFrom (n + 1)) (fun j => iprop(∃ f, rowPts (F := F) c (fwd j c) fullShare f)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (p : Thread nD τ) barS 1) k) Q) := by
  subst hp
  rw [bigSep_slotsFrom n hn, bigSep_slotsFrom n hn]
  iintro ⟨#Hrec, HO, ⟨Htok, Htoks⟩, ⟨Hrow, Hrows⟩⟩ Hk
  ihave Hc := (rec_bar m K (fwd ⟨n, hn⟩ c)) $$ Hrec
  icases Hc with ⟨#HI, #Hr⟩
  iapply (Rounds.wp_signal 𝒱₀ ER (xchg m) (c : Thread nD τ) none (dst := (fwd ⟨n, hn⟩ c : Thread nD τ)) (κ := K.bar (fwd ⟨n, hn⟩ c))
      (d := ⟨n, hn⟩) (O₀ := owedSig c n + Orest) (by rw [duties_bar]; exact Finset.mem_univ _) (amount_bar m (fwd ⟨n, hn⟩ c) ⟨n, hn⟩) () (owedSig c (n + 1) + Orest)
      (by rw [owedSig_succ c n hn]; exact add_right_comm _ _ _)) $$ [HO Htok Hrow]
  · isplitr; · iexact HI
    isplitl [HO]; · iexact HO
    isplitl [Htok]; · iexact Htok
    isplitl [Hrow]
    · rw [payload_bar]; unfold barPay; rw [bwd_fwd]; iexact Hrow
    · iexact Hr
  iintro HO
  iapply Hk
  isplitl [HO]; · iexact HO
  isplitl [Htoks] <;> iassumption

/-! ## The wait on the device's own barrier cell -/

/-- What the barrier wait hands over, slot by slot: partner `j` is the device `30 - j` slots before. -/
theorem bar_payloads (c : Dev nD) :
    bigSep ((xchg (F := F) m).duties (barCell c) 0 \ ∅) (fun d => (xchg (F := F) m).payload (barCell c) 0 d)
      ⊢ bigSep (slotsFrom 0) (fun j => iprop(∃ f, rowPts (F := F) (fwd j c) c fullShare f)) := by
  rw [rest_bar, bigSep_univ_equiv revEquiv, slotsFrom_zero]
  exact Entails.of_eq (bigSep_congr (s := Finset.univ) fun (j : Fin 31) _ => show barPay (F := F) c (revEquiv j) = iprop(∃ f, rowPts (F := F) (fwd j c) c fullShare f) from by
    unfold barPay; show iprop(∃ f, rowPts (F := F) (bwd (rev j) c) c fullShare f) = _; rw [bwd_rev])

/-- The wait for 31 on the device's own barrier cell, owing every arrival (receive cells sit above barrier cells): every
    partner's row of the device's index comes with it. -/
theorem bar_wait (K : Names) (c : Dev nD) (W : Waits sig Unit)
    (hmw : (levAts L lv : sProp 𝕄) ⊢ MayWait (c : Thread nD τ) (.reg barS) () (owedArr c 0))
    {α : Type} {Q : α → sProp 𝕄} {k : PUnit → Prog (TpuEff nD τ sig (Elt F) Λ₀ .tc) α} :
    iprop(records m K ∗ levAts L lv ∗ cred (tallyAt (barCell c) () 31) ∗ owes (c : Thread nD τ) (owedArr c 0) W ∗ atPos ER (barCell c) 0 ∅ 0)
      ⊢ iprop((iprop(owes (c : Thread nD τ) (owedArr c 0) (insert (SemLoc.reg barS, ()) W)
            ∗ bigSep (slotsFrom 0) (fun j => iprop(∃ f, rowPts (F := F) (fwd j c) c fullShare f)))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 31) k) Q) := by
  iintro ⟨#Hrec, #Hlev, Hc, HO, Hat⟩ Hk
  ihave Hb := (rec_bar m K c) $$ Hrec
  icases Hb with ⟨#HI, -⟩
  iapply (Rounds.wp_wait_rest_token 𝒱₀ ER (xchg m) (c : Thread nD τ) none (κ := K.bar c)
      (wpE_semWait_eq 𝒱₀ (c : Thread nD τ) none Set.univ) (Set.mem_univ _) () (O := owedArr c 0) (W := W) (R := 0) (m := 0) (T := ∅)
      (by rw [expect_bar])) $$ [Hc HO Hat]
  · isplitr; · iexact HI
    isplitl [Hc]; · iexact Hc
    isplitl [HO]; · iexact HO
    isplitr; · iapply hmw; iexact Hlev
    iexact Hat
  iintro ⟨HO, -, -, Hpay⟩
  iapply Hk
  isplitl [HO]; · iexact HO
  iapply (bar_payloads m c) $$ Hpay

/-! ## The transfer of slot `n` -/

/-- Device `c`'s `n`-th transfer: its own row, read under the share of slot `n`, into row `c` of its `n`-th partner's table,
    which that partner handed over at the barrier; what lands there is the gathered table's row `c`. -/
theorem send_step (K : Names) (c : Dev nD) (n : ℕ) (hn : n < 31) (p : Dev nD) (hp : p = fwd ⟨n, hn⟩ c) (W : Waits sig Unit)
    {hsc : (rowM c : Memref sig (Dev.tc p : Thread nD τ).2.kind .vmem S1x1024 .f32).view.ref.isScScratch = false}
    {hsrc : (rowM c : Memref sig .tc .vmem S1x1024 .f32).view.WordExact} {hdst : (rowM c : Memref sig .tc .vmem S1x1024 .f32).view.WordExact}
    {hsem : DmaTarget.Typed .vmem (.dma (recvS ⟨n, hn⟩)) (.remote (Dev.tc p : Thread nD τ) (rowM c : Memref sig .tc .vmem S1x1024 .f32) (.dma (sendS ⟨n, hn⟩)) hsc)}
    {α : Type} {Q : α → sProp 𝕄} {k : PUnit → Prog (TpuEff nD τ sig (Elt F) Λ₀ .tc) α} :
    iprop(records m K ∗ owes (c : Thread nD τ) (owedArr c n) W
        ∗ bigSep (slotsFrom n) (fun j => dutyTok ER (recvCell (fwd j c) j) 0 0)
        ∗ bigSep (slotsFrom n) (fun j => dutyTok ER (sendCell c j) 0 0)
        ∗ bigSep (slotsFrom n) (fun j => iprop(∃ f, rowPts (F := F) (fwd j c) c fullShare f))
        ∗ bigSep (slotsFrom n) (fun j => rowPts c c (xferShare j) (tbl m))
        ∗ bigSep (slotsBelow n) (fun j => cred (tallyAt (sendCell c j) () N)))
      ⊢ iprop((iprop(owes (c : Thread nD τ) (owedArr c (n + 1)) W
            ∗ bigSep (slotsFrom (n + 1)) (fun j => dutyTok ER (recvCell (fwd j c) j) 0 0)
            ∗ bigSep (slotsFrom (n + 1)) (fun j => dutyTok ER (sendCell c j) 0 0)
            ∗ bigSep (slotsFrom (n + 1)) (fun j => iprop(∃ f, rowPts (F := F) (fwd j c) c fullShare f))
            ∗ bigSep (slotsFrom (n + 1)) (fun j => rowPts c c (xferShare j) (tbl m))
            ∗ bigSep (slotsBelow (n + 1)) (fun j => cred (tallyAt (sendCell c j) () N)))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (rowM c) (.remote (Dev.tc p : Thread nD τ) (rowM c) (.dma (sendS ⟨n, hn⟩)) hsc) (.dma (recvS ⟨n, hn⟩)) hsrc hdst hsem) k) Q) := by
  subst hp
  rw [bigSep_slotsFrom n hn, bigSep_slotsFrom n hn, bigSep_slotsFrom n hn, bigSep_slotsFrom n hn, bigSep_slotsBelow n hn]
  iintro ⟨#Hrec, HO, ⟨HtV, HtVs⟩, ⟨HtS, HtSs⟩, ⟨⟨%fd, Hdst⟩, Hdsts⟩, ⟨Hsrc, Hsrcs⟩, Hcreds⟩ Hk
  ihave Hc1 := (rec_send m K c ⟨n, hn⟩) $$ Hrec
  icases Hc1 with ⟨#HIs, #Hrs⟩
  ihave Hc2 := (rec_recv m K (fwd ⟨n, hn⟩ c) ⟨n, hn⟩) $$ Hrec
  icases Hc2 with ⟨#HIv, #Hrv⟩
  unfold rowPts
  iapply (Rounds.wp_send_pointsTo 𝒱₀ ER (xchg m) (c : Thread nD τ) none (κ₁ := K.send c ⟨n, hn⟩) (κ₂ := K.recv (fwd ⟨n, hn⟩ c) ⟨n, hn⟩)
      (r₁ := 0) (r₂ := 0) (d₁ := 0) (d₂ := 0) (q := xferShare ⟨n, hn⟩) (fs := tbl m) (fd := fd)
      (by rw [duties_send]; exact Finset.mem_singleton_self _) (by rw [duties_recv]; exact Finset.mem_singleton_self _)
      () () N rfl (amount_send m c ⟨n, hn⟩ 0) (amount_recv m (fwd ⟨n, hn⟩ c) ⟨n, hn⟩ 0) (owedArr c (n + 1)) (owedArr_succ c n hn) (W := W)
      (by rw [payload_send]; exact BI.Entails.refl _)
      (by
        rw [payload_recv]; unfold recvPay rowPts; rw [bwd_fwd]
        exact Entails.of_eq (pointsTo_congr (Cert.Lib.write_univ_eq_on (Val := Elt F) (rowM c).view fd (tbl m) ((rowM c).view.read (Elt F) (tbl m)) (fun _ => rfl))))) $$ [HO HtV HtS Hdst Hsrc]
  · isplitr; · iexact HIs
    isplitr; · iexact HIv
    isplitl [Hsrc]; · iexact Hsrc
    isplitl [Hdst]; · iexact Hdst
    isplitl [HO]; · iexact HO
    isplitl [HtS]; · iexact HtS
    isplitr; · iexact Hrs
    isplitl [HtV]; · iexact HtV
    iexact Hrv
  iintro ⟨Hcr, HO⟩
  iapply Hk
  isplitl [HO]; · iexact HO
  isplitl [HtVs]; · iexact HtVs
  isplitl [HtSs]; · iexact HtSs
  isplitl [Hdsts]; · iexact Hdsts
  isplitl [Hsrcs]; · iexact Hsrcs
  isplitl [Hcr]; · iexact Hcr
  iexact Hcreds

/-! ## The waits on the device's own send and receive cells of slot `n` -/

/-- The wait on the `n`-th send cell, owing nothing: the share of the device's row the transfer read comes back, and the
    cell closes, its counter at zero the device's again. -/
theorem wait_send_step (K : Names) (c : Dev nD) (n : ℕ) (hn : n < 31) (W : Waits sig Unit)
    {sp' : Space} {s' : Shape} {e' : EltTy} {src : Memref sig (c : Thread nD τ).2.kind sp' s' e'} {hsrc : src.view.WordExact}
    {hdst : (rowM c : Memref sig .tc .vmem S1x1024 .f32).view.WordExact}
    {α : Type} {Q : α → sProp 𝕄} {k : PUnit → Prog (TpuEff nD τ sig (Elt F) Λ₀ .tc) α} :
    iprop(records m K ∗ owes (c : Thread nD τ) 0 W
        ∗ bigSep (slotsFrom n) (fun j => cred (tallyAt (sendCell c j) () N))
        ∗ bigSep (slotsFrom n) (fun j => atPos ER (sendCell c j) 0 ∅ 0)
        ∗ bigSep (slotsBelow n) (fun j => rowPts c c (xferShare j) (tbl m))
        ∗ bigSep (slotsBelow n) (fun j => semVal (sendCell c j) 0))
      ⊢ iprop((iprop(owes (c : Thread nD τ) 0 (insert (SemLoc.dma (sendS ⟨n, hn⟩), ()) W)
            ∗ bigSep (slotsFrom (n + 1)) (fun j => cred (tallyAt (sendCell c j) () N))
            ∗ bigSep (slotsFrom (n + 1)) (fun j => atPos ER (sendCell c j) 0 ∅ 0)
            ∗ bigSep (slotsBelow (n + 1)) (fun j => rowPts c c (xferShare j) (tbl m))
            ∗ bigSep (slotsBelow (n + 1)) (fun j => semVal (sendCell c j) 0))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (sendS ⟨n, hn⟩) src (rowM c : Memref sig .tc .vmem S1x1024 .f32) hsrc hdst) k) Q) := by
  rw [bigSep_slotsFrom n hn, bigSep_slotsFrom n hn, bigSep_slotsBelow n hn, bigSep_slotsBelow n hn]
  iintro ⟨#Hrec, HO, ⟨Hcr, Hcrs⟩, ⟨Hat, Hats⟩, Hshs, Hzs⟩ Hk
  ihave Hc1 := (rec_send m K c ⟨n, hn⟩) $$ Hrec
  icases Hc1 with ⟨#HI, -⟩
  iapply (Rounds.wp_wait_rest_token 𝒱₀ ER (xchg m) (c : Thread nD τ) none (κ := K.send c ⟨n, hn⟩)
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hsh := (Entails.of_eq (rest_send m c ⟨n, hn⟩)) $$ Hpay
  imod (Rounds.cell_close ER (xchg m) (Set.mem_univ (K.send c ⟨n, hn⟩)) (fun h => h) (R := 0 + 1) (duties_later m (sendCell c ⟨n, hn⟩))) $$ [Hat] with Hz
  · isplitr; · iexact HI
    iexact Hat
  iapply Hk
  isplitl [HO]; · iexact HO
  isplitl [Hcrs]; · iexact Hcrs
  isplitl [Hats]; · iexact Hats
  isplitl [Hsh Hshs]
  · isplitl [Hsh]; · unfold sendPay; iexact Hsh
    iexact Hshs
  isplitl [Hz]; · iexact Hz
  iexact Hzs

/-- The wait on the `n`-th receive cell, owing nothing: the row of the device `n + 1` places before comes landed, holding
    the gathered table's row of that index, and the cell closes. -/
theorem wait_recv_step (K : Names) (c : Dev nD) (n : ℕ) (hn : n < 31) (W : Waits sig Unit)
    {sp' : Space} {s' : Shape} {e' : EltTy} {src : Memref sig (c : Thread nD τ).2.kind sp' s' e'} {hsrc : src.view.WordExact}
    {hdst : (rowM c : Memref sig .tc .vmem S1x1024 .f32).view.WordExact}
    {α : Type} {Q : α → sProp 𝕄} {k : PUnit → Prog (TpuEff nD τ sig (Elt F) Λ₀ .tc) α} :
    iprop(records m K ∗ owes (c : Thread nD τ) 0 W
        ∗ bigSep (slotsFrom n) (fun j => cred (tallyAt (recvCell c j) () N))
        ∗ bigSep (slotsFrom n) (fun j => atPos ER (recvCell c j) 0 ∅ 0)
        ∗ bigSep (slotsBelow n) (fun j => rowPts c (bwd j c) fullShare (tbl m))
        ∗ bigSep (slotsBelow n) (fun j => semVal (recvCell c j) 0))
      ⊢ iprop((iprop(owes (c : Thread nD τ) 0 (insert (SemLoc.dma (recvS ⟨n, hn⟩), ()) W)
            ∗ bigSep (slotsFrom (n + 1)) (fun j => cred (tallyAt (recvCell c j) () N))
            ∗ bigSep (slotsFrom (n + 1)) (fun j => atPos ER (recvCell c j) 0 ∅ 0)
            ∗ bigSep (slotsBelow (n + 1)) (fun j => rowPts c (bwd j c) fullShare (tbl m))
            ∗ bigSep (slotsBelow (n + 1)) (fun j => semVal (recvCell c j) 0))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (recvS ⟨n, hn⟩) src (rowM c : Memref sig .tc .vmem S1x1024 .f32) hsrc hdst) k) Q) := by
  rw [bigSep_slotsFrom n hn, bigSep_slotsFrom n hn, bigSep_slotsBelow n hn, bigSep_slotsBelow n hn]
  iintro ⟨#Hrec, HO, ⟨Hcr, Hcrs⟩, ⟨Hat, Hats⟩, Hshs, Hzs⟩ Hk
  ihave Hc1 := (rec_recv m K c ⟨n, hn⟩) $$ Hrec
  icases Hc1 with ⟨#HI, -⟩
  iapply (Rounds.wp_wait_rest_token 𝒱₀ ER (xchg m) (c : Thread nD τ) none (κ := K.recv c ⟨n, hn⟩)
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hsh := (Entails.of_eq (rest_recv m c ⟨n, hn⟩)) $$ Hpay
  imod (Rounds.cell_close ER (xchg m) (Set.mem_univ (K.recv c ⟨n, hn⟩)) (fun h => h) (R := 0 + 1) (duties_later m (recvCell c ⟨n, hn⟩))) $$ [Hat] with Hz
  · isplitr; · iexact HI
    iexact Hat
  iapply Hk
  isplitl [HO]; · iexact HO
  isplitl [Hcrs]; · iexact Hcrs
  isplitl [Hats]; · iexact Hats
  isplitl [Hsh Hshs]
  · isplitl [Hsh]; · unfold recvPay; iexact Hsh
    iexact Hshs
  isplitl [Hz]; · iexact Hz
  iexact Hzs

end Cert.KernelProof

end
-- ==== Proof.Bits.Levels.lean ====
/- The order of the waits. Barrier cells sit at level 1, receive cells at level 2, every other cell at level 0.
   Whatever a device still owes is owed to barrier cells and receive cells, so a wait at level 0 is below all of it;
   at its barrier wait a device owes arrivals only, which are receive cells, above its barrier cell. -/
import proofs.«900916_g7700000000000917_dist_max_ax0_shard0_i_m2048_n1024_v7x_i32_f32_1_alg».proof.Proof.Bits.Tables

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the dues are positive -/

omit [FloatOps F] in
/-- A signal still owed is owed to a partner's barrier cell; -/
theorem owedSig_pos {c : Dev nD} {n : ℕ} {g : GSem nD τ sig} {u : Unit} (h : 0 < owedSig c n g u) : ∃ j : Fin 31, g = barCell (fwd j c) := by
  unfold owedSig at h
  obtain ⟨j, -, hj⟩ := Pipeline.sum_pos_exists h
  exact ⟨j, (Pipeline.tallyAt_pos hj).1⟩

omit [FloatOps F] in
/-- an arrival still owed is owed to a partner's receive cell. -/
theorem owedArr_pos {c : Dev nD} {n : ℕ} {g : GSem nD τ sig} {u : Unit} (h : 0 < owedArr c n g u) : ∃ j : Fin 31, g = recvCell (fwd j c) j := by
  unfold owedArr at h
  obtain ⟨j, -, hj⟩ := Pipeline.sum_pos_exists h
  exact ⟨j, (Pipeline.tallyAt_pos hj).1⟩

/-- The dues a wait at level 0 may stand below: positive only at barrier cells and receive cells of TensorCores. -/
def HighDues (O : CellTallies nD τ sig Unit) : Prop :=
  ∀ g u, 0 < O g u → (g.2 = .reg barS ∨ (slotOf 40 g.2).isSome) ∧ g.1.2 = .tc

omit [FloatOps F] in
theorem highDues_zero : HighDues (0 : CellTallies nD τ sig Unit) := fun g u h => by
  rw [Pi.zero_apply, Finsupp.zero_apply] at h; exact absurd h (Nat.lt_irrefl 0)
omit [FloatOps F] in
theorem highDues_add {O D : CellTallies nD τ sig Unit} (hO : HighDues O) (hD : HighDues D) : HighDues (O + D) := fun g u h => by
  rcases Pipeline.add_pos_cases h with h | h
  · exact hO g u h
  · exact hD g u h
omit [FloatOps F] in
theorem highDues_sig (c : Dev nD) (n : ℕ) : HighDues (owedSig c n) := fun g u h => by
  obtain ⟨j, rfl⟩ := owedSig_pos h; exact ⟨.inl rfl, rfl⟩
omit [FloatOps F] in
theorem highDues_arr (c : Dev nD) (n : ℕ) : HighDues (owedArr c n) := fun g u h => by
  obtain ⟨j, rfl⟩ := owedArr_pos h; exact ⟨.inr (by rw [slotOf_recv]; rfl), rfl⟩
omit [FloatOps F] in
theorem highDues_launch (c : Dev nD) : HighDues (O₀ c) := highDues_add (highDues_sig c 0) (highDues_arr c 0)
omit [FloatOps F] in
theorem highDues_tallyAt_bar (p : Dev nD) (n : ℕ) : HighDues (tallyAt (barCell p) () n) := fun g u h => by
  rw [(Pipeline.tallyAt_pos h).1]; exact ⟨.inl rfl, rfl⟩
omit [FloatOps F] in
theorem highDues_tallyAt_recv (p : Dev nD) (k : Fin 31) (n : ℕ) : HighDues (tallyAt (recvCell p k) () n) := fun g u h => by
  rw [(Pipeline.tallyAt_pos h).1]; exact ⟨.inr (by rw [slotOf_recv]; rfl), rfl⟩

/-! ## The waits -/

omit [FloatOps F] in
/-- A wait on a DMA semaphore that is no receive cell (staging, load, send: level 0) is below every barrier and receive cell. -/
theorem mayWait_low (c : Dev nD) (q : DmaSem sig) (hq : (slotOf 40 (SemLoc.dma q : SemLoc sig)).isSome = false) (O : CellTallies nD τ sig Unit)
    (hO : HighDues O) : (levAts L lv : sProp 𝕄) ⊢ MayWait (c : Thread nD τ) (.dma q) () O :=
  MayOwe.of_cut (L := L) (lev := lv) 0
    (fun p hp => by rw [Finset.mem_singleton.mp hp, L_tc]; exact Finset.mem_singleton_self _)
    (fun g u hg => by unfold L; rw [if_pos (hO g u hg).2]; exact Finset.mem_singleton_self _)
    (fun p hp => by
      rw [Finset.mem_singleton.mp hp]; dsimp only [lv]
      rw [if_neg (dma_ne_bar q), if_neg (by rw [hq]; exact Bool.false_ne_true)])
    (fun g u hg => by
      rcases (hO g u hg).1 with h | h
      · dsimp only [lv]; rw [if_pos h]; exact Nat.one_pos
      · dsimp only [lv]; split
        · exact Nat.one_pos
        · exact Nat.succ_pos 1)

omit [FloatOps F] in
/-- At its barrier wait a device owes arrivals only: receive cells, above its barrier cell. -/
theorem mayWait_bar (c : Dev nD) (n : ℕ) : (levAts L lv : sProp 𝕄) ⊢ MayWait (c : Thread nD τ) (.reg barS) () (owedArr c n) :=
  MayOwe.of_cut (L := L) (lev := lv) 1
    (fun p hp => by rw [Finset.mem_singleton.mp hp, L_tc]; exact Finset.mem_singleton_self _)
    (fun g u hg => by obtain ⟨j, rfl⟩ := owedArr_pos hg; rw [L_tc]; exact Finset.mem_singleton_self _)
    (fun p hp => by rw [Finset.mem_singleton.mp hp]; dsimp only [lv]; rw [if_pos rfl])
    (fun g u hg => by
      obtain ⟨j, rfl⟩ := owedArr_pos hg
      dsimp only [lv]; rw [if_neg (dma_ne_bar _), slotOf_recv, if_pos (show (some j).isSome = true from rfl)]; exact Nat.lt_succ_self 1)

end Cert.KernelProof

end
-- ==== Proof.Bits.Rows.lean ====
/- The geometry of the table of 32 rows and the shares of a row. Row `j` of the table is the set of its elements whose
   first coordinate is `j`; the rows are pairwise disjoint and cover the table, so the table held whole is the 32 rows
   held one by one. A conjunction over all 32 devices is one device's own summand and the 31 summands of its partners,
   counted forwards or backwards round the circle. A row held in full is the 31 shares its transfers read under: 30
   successive left halves and what is left at the end. Last, the device's own row as the body's load and store reach
   it, and that the row just written holds the device's column maxima, as the gathered table does there. -/
import proofs.«900916_g7700000000000917_dist_max_ax0_shard0_i_m2048_n1024_v7x_i32_f32_1_alg».proof.Proof.Bits.Tables
import proofs.«900916_g7700000000000917_dist_max_ax0_shard0_i_m2048_n1024_v7x_i32_f32_1_alg».proof.Proof.LibLandingRestated

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which elements a row holds -/

theorem mem_row (j : Dev nD) (i : (rowM j).view.ty.Idx) : i ∈ (rowM j).view.set ↔ (i 0).val = j.val := by
  show i ∈ ((View.whole cc0_scratch2).slice _).set ↔ _
  rw [View.set_slice_whole, Rect.mem_set_unit, k0_off2_eq]
  show (∀ a : Fin 2, (![j.val, 0] : Fin 2 → ℕ) a ≤ (i a).val
    ∧ (i a).val < (![j.val, 0] : Fin 2 → ℕ) a + (![1, 1024] : Fin 2 → ℕ) a) ↔ _
  rw [Fin.forall_fin_two]
  have h1 : (i 1).val < 1024 := (i 1).isLt
  show (j.val ≤ (i 0).val ∧ (i 0).val < j.val + 1) ∧ (0 ≤ (i 1).val ∧ (i 1).val < 0 + 1024) ↔ _
  omega

theorem rows_disjoint (j j' : Dev nD) (h : j ≠ j') : Disjoint (rowM j).view.set (rowM j').view.set := by
  rw [Finset.disjoint_left]
  intro i hi hi'
  rw [mem_row] at hi hi'
  exact h (Fin.ext (hi.symm.trans hi'))

theorem rows_cover : Finset.biUnion (β := tblM.view.ty.Idx) (Finset.univ : Finset (Dev nD)) (fun j => (rowM j).view.set) = Finset.univ := by
  ext i
  simp only [Finset.mem_biUnion, Finset.mem_univ, true_and, iff_true]
  exact ⟨⟨(i 0).val, (i 0).isLt⟩, (mem_row ⟨(i 0).val, (i 0).isLt⟩ i).mpr rfl⟩

/-! ## The table whole is its rows -/

theorem tbl_rows (c : Dev nD) (f : Buf (Elt F) ((c : Thread nD τ).loc cc0_scratch2)) :
    ((((c : Thread nD τ).loc cc0_scratch2) ↦{fullShare} f) : sProp 𝕄)
      = bigSep Finset.univ (fun j : Dev nD => rowPts c j fullShare f) := by
  have h := pointsTo_biUnion (ℓ := (c : Thread nD τ).loc cc0_scratch2) (q := fullShare) (f := f) (Val := Elt F)
    (Ix := Unit) (Name := ℕ) (U := UU) (Lvl := ℕ)
    (Finset.univ : Finset (Dev nD)) (fun j => (rowM j).view.set) (fun j _ j' _ hne => rows_disjoint j j' hne)
  rw [rows_cover] at h
  exact h

theorem rows_join (c : Dev nD) :
    bigSep Finset.univ (fun j : Dev nD => rowPts c j fullShare (tbl m))
      = ((((c : Thread nD τ).loc cc0_scratch2) ↦{fullShare} tbl m) : sProp 𝕄) :=
  (tbl_rows c (tbl m)).symm

/-! ## All devices: one and its 31 partners -/

theorem erase_eq_image_fwd (c : Dev nD) :
    (Finset.univ.erase c : Finset (Dev nD)) = Finset.univ.image fun k : Fin 31 => fwd k c := by
  ext p
  simp only [Finset.mem_erase, Finset.mem_univ, and_true, Finset.mem_image, true_and]
  exact ⟨fun h => exists_fwd c p h, fun ⟨k, hk⟩ => hk ▸ fwd_ne k c⟩

theorem univ_fwd (c : Dev nD) (Φ : Dev nD → sProp 𝕄) :
    bigSep Finset.univ Φ = iprop(Φ c ∗ bigSep Finset.univ (fun k : Fin 31 => Φ (fwd k c))) := by
  have hmap : (Finset.univ.image fun k : Fin 31 => fwd k c)
      = Finset.univ.map ⟨fun k : Fin 31 => fwd k c, fun k k' h => fwd_inj_slot k k' c h⟩ := by
    rw [Finset.map_eq_image]; rfl
  rw [bigSep_univ_split c, erase_eq_image_fwd c, hmap, bigSep_map]; rfl

theorem univ_bwd (c : Dev nD) (Φ : Dev nD → sProp 𝕄) :
    bigSep Finset.univ Φ = iprop(Φ c ∗ bigSep Finset.univ (fun k : Fin 31 => Φ (bwd k c))) := by
  have hmap : (Finset.univ.image fun k : Fin 31 => bwd k c)
      = Finset.univ.map ⟨fun k : Fin 31 => bwd k c, fun k k' h => bwd_inj_slot k k' c h⟩ := by
    rw [Finset.map_eq_image]; rfl
  rw [bigSep_univ_split c, erase_eq_image_bwd c, hmap, bigSep_map]; rfl

/-! ## A row's 31 shares -/

/-- Separating conjunction is commutative, -/
theorem sep_swap (P Q : sProp 𝕄) : iprop(P ∗ Q) = iprop(Q ∗ P) := by
  have h1 : iprop(P ∗ Q) ⊢ iprop(Q ∗ P) := by
    iintro ⟨HP, HQ⟩
    isplitl [HQ]; · iexact HQ
    iexact HP
  have h2 : iprop(Q ∗ P) ⊢ iprop(P ∗ Q) := by
    iintro ⟨HQ, HP⟩
    isplitl [HP]; · iexact HP
    iexact HQ
  exact BI.equiv_iff.mp ⟨h1, h2⟩

/-- and a conjunct of the right factor may be moved in front of the left factor. -/
theorem sep_rot (B L R : sProp 𝕄) : iprop(B ∗ (L ∗ R)) = iprop((L ∗ B) ∗ R) := by
  have h1 : iprop(B ∗ (L ∗ R)) ⊢ iprop((L ∗ B) ∗ R) := by
    iintro ⟨HB, HL, HR⟩
    isplitr [HR]
    · isplitl [HL]; · iexact HL
      iexact HB
    · iexact HR
  have h2 : iprop((L ∗ B) ∗ R) ⊢ iprop(B ∗ (L ∗ R)) := by
    iintro ⟨⟨HL, HB⟩, HR⟩
    isplitl [HB]; · iexact HB
    isplitl [HL]; · iexact HL
    iexact HR
  exact BI.equiv_iff.mp ⟨h1, h2⟩

/-- A row held at a share is the row held at the share's two halves. -/
theorem rowPts_halve (c j : Dev nD) (q : PosShare TreeShare) (f : Buf (Elt F) ((rowM j).view.loc (c : Thread nD τ))) :
    (rowPts c j q f : sProp 𝕄) = iprop(rowPts c j q.left f ∗ rowPts c j q.right f) := by
  unfold rowPts
  have h := pointsTo_share (ℓ := (rowM j).view.loc (c : Thread nD τ)) (I := (rowM j).view.set) (f := f) (Val := Elt F)
    (Ix := Unit) (Name := ℕ) (U := UU) (Lvl := ℕ) (PosShare.mem_left_op_right q)
  exact BI.equiv_iff.mp ⟨h.1, h.2⟩

/-- After `n ≤ 30` halvings: the first `n` transfers' shares and what is left. -/
theorem row_shares_upto (c j : Dev nD) (f : Buf (Elt F) ((rowM j).view.loc (c : Thread nD τ))) :
    ∀ n, n ≤ 30 → (rowPts c j fullShare f : sProp 𝕄)
      = iprop(bigSep (slotsBelow n) (fun k : Fin 31 => rowPts c j (xferShare k) f) ∗ rowPts c j (restShare n) f)
  | 0, _ => by
    rw [slotsBelow_zero, bigSep_empty]
    exact (BI.equiv_iff.mp ⟨emp_sep_elim, emp_sep_intro⟩).symm
  | n + 1, h => by
    have hn : n < 31 := by omega
    have hx : xferShare ⟨n, hn⟩ = (restShare n).left := by
      unfold xferShare; exact if_neg (by show ¬ n = 30; omega)
    rw [bigSep_slotsBelow n hn, hx, row_shares_upto c j f n (by omega), rowPts_halve c j (restShare n) f]
    exact sep_rot _ _ _

theorem row_shares_eq (c j : Dev nD) (f : Buf (Elt F) ((rowM j).view.loc (c : Thread nD τ))) :
    (rowPts c j fullShare f : sProp 𝕄) = bigSep Finset.univ (fun k : Fin 31 => rowPts c j (xferShare k) f) := by
  have hx : xferShare ⟨30, by omega⟩ = restShare 30 := by unfold xferShare; exact if_pos rfl
  rw [← slotsBelow_end, bigSep_slotsBelow 30 (by omega), hx, row_shares_upto c j f 30 le_rfl]
  exact sep_swap _ _

theorem row_shares (c j : Dev nD) (f : Buf (Elt F) ((rowM j).view.loc (c : Thread nD τ))) :
    (rowPts c j fullShare f : sProp 𝕄) ⊣⊢ bigSep Finset.univ (fun k : Fin 31 => rowPts c j (xferShare k) f) :=
  .of_eq (row_shares_eq c j f)

theorem row_shares_split (c j : Dev nD) (f : Buf (Elt F) ((rowM j).view.loc (c : Thread nD τ))) :
    (rowPts c j fullShare f : sProp 𝕄) ⊢ bigSep Finset.univ (fun k : Fin 31 => rowPts c j (xferShare k) f) :=
  (row_shares c j f).1

theorem row_shares_join (c j : Dev nD) (f : Buf (Elt F) ((rowM j).view.loc (c : Thread nD τ))) :
    bigSep Finset.univ (fun k : Fin 31 => rowPts c j (xferShare k) f) ⊢ (rowPts c j fullShare f : sProp 𝕄) :=
  (row_shares c j f).2

/-! ## The device's own row under the body's load and store -/

/-- The rectangle the body loads and stores its own row through. -/
abbrev r1 (c : Dev nD) : Rect S32x1024 := Rect.unit (s := S32x1024) (k0_off1 c) S1x1024.size (k0_off1_inb c)

/-- The body's rectangle holds the same elements as the device's row: those of first coordinate `c`. -/
theorem mem_r1 (c : Dev nD) (i : tblM.view.ty.Idx) : i ∈ (r1 c).set ↔ (i 0).val = c.val := by
  rw [Rect.mem_set_unit, k0_off1_eq]
  show (∀ a : Fin 2, (![c.val, 0] : Fin 2 → ℕ) a ≤ (i a).val
    ∧ (i a).val < (![c.val, 0] : Fin 2 → ℕ) a + (![1, 1024] : Fin 2 → ℕ) a) ↔ _
  rw [Fin.forall_fin_two]
  have h1 : (i 1).val < 1024 := (i 1).isLt
  show (c.val ≤ (i 0).val ∧ (i 0).val < c.val + 1) ∧ (0 ≤ (i 1).val ∧ (i 1).val < 0 + 1024) ↔ _
  omega

theorem r1_set_eq (c : Dev nD) : (r1 c).set = (rowM c).view.set := by
  ext i; rw [mem_r1, mem_row]

theorem own_row_load_sub (c : Dev nD) : tblM.view.setOn (r1 c).toLoadRect.set ⊆ (rowM c).view.set := by
  have h : tblM.view.setOn (r1 c).toLoadRect.set = (r1 c).set := by
    unfold View.setOn; exact Finset.map_refl
  rw [h, r1_set_eq]

theorem own_row_set (c : Dev nD) : (tblM.access (r1 c)).set = (rowM c).view.set := by
  rw [← r1_set_eq]; exact View.set_slice_whole cc0_scratch2 (r1 c)

theorem own_row_store_sub (c : Dev nD) : (tblM.access (r1 c)).setOn Finset.univ ⊆ (rowM c).view.set := by
  rw [View.setOn_univ, own_row_set]

/-- Read through the body's rectangle, the gathered table is the device's column maxima. -/
theorem own_row_read (c : Dev nD) (y : S1x1024.Idx) :
    (tblM.access (r1 c)).read (Elt F) (tbl m) y = colMax (xblk m c) y := by
  have hy0 : (y 0).val = 0 := by have h := (y 0).isLt; change (y 0).val < 1 at h; omega
  have h0 : ((tblM.access (r1 c)).emb y) 0 = c := by
    apply Fin.ext
    show k0_off1 c 0 + 1 * (y 0).val = c.val
    rw [k0_off1_eq, hy0]; show c.val + 1 * 0 = c.val; omega
  have h1 : ((tblM.access (r1 c)).emb y) 1 = y 1 := by
    apply Fin.ext
    show k0_off1 c 1 + 1 * (y 1).val = (y 1).val
    rw [k0_off1_eq]; show 0 + 1 * (y 1).val = (y 1).val; omega
  have hy : ValueIdx.ix2 (0 : Fin 1) (y 1) = y := by
    funext a
    match a with
    | ⟨0, _⟩ => exact Fin.ext hy0.symm
    | ⟨1, _⟩ => rfl
  rw [View.read_apply]
  show tbl m ((tblM.access (r1 c)).emb y) = _
  unfold tbl table
  show colMax (xblk m (((tblM.access (r1 c)).emb y) 0)) (ValueIdx.ix2 (0 : Fin 1) (((tblM.access (r1 c)).emb y) 1)) = _
  rw [h0, h1]
  exact congrArg (colMax (xblk m c)) hy

theorem own_row_written (c : Dev nD) (ft : (tblM.access (r1 c)).ty.Contents (Elt F)) (w : S1x1024.Idx → Elt F .f32)
    (hw : w = colMax (xblk m c)) :
    ∀ i ∈ (rowM c).view.set, (tblM.access (r1 c)).write (Elt F) ft w Finset.univ i = tbl m i := by
  intro i hi
  rw [← own_row_set] at hi
  exact Cert.Lib.write_univ_eq_on (tblM.access (r1 c)) ft (tbl m) w (fun y => by rw [hw]; exact own_row_read m c y) i hi

/-- info: 'Cert.KernelProof.tbl_rows' depends on axioms: [propext, Classical.choice, Quot.sound] -/
#guard_msgs in #print axioms tbl_rows

/-- info: 'Cert.KernelProof.row_shares' depends on axioms: [propext, Classical.choice, Quot.sound] -/
#guard_msgs in #print axioms row_shares

/-- info: 'Cert.KernelProof.own_row_written' depends on axioms: [propext, Classical.choice, Quot.sound] -/
#guard_msgs in #print axioms own_row_written

end Cert.KernelProof

end
-- ==== Proof.Bits.Slabs.lean ====
/- The device's block of the input, 2048 rows, is copied from HBM to VMEM in eight slabs of 256 rows. Slab `s` of either
   buffer is the set of its elements whose first coordinate lies in `256 s … 256 s + 255`; the slabs are pairwise
   disjoint and cover the buffer, so a buffer held whole (at any share) is its eight slabs held one by one, and eight
   slabs held at the full share, each at its own contents, are the whole buffer at some contents. A load of slab `s`
   of the VMEM buffer reaches exactly the elements of the slab. -/
import proofs.«900916_g7700000000000917_dist_max_ax0_shard0_i_m2048_n1024_v7x_i32_f32_1_alg».proof.Proof.Bits.Rows

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slab rectangles and the rows from a slab on -/

/-- Rows `o … o + 255` of a block of 2048 rows. -/
abbrev slabR (o : ℕ) (h : ∀ a, (![o, 0] : Fin 2 → ℕ) a + S256x1024.size a ≤ S2048x1024.size a) : Rect S2048x1024 :=
  Rect.unit (s := S2048x1024) ![o, 0] S256x1024.size h

theorem mem_slabR (o : ℕ) (h : ∀ a, (![o, 0] : Fin 2 → ℕ) a + S256x1024.size a ≤ S2048x1024.size a) (i : S2048x1024.Idx) :
    i ∈ (slabR o h).set ↔ o ≤ (i 0).val ∧ (i 0).val < o + 256 := by
  rw [Rect.mem_set_unit]
  show (∀ a : Fin 2, (![o, 0] : Fin 2 → ℕ) a ≤ (i a).val
    ∧ (i a).val < (![o, 0] : Fin 2 → ℕ) a + (![256, 1024] : Fin 2 → ℕ) a) ↔ _
  rw [Fin.forall_fin_two]
  have h1 : (i 1).val < 1024 := (i 1).isLt
  show (o ≤ (i 0).val ∧ (i 0).val < o + 256) ∧ (0 ≤ (i 1).val ∧ (i 1).val < 0 + 1024) ↔ _
  omega

/-- The elements of a block in rows `n` and later. -/
def rowsFrom (n : ℕ) : Finset S2048x1024.Idx := Finset.univ.filter fun i => n ≤ (i 0).val

theorem mem_rowsFrom (n : ℕ) (i : S2048x1024.Idx) : i ∈ rowsFrom n ↔ n ≤ (i 0).val := by
  unfold rowsFrom; simp only [Finset.mem_filter, Finset.mem_univ, true_and]

theorem rowsFrom_zero : rowsFrom 0 = Finset.univ := by
  ext i; rw [mem_rowsFrom]; simp only [Nat.zero_le, Finset.mem_univ]

theorem rowsFrom_split (o o' : ℕ) (ho : o' = o + 256) (h : ∀ a, (![o, 0] : Fin 2 → ℕ) a + S256x1024.size a ≤ S2048x1024.size a) :
    rowsFrom o = (slabR o h).set ∪ rowsFrom o' := by
  ext i; rw [Finset.mem_union, mem_rowsFrom, mem_rowsFrom, mem_slabR]; omega

theorem rowsFrom_disj (o o' : ℕ) (ho : o' = o + 256) (h : ∀ a, (![o, 0] : Fin 2 → ℕ) a + S256x1024.size a ≤ S2048x1024.size a) :
    Disjoint (slabR o h).set (rowsFrom o') := by
  rw [Finset.disjoint_left]; intro i hi hi'; rw [mem_slabR] at hi; rw [mem_rowsFrom] at hi'; omega

theorem rowsFrom_last (h : ∀ a, (![1792, 0] : Fin 2 → ℕ) a + S256x1024.size a ≤ S2048x1024.size a) :
    rowsFrom 1792 = (slabR 1792 h).set := by
  ext i; rw [mem_rowsFrom, mem_slabR]
  have h0 : (i 0).val < 2048 := (i 0).isLt
  omega

/-! ## The eight slabs of the HBM block and of its VMEM copy, sliced as the kernel slices them -/

abbrev srcSlab0 : Memref sig .tc .hbm S256x1024 .f32 :=
  (Memref.whole main_arg0).slice (Rect.unit (s := S2048x1024) ![0, 0] S256x1024.size Gen.inb_S2048x1024_S256x1024_0_0) (fun _ => rfl)
abbrev srcSlab1 : Memref sig .tc .hbm S256x1024 .f32 :=
  (Memref.whole main_arg0).slice (Rect.unit (s := S2048x1024) ![256, 0] S256x1024.size Gen.inb_S2048x1024_S256x1024_256_0) (fun _ => rfl)
abbrev srcSlab2 : Memref sig .tc .hbm S256x1024 .f32 :=
  (Memref.whole main_arg0).slice (Rect.unit (s := S2048x1024) ![512, 0] S256x1024.size Gen.inb_S2048x1024_S256x1024_512_0) (fun _ => rfl)
abbrev srcSlab3 : Memref sig .tc .hbm S256x1024 .f32 :=
  (Memref.whole main_arg0).slice (Rect.unit (s := S2048x1024) ![768, 0] S256x1024.size Gen.inb_S2048x1024_S256x1024_768_0) (fun _ => rfl)
abbrev srcSlab4 : Memref sig .tc .hbm S256x1024 .f32 :=
  (Memref.whole main_arg0).slice (Rect.unit (s := S2048x1024) ![1024, 0] S256x1024.size Gen.inb_S2048x1024_S256x1024_1024_0) (fun _ => rfl)
abbrev srcSlab5 : Memref sig .tc .hbm S256x1024 .f32 :=
  (Memref.whole main_arg0).slice (Rect.unit (s := S2048x1024) ![1280, 0] S256x1024.size Gen.inb_S2048x1024_S256x1024_1280_0) (fun _ => rfl)
abbrev srcSlab6 : Memref sig .tc .hbm S256x1024 .f32 :=
  (Memref.whole main_arg0).slice (Rect.unit (s := S2048x1024) ![1536, 0] S256x1024.size Gen.inb_S2048x1024_S256x1024_1536_0) (fun _ => rfl)
abbrev srcSlab7 : Memref sig .tc .hbm S256x1024 .f32 :=
  (Memref.whole main_arg0).slice (Rect.unit (s := S2048x1024) ![1792, 0] S256x1024.size Gen.inb_S2048x1024_S256x1024_1792_0) (fun _ => rfl)

abbrev dstSlab0 : Memref sig .tc .vmem S256x1024 .f32 :=
  (Memref.whole cc0_scratch0).slice (Rect.unit (s := S2048x1024) ![0, 0] S256x1024.size Gen.inb_S2048x1024_S256x1024_0_0) (fun _ => rfl)
abbrev dstSlab1 : Memref sig .tc .vmem S256x1024 .f32 :=
  (Memref.whole cc0_scratch0).slice (Rect.unit (s := S2048x1024) ![256, 0] S256x1024.size Gen.inb_S2048x1024_S256x1024_256_0) (fun _ => rfl)
abbrev dstSlab2 : Memref sig .tc .vmem S256x1024 .f32 :=
  (Memref.whole cc0_scratch0).slice (Rect.unit (s := S2048x1024) ![512, 0] S256x1024.size Gen.inb_S2048x1024_S256x1024_512_0) (fun _ => rfl)
abbrev dstSlab3 : Memref sig .tc .vmem S256x1024 .f32 :=
  (Memref.whole cc0_scratch0).slice (Rect.unit (s := S2048x1024) ![768, 0] S256x1024.size Gen.inb_S2048x1024_S256x1024_768_0) (fun _ => rfl)
abbrev dstSlab4 : Memref sig .tc .vmem S256x1024 .f32 :=
  (Memref.whole cc0_scratch0).slice (Rect.unit (s := S2048x1024) ![1024, 0] S256x1024.size Gen.inb_S2048x1024_S256x1024_1024_0) (fun _ => rfl)
abbrev dstSlab5 : Memref sig .tc .vmem S256x1024 .f32 :=
  (Memref.whole cc0_scratch0).slice (Rect.unit (s := S2048x1024) ![1280, 0] S256x1024.size Gen.inb_S2048x1024_S256x1024_1280_0) (fun _ => rfl)
abbrev dstSlab6 : Memref sig .tc .vmem S256x1024 .f32 :=
  (Memref.whole cc0_scratch0).slice (Rect.unit (s := S2048x1024) ![1536, 0] S256x1024.size Gen.inb_S2048x1024_S256x1024_1536_0) (fun _ => rfl)
abbrev dstSlab7 : Memref sig .tc .vmem S256x1024 .f32 :=
  (Memref.whole cc0_scratch0).slice (Rect.unit (s := S2048x1024) ![1792, 0] S256x1024.size Gen.inb_S2048x1024_S256x1024_1792_0) (fun _ => rfl)

theorem srcSlab0_set : srcSlab0.view.set = (slabR 0 Gen.inb_S2048x1024_S256x1024_0_0).set := View.set_slice_whole main_arg0 _
theorem srcSlab1_set : srcSlab1.view.set = (slabR 256 Gen.inb_S2048x1024_S256x1024_256_0).set := View.set_slice_whole main_arg0 _
theorem srcSlab2_set : srcSlab2.view.set = (slabR 512 Gen.inb_S2048x1024_S256x1024_512_0).set := View.set_slice_whole main_arg0 _
theorem srcSlab3_set : srcSlab3.view.set = (slabR 768 Gen.inb_S2048x1024_S256x1024_768_0).set := View.set_slice_whole main_arg0 _
theorem srcSlab4_set : srcSlab4.view.set = (slabR 1024 Gen.inb_S2048x1024_S256x1024_1024_0).set := View.set_slice_whole main_arg0 _
theorem srcSlab5_set : srcSlab5.view.set = (slabR 1280 Gen.inb_S2048x1024_S256x1024_1280_0).set := View.set_slice_whole main_arg0 _
theorem srcSlab6_set : srcSlab6.view.set = (slabR 1536 Gen.inb_S2048x1024_S256x1024_1536_0).set := View.set_slice_whole main_arg0 _
theorem srcSlab7_set : srcSlab7.view.set = (slabR 1792 Gen.inb_S2048x1024_S256x1024_1792_0).set := View.set_slice_whole main_arg0 _

theorem dstSlab0_set : dstSlab0.view.set = (slabR 0 Gen.inb_S2048x1024_S256x1024_0_0).set := View.set_slice_whole cc0_scratch0 _
theorem dstSlab1_set : dstSlab1.view.set = (slabR 256 Gen.inb_S2048x1024_S256x1024_256_0).set := View.set_slice_whole cc0_scratch0 _
theorem dstSlab2_set : dstSlab2.view.set = (slabR 512 Gen.inb_S2048x1024_S256x1024_512_0).set := View.set_slice_whole cc0_scratch0 _
theorem dstSlab3_set : dstSlab3.view.set = (slabR 768 Gen.inb_S2048x1024_S256x1024_768_0).set := View.set_slice_whole cc0_scratch0 _
theorem dstSlab4_set : dstSlab4.view.set = (slabR 1024 Gen.inb_S2048x1024_S256x1024_1024_0).set := View.set_slice_whole cc0_scratch0 _
theorem dstSlab5_set : dstSlab5.view.set = (slabR 1280 Gen.inb_S2048x1024_S256x1024_1280_0).set := View.set_slice_whole cc0_scratch0 _
theorem dstSlab6_set : dstSlab6.view.set = (slabR 1536 Gen.inb_S2048x1024_S256x1024_1536_0).set := View.set_slice_whole cc0_scratch0 _
theorem dstSlab7_set : dstSlab7.view.set = (slabR 1792 Gen.inb_S2048x1024_S256x1024_1792_0).set := View.set_slice_whole cc0_scratch0 _

theorem mem_srcSlab0 (i : srcSlab0.view.ty.Idx) : i ∈ srcSlab0.view.set ↔ 0 ≤ (i 0).val ∧ (i 0).val < 0 + 256 := by
  rw [srcSlab0_set]; exact mem_slabR _ _ i
theorem mem_srcSlab1 (i : srcSlab1.view.ty.Idx) : i ∈ srcSlab1.view.set ↔ 256 ≤ (i 0).val ∧ (i 0).val < 256 + 256 := by
  rw [srcSlab1_set]; exact mem_slabR _ _ i
theorem mem_srcSlab2 (i : srcSlab2.view.ty.Idx) : i ∈ srcSlab2.view.set ↔ 512 ≤ (i 0).val ∧ (i 0).val < 512 + 256 := by
  rw [srcSlab2_set]; exact mem_slabR _ _ i
theorem mem_srcSlab3 (i : srcSlab3.view.ty.Idx) : i ∈ srcSlab3.view.set ↔ 768 ≤ (i 0).val ∧ (i 0).val < 768 + 256 := by
  rw [srcSlab3_set]; exact mem_slabR _ _ i
theorem mem_srcSlab4 (i : srcSlab4.view.ty.Idx) : i ∈ srcSlab4.view.set ↔ 1024 ≤ (i 0).val ∧ (i 0).val < 1024 + 256 := by
  rw [srcSlab4_set]; exact mem_slabR _ _ i
theorem mem_srcSlab5 (i : srcSlab5.view.ty.Idx) : i ∈ srcSlab5.view.set ↔ 1280 ≤ (i 0).val ∧ (i 0).val < 1280 + 256 := by
  rw [srcSlab5_set]; exact mem_slabR _ _ i
theorem mem_srcSlab6 (i : srcSlab6.view.ty.Idx) : i ∈ srcSlab6.view.set ↔ 1536 ≤ (i 0).val ∧ (i 0).val < 1536 + 256 := by
  rw [srcSlab6_set]; exact mem_slabR _ _ i
theorem mem_srcSlab7 (i : srcSlab7.view.ty.Idx) : i ∈ srcSlab7.view.set ↔ 1792 ≤ (i 0).val ∧ (i 0).val < 1792 + 256 := by
  rw [srcSlab7_set]; exact mem_slabR _ _ i

theorem mem_dstSlab0 (i : dstSlab0.view.ty.Idx) : i ∈ dstSlab0.view.set ↔ 0 ≤ (i 0).val ∧ (i 0).val < 0 + 256 := by
  rw [dstSlab0_set]; exact mem_slabR _ _ i
theorem mem_dstSlab1 (i : dstSlab1.view.ty.Idx) : i ∈ dstSlab1.view.set ↔ 256 ≤ (i 0).val ∧ (i 0).val < 256 + 256 := by
  rw [dstSlab1_set]; exact mem_slabR _ _ i
theorem mem_dstSlab2 (i : dstSlab2.view.ty.Idx) : i ∈ dstSlab2.view.set ↔ 512 ≤ (i 0).val ∧ (i 0).val < 512 + 256 := by
  rw [dstSlab2_set]; exact mem_slabR _ _ i
theorem mem_dstSlab3 (i : dstSlab3.view.ty.Idx) : i ∈ dstSlab3.view.set ↔ 768 ≤ (i 0).val ∧ (i 0).val < 768 + 256 := by
  rw [dstSlab3_set]; exact mem_slabR _ _ i
theorem mem_dstSlab4 (i : dstSlab4.view.ty.Idx) : i ∈ dstSlab4.view.set ↔ 1024 ≤ (i 0).val ∧ (i 0).val < 1024 + 256 := by
  rw [dstSlab4_set]; exact mem_slabR _ _ i
theorem mem_dstSlab5 (i : dstSlab5.view.ty.Idx) : i ∈ dstSlab5.view.set ↔ 1280 ≤ (i 0).val ∧ (i 0).val < 1280 + 256 := by
  rw [dstSlab5_set]; exact mem_slabR _ _ i
theorem mem_dstSlab6 (i : dstSlab6.view.ty.Idx) : i ∈ dstSlab6.view.set ↔ 1536 ≤ (i 0).val ∧ (i 0).val < 1536 + 256 := by
  rw [dstSlab6_set]; exact mem_slabR _ _ i
theorem mem_dstSlab7 (i : dstSlab7.view.ty.Idx) : i ∈ dstSlab7.view.set ↔ 1792 ≤ (i 0).val ∧ (i 0).val < 1792 + 256 := by
  rw [dstSlab7_set]; exact mem_slabR _ _ i

/-! ## A buffer held whole is its eight slabs -/

/-- Along disjoint element sets, as an equation. -/
theorem pts_union_eq {ℓ : Loc nD τ sig} {I J : Finset (Idx ℓ)} (q : PosShare TreeShare) (f : Buf (Elt F) ℓ) (h : Disjoint I J) :
    (ℓ ↦[I ∪ J]{q} f : sProp 𝕄) = iprop((ℓ ↦[I]{q} f) ∗ ℓ ↦[J]{q} f) := by
  have hu := pointsTo_union (ℓ := ℓ) (I := I) (J := J) (q := q) (f := f) (Val := Elt F) (Ix := Unit) (Name := ℕ) (U := UU)
    (Lvl := ℕ) h
  exact BI.equiv_iff.mp ⟨hu.1, hu.2⟩

theorem src_slabs (c : Dev nD) (q : PosShare TreeShare) (f : Buf (Elt F) ((c : Thread nD τ).loc main_arg0)) :
    ((((c : Thread nD τ).loc main_arg0) ↦{q} f) : sProp 𝕄)
      = iprop((srcSlab0.view.loc (c : Thread nD τ) ↦[srcSlab0.view.set]{q} f)
        ∗ (srcSlab1.view.loc (c : Thread nD τ) ↦[srcSlab1.view.set]{q} f)
        ∗ (srcSlab2.view.loc (c : Thread nD τ) ↦[srcSlab2.view.set]{q} f)
        ∗ (srcSlab3.view.loc (c : Thread nD τ) ↦[srcSlab3.view.set]{q} f)
        ∗ (srcSlab4.view.loc (c : Thread nD τ) ↦[srcSlab4.view.set]{q} f)
        ∗ (srcSlab5.view.loc (c : Thread nD τ) ↦[srcSlab5.view.set]{q} f)
        ∗ (srcSlab6.view.loc (c : Thread nD τ) ↦[srcSlab6.view.set]{q} f)
        ∗ (srcSlab7.view.loc (c : Thread nD τ) ↦[srcSlab7.view.set]{q} f)) := by
  have step : ∀ (o o' : ℕ) (ho : o' = o + 256) (h : ∀ a, (![o, 0] : Fin 2 → ℕ) a + S256x1024.size a ≤ S2048x1024.size a),
      ((((c : Thread nD τ).loc main_arg0) ↦[rowsFrom o]{q} f) : sProp 𝕄)
        = iprop((((c : Thread nD τ).loc main_arg0) ↦[(slabR o h).set]{q} f) ∗ (((c : Thread nD τ).loc main_arg0) ↦[rowsFrom o']{q} f)) :=
    fun o o' ho h => by rw [rowsFrom_split o o' ho h]; exact pts_union_eq q f (rowsFrom_disj o o' ho h)
  have H : ((((c : Thread nD τ).loc main_arg0) ↦[rowsFrom 0]{q} f) : sProp 𝕄) = _ :=
    (step 0 256 rfl Gen.inb_S2048x1024_S256x1024_0_0).trans (congrArg _
    ((step 256 512 rfl Gen.inb_S2048x1024_S256x1024_256_0).trans (congrArg _
    ((step 512 768 rfl Gen.inb_S2048x1024_S256x1024_512_0).trans (congrArg _
    ((step 768 1024 rfl Gen.inb_S2048x1024_S256x1024_768_0).trans (congrArg _
    ((step 1024 1280 rfl Gen.inb_S2048x1024_S256x1024_1024_0).trans (congrArg _
    ((step 1280 1536 rfl Gen.inb_S2048x1024_S256x1024_1280_0).trans (congrArg _
    (step 1536 1792 rfl Gen.inb_S2048x1024_S256x1024_1536_0))))))))))))
  rw [rowsFrom_zero, rowsFrom_last Gen.inb_S2048x1024_S256x1024_1792_0, ← srcSlab0_set, ← srcSlab1_set, ← srcSlab2_set, ← srcSlab3_set, ← srcSlab4_set, ← srcSlab5_set, ← srcSlab6_set, ← srcSlab7_set] at H
  exact H

theorem dst_slabs (c : Dev nD) (f : Buf (Elt F) ((c : Thread nD τ).loc cc0_scratch0)) :
    ((((c : Thread nD τ).loc cc0_scratch0) ↦{fullShare} f) : sProp 𝕄)
      = iprop((dstSlab0.view.loc (c : Thread nD τ) ↦[dstSlab0.view.set]{fullShare} f)
        ∗ (dstSlab1.view.loc (c : Thread nD τ) ↦[dstSlab1.view.set]{fullShare} f)
        ∗ (dstSlab2.view.loc (c : Thread nD τ) ↦[dstSlab2.view.set]{fullShare} f)
        ∗ (dstSlab3.view.loc (c : Thread nD τ) ↦[dstSlab3.view.set]{fullShare} f)
        ∗ (dstSlab4.view.loc (c : Thread nD τ) ↦[dstSlab4.view.set]{fullShare} f)
        ∗ (dstSlab5.view.loc (c : Thread nD τ) ↦[dstSlab5.view.set]{fullShare} f)
        ∗ (dstSlab6.view.loc (c : Thread nD τ) ↦[dstSlab6.view.set]{fullShare} f)
        ∗ (dstSlab7.view.loc (c : Thread nD τ) ↦[dstSlab7.view.set]{fullShare} f)) := by
  have step : ∀ (o o' : ℕ) (ho : o' = o + 256) (h : ∀ a, (![o, 0] : Fin 2 → ℕ) a + S256x1024.size a ≤ S2048x1024.size a),
      ((((c : Thread nD τ).loc cc0_scratch0) ↦[rowsFrom o]{fullShare} f) : sProp 𝕄)
        = iprop((((c : Thread nD τ).loc cc0_scratch0) ↦[(slabR o h).set]{fullShare} f) ∗ (((c : Thread nD τ).loc cc0_scratch0) ↦[rowsFrom o']{fullShare} f)) :=
    fun o o' ho h => by rw [rowsFrom_split o o' ho h]; exact pts_union_eq fullShare f (rowsFrom_disj o o' ho h)
  have H : ((((c : Thread nD τ).loc cc0_scratch0) ↦[rowsFrom 0]{fullShare} f) : sProp 𝕄) = _ :=
    (step 0 256 rfl Gen.inb_S2048x1024_S256x1024_0_0).trans (congrArg _
    ((step 256 512 rfl Gen.inb_S2048x1024_S256x1024_256_0).trans (congrArg _
    ((step 512 768 rfl Gen.inb_S2048x1024_S256x1024_512_0).trans (congrArg _
    ((step 768 1024 rfl Gen.inb_S2048x1024_S256x1024_768_0).trans (congrArg _
    ((step 1024 1280 rfl Gen.inb_S2048x1024_S256x1024_1024_0).trans (congrArg _
    ((step 1280 1536 rfl Gen.inb_S2048x1024_S256x1024_1280_0).trans (congrArg _
    (step 1536 1792 rfl Gen.inb_S2048x1024_S256x1024_1536_0))))))))))))
  rw [rowsFrom_zero, rowsFrom_last Gen.inb_S2048x1024_S256x1024_1792_0, ← dstSlab0_set, ← dstSlab1_set, ← dstSlab2_set, ← dstSlab3_set, ← dstSlab4_set, ← dstSlab5_set, ← dstSlab6_set, ← dstSlab7_set] at H
  exact H

/-! ## Eight slabs held in full, each at its own contents, are the whole buffer -/

/-- A slab at its contents joins the rows after it, held at some contents, to the rows from it on. -/
theorem join_step (c : Dev nD) (o o' : ℕ) (ho : o' = o + 256) (h : ∀ a, (![o, 0] : Fin 2 → ℕ) a + S256x1024.size a ≤ S2048x1024.size a)
    (f : Buf (Elt F) ((c : Thread nD τ).loc cc0_scratch0)) :
    (iprop((((c : Thread nD τ).loc cc0_scratch0) ↦[(slabR o h).set]{fullShare} f) ∗ (∃ g, ((c : Thread nD τ).loc cc0_scratch0) ↦[rowsFrom o']{fullShare} g)) : sProp 𝕄)
      ⊢ iprop(∃ g, ((c : Thread nD τ).loc cc0_scratch0) ↦[rowsFrom o]{fullShare} g) := by
  iintro ⟨H1, H2⟩
  icases H2 with ⟨%g, H2⟩
  iexists ((rowsFrom o').piecewise g f)
  rw [rowsFrom_split o o' ho h]
  iapply (pointsTo_join (rowsFrom_disj o o' ho h))
  isplitl [H1]; · iexact H1
  iexact H2

theorem dst_join (c : Dev nD) (f0 f1 f2 f3 f4 f5 f6 f7 : Buf (Elt F) ((c : Thread nD τ).loc cc0_scratch0)) :
    (iprop((dstSlab0.view.loc (c : Thread nD τ) ↦[dstSlab0.view.set]{fullShare} f0)
        ∗ (dstSlab1.view.loc (c : Thread nD τ) ↦[dstSlab1.view.set]{fullShare} f1)
        ∗ (dstSlab2.view.loc (c : Thread nD τ) ↦[dstSlab2.view.set]{fullShare} f2)
        ∗ (dstSlab3.view.loc (c : Thread nD τ) ↦[dstSlab3.view.set]{fullShare} f3)
        ∗ (dstSlab4.view.loc (c : Thread nD τ) ↦[dstSlab4.view.set]{fullShare} f4)
        ∗ (dstSlab5.view.loc (c : Thread nD τ) ↦[dstSlab5.view.set]{fullShare} f5)
        ∗ (dstSlab6.view.loc (c : Thread nD τ) ↦[dstSlab6.view.set]{fullShare} f6)
        ∗ (dstSlab7.view.loc (c : Thread nD τ) ↦[dstSlab7.view.set]{fullShare} f7)) : sProp 𝕄)
      ⊢ iprop(∃ f, ((c : Thread nD τ).loc cc0_scratch0) ↦{fullShare} f) := by
  rw [dstSlab0_set, dstSlab1_set, dstSlab2_set, dstSlab3_set, dstSlab4_set, dstSlab5_set, dstSlab6_set, dstSlab7_set]
  have e7 : ((((c : Thread nD τ).loc cc0_scratch0) ↦[(slabR 1792 Gen.inb_S2048x1024_S256x1024_1792_0).set]{fullShare} f7) : sProp 𝕄)
      ⊢ iprop(∃ g, ((c : Thread nD τ).loc cc0_scratch0) ↦[rowsFrom 1792]{fullShare} g) := by
    rw [← rowsFrom_last]; iintro H; iexists f7; iexact H
  have e6 := (sep_mono_right e7).trans (join_step c 1536 1792 rfl Gen.inb_S2048x1024_S256x1024_1536_0 f6)
  have e5 := (sep_mono_right e6).trans (join_step c 1280 1536 rfl Gen.inb_S2048x1024_S256x1024_1280_0 f5)
  have e4 := (sep_mono_right e5).trans (join_step c 1024 1280 rfl Gen.inb_S2048x1024_S256x1024_1024_0 f4)
  have e3 := (sep_mono_right e4).trans (join_step c 768 1024 rfl Gen.inb_S2048x1024_S256x1024_768_0 f3)
  have e2 := (sep_mono_right e3).trans (join_step c 512 768 rfl Gen.inb_S2048x1024_S256x1024_512_0 f2)
  have e1 := (sep_mono_right e2).trans (join_step c 256 512 rfl Gen.inb_S2048x1024_S256x1024_256_0 f1)
  have e0 := (sep_mono_right e1).trans (join_step c 0 256 rfl Gen.inb_S2048x1024_S256x1024_0_0 f0)
  rw [rowsFrom_zero] at e0
  exact e0

/-! ## What a load of a slab of the VMEM copy reaches -/

theorem load0_set_eq : (xvM.access (Rect.unit (s := S2048x1024) ![0, 0] S256x1024.size Gen.inb_S2048x1024_S256x1024_0_0)).set = dstSlab0.view.set := rfl
theorem load0_set_sub : (xvM.access (Rect.unit (s := S2048x1024) ![0, 0] S256x1024.size Gen.inb_S2048x1024_S256x1024_0_0)).set ⊆ dstSlab0.view.set :=
  Finset.Subset.refl _
theorem load0_setOn_eq :
    xvM.view.setOn (Rect.unit (s := S2048x1024) ![0, 0] S256x1024.size Gen.inb_S2048x1024_S256x1024_0_0).toLoadRect.set = dstSlab0.view.set := by
  rw [dstSlab0_set]; unfold View.setOn; exact Finset.map_refl
theorem load0_setOn_sub :
    xvM.view.setOn (Rect.unit (s := S2048x1024) ![0, 0] S256x1024.size Gen.inb_S2048x1024_S256x1024_0_0).toLoadRect.set ⊆ dstSlab0.view.set :=
  (load0_setOn_eq).subset
theorem load1_set_eq : (xvM.access (Rect.unit (s := S2048x1024) ![256, 0] S256x1024.size Gen.inb_S2048x1024_S256x1024_256_0)).set = dstSlab1.view.set := rfl
theorem load1_set_sub : (xvM.access (Rect.unit (s := S2048x1024) ![256, 0] S256x1024.size Gen.inb_S2048x1024_S256x1024_256_0)).set ⊆ dstSlab1.view.set :=
  Finset.Subset.refl _
theorem load1_setOn_eq :
    xvM.view.setOn (Rect.unit (s := S2048x1024) ![256, 0] S256x1024.size Gen.inb_S2048x1024_S256x1024_256_0).toLoadRect.set = dstSlab1.view.set := by
  rw [dstSlab1_set]; unfold View.setOn; exact Finset.map_refl
theorem load1_setOn_sub :
    xvM.view.setOn (Rect.unit (s := S2048x1024) ![256, 0] S256x1024.size Gen.inb_S2048x1024_S256x1024_256_0).toLoadRect.set ⊆ dstSlab1.view.set :=
  (load1_setOn_eq).subset
theorem load2_set_eq : (xvM.access (Rect.unit (s := S2048x1024) ![512, 0] S256x1024.size Gen.inb_S2048x1024_S256x1024_512_0)).set = dstSlab2.view.set := rfl
theorem load2_set_sub : (xvM.access (Rect.unit (s := S2048x1024) ![512, 0] S256x1024.size Gen.inb_S2048x1024_S256x1024_512_0)).set ⊆ dstSlab2.view.set :=
  Finset.Subset.refl _
theorem load2_setOn_eq :
    xvM.view.setOn (Rect.unit (s := S2048x1024) ![512, 0] S256x1024.size Gen.inb_S2048x1024_S256x1024_512_0).toLoadRect.set = dstSlab2.view.set := by
  rw [dstSlab2_set]; unfold View.setOn; exact Finset.map_refl
theorem load2_setOn_sub :
    xvM.view.setOn (Rect.unit (s := S2048x1024) ![512, 0] S256x1024.size Gen.inb_S2048x1024_S256x1024_512_0).toLoadRect.set ⊆ dstSlab2.view.set :=
  (load2_setOn_eq).subset
theorem load3_set_eq : (xvM.access (Rect.unit (s := S2048x1024) ![768, 0] S256x1024.size Gen.inb_S2048x1024_S256x1024_768_0)).set = dstSlab3.view.set := rfl
theorem load3_set_sub : (xvM.access (Rect.unit (s := S2048x1024) ![768, 0] S256x1024.size Gen.inb_S2048x1024_S256x1024_768_0)).set ⊆ dstSlab3.view.set :=
  Finset.Subset.refl _
theorem load3_setOn_eq :
    xvM.view.setOn (Rect.unit (s := S2048x1024) ![768, 0] S256x1024.size Gen.inb_S2048x1024_S256x1024_768_0).toLoadRect.set = dstSlab3.view.set := by
  rw [dstSlab3_set]; unfold View.setOn; exact Finset.map_refl
theorem load3_setOn_sub :
    xvM.view.setOn (Rect.unit (s := S2048x1024) ![768, 0] S256x1024.size Gen.inb_S2048x1024_S256x1024_768_0).toLoadRect.set ⊆ dstSlab3.view.set :=
  (load3_setOn_eq).subset
theorem load4_set_eq : (xvM.access (Rect.unit (s := S2048x1024) ![1024, 0] S256x1024.size Gen.inb_S2048x1024_S256x1024_1024_0)).set = dstSlab4.view.set := rfl
theorem load4_set_sub : (xvM.access (Rect.unit (s := S2048x1024) ![1024, 0] S256x1024.size Gen.inb_S2048x1024_S256x1024_1024_0)).set ⊆ dstSlab4.view.set :=
  Finset.Subset.refl _
theorem load4_setOn_eq :
    xvM.view.setOn (Rect.unit (s := S2048x1024) ![1024, 0] S256x1024.size Gen.inb_S2048x1024_S256x1024_1024_0).toLoadRect.set = dstSlab4.view.set := by
  rw [dstSlab4_set]; unfold View.setOn; exact Finset.map_refl
theorem load4_setOn_sub :
    xvM.view.setOn (Rect.unit (s := S2048x1024) ![1024, 0] S256x1024.size Gen.inb_S2048x1024_S256x1024_1024_0).toLoadRect.set ⊆ dstSlab4.view.set :=
  (load4_setOn_eq).subset
theorem load5_set_eq : (xvM.access (Rect.unit (s := S2048x1024) ![1280, 0] S256x1024.size Gen.inb_S2048x1024_S256x1024_1280_0)).set = dstSlab5.view.set := rfl
theorem load5_set_sub : (xvM.access (Rect.unit (s := S2048x1024) ![1280, 0] S256x1024.size Gen.inb_S2048x1024_S256x1024_1280_0)).set ⊆ dstSlab5.view.set :=
  Finset.Subset.refl _
theorem load5_setOn_eq :
    xvM.view.setOn (Rect.unit (s := S2048x1024) ![1280, 0] S256x1024.size Gen.inb_S2048x1024_S256x1024_1280_0).toLoadRect.set = dstSlab5.view.set := by
  rw [dstSlab5_set]; unfold View.setOn; exact Finset.map_refl
theorem load5_setOn_sub :
    xvM.view.setOn (Rect.unit (s := S2048x1024) ![1280, 0] S256x1024.size Gen.inb_S2048x1024_S256x1024_1280_0).toLoadRect.set ⊆ dstSlab5.view.set :=
  (load5_setOn_eq).subset
theorem load6_set_eq : (xvM.access (Rect.unit (s := S2048x1024) ![1536, 0] S256x1024.size Gen.inb_S2048x1024_S256x1024_1536_0)).set = dstSlab6.view.set := rfl
theorem load6_set_sub : (xvM.access (Rect.unit (s := S2048x1024) ![1536, 0] S256x1024.size Gen.inb_S2048x1024_S256x1024_1536_0)).set ⊆ dstSlab6.view.set :=
  Finset.Subset.refl _
theorem load6_setOn_eq :
    xvM.view.setOn (Rect.unit (s := S2048x1024) ![1536, 0] S256x1024.size Gen.inb_S2048x1024_S256x1024_1536_0).toLoadRect.set = dstSlab6.view.set := by
  rw [dstSlab6_set]; unfold View.setOn; exact Finset.map_refl
theorem load6_setOn_sub :
    xvM.view.setOn (Rect.unit (s := S2048x1024) ![1536, 0] S256x1024.size Gen.inb_S2048x1024_S256x1024_1536_0).toLoadRect.set ⊆ dstSlab6.view.set :=
  (load6_setOn_eq).subset
theorem load7_set_eq : (xvM.access (Rect.unit (s := S2048x1024) ![1792, 0] S256x1024.size Gen.inb_S2048x1024_S256x1024_1792_0)).set = dstSlab7.view.set := rfl
theorem load7_set_sub : (xvM.access (Rect.unit (s := S2048x1024) ![1792, 0] S256x1024.size Gen.inb_S2048x1024_S256x1024_1792_0)).set ⊆ dstSlab7.view.set :=
  Finset.Subset.refl _
theorem load7_setOn_eq :
    xvM.view.setOn (Rect.unit (s := S2048x1024) ![1792, 0] S256x1024.size Gen.inb_S2048x1024_S256x1024_1792_0).toLoadRect.set = dstSlab7.view.set := by
  rw [dstSlab7_set]; unfold View.setOn; exact Finset.map_refl
theorem load7_setOn_sub :
    xvM.view.setOn (Rect.unit (s := S2048x1024) ![1792, 0] S256x1024.size Gen.inb_S2048x1024_S256x1024_1792_0).toLoadRect.set ⊆ dstSlab7.view.set :=
  (load7_setOn_eq).subset

/-! ## What is read back from a slab of the VMEM copy after the transfer has landed in it -/

/-- A load of rows `o … o + 255` of the VMEM buffer, after one write of `P` through the whole of that slab's view over any
    contents, reads `P`. -/
theorem slab_readback_at (o : ℕ) (h : ∀ a, (![o, 0] : Fin 2 → ℕ) a + S256x1024.size a ≤ S2048x1024.size a) (fd : (cc0_scratch0 : Ref sig .tc).ty.Contents (Elt F))
    (P : Vec F S256x1024 .f32) :
    View.readAt (Elt F) (Memref.whole cc0_scratch0).view (Rect.unit (s := S2048x1024) ![o, 0] S256x1024.size h).toLoadRect
      (((Memref.whole cc0_scratch0).slice (Rect.unit (s := S2048x1024) ![o, 0] S256x1024.size h) (fun _ => rfl)).view.writes
        (Elt F) fd [⟨Rect.whole S256x1024, P⟩]) = P := by
  funext y
  have e := View.read_writes_cons_emb
    (v := ((Memref.whole cc0_scratch0).slice (Rect.unit (s := S2048x1024) ![o, 0] S256x1024.size h) (fun _ => rfl)).view)
    (Val := Elt F) fd (Rect.whole S256x1024) P [] y
  have hy : (Rect.whole S256x1024).emb y = y := Rect.emb_whole_apply S256x1024 y
  exact (congrArg _ hy.symm).trans e

theorem slab_readback_0 {fd : (cc0_scratch0 : Ref sig .tc).ty.Contents (Elt F)} (P : Vec F S256x1024 .f32) :
    View.readAt (Elt F) (Memref.whole cc0_scratch0).view (Rect.unit (s := S2048x1024) ![0, 0] S256x1024.size Gen.inb_S2048x1024_S256x1024_0_0).toLoadRect
      (dstSlab0.view.writes (Elt F) fd [⟨Rect.whole S256x1024, P⟩]) = P :=
  slab_readback_at 0 Gen.inb_S2048x1024_S256x1024_0_0 fd P
theorem slab_readback_1 {fd : (cc0_scratch0 : Ref sig .tc).ty.Contents (Elt F)} (P : Vec F S256x1024 .f32) :
    View.readAt (Elt F) (Memref.whole cc0_scratch0).view (Rect.unit (s := S2048x1024) ![256, 0] S256x1024.size Gen.inb_S2048x1024_S256x1024_256_0).toLoadRect
      (dstSlab1.view.writes (Elt F) fd [⟨Rect.whole S256x1024, P⟩]) = P :=
  slab_readback_at 256 Gen.inb_S2048x1024_S256x1024_256_0 fd P
theorem slab_readback_2 {fd : (cc0_scratch0 : Ref sig .tc).ty.Contents (Elt F)} (P : Vec F S256x1024 .f32) :
    View.readAt (Elt F) (Memref.whole cc0_scratch0).view (Rect.unit (s := S2048x1024) ![512, 0] S256x1024.size Gen.inb_S2048x1024_S256x1024_512_0).toLoadRect
      (dstSlab2.view.writes (Elt F) fd [⟨Rect.whole S256x1024, P⟩]) = P :=
  slab_readback_at 512 Gen.inb_S2048x1024_S256x1024_512_0 fd P
theorem slab_readback_3 {fd : (cc0_scratch0 : Ref sig .tc).ty.Contents (Elt F)} (P : Vec F S256x1024 .f32) :
    View.readAt (Elt F) (Memref.whole cc0_scratch0).view (Rect.unit (s := S2048x1024) ![768, 0] S256x1024.size Gen.inb_S2048x1024_S256x1024_768_0).toLoadRect
      (dstSlab3.view.writes (Elt F) fd [⟨Rect.whole S256x1024, P⟩]) = P :=
  slab_readback_at 768 Gen.inb_S2048x1024_S256x1024_768_0 fd P
theorem slab_readback_4 {fd : (cc0_scratch0 : Ref sig .tc).ty.Contents (Elt F)} (P : Vec F S256x1024 .f32) :
    View.readAt (Elt F) (Memref.whole cc0_scratch0).view (Rect.unit (s := S2048x1024) ![1024, 0] S256x1024.size Gen.inb_S2048x1024_S256x1024_1024_0).toLoadRect
      (dstSlab4.view.writes (Elt F) fd [⟨Rect.whole S256x1024, P⟩]) = P :=
  slab_readback_at 1024 Gen.inb_S2048x1024_S256x1024_1024_0 fd P
theorem slab_readback_5 {fd : (cc0_scratch0 : Ref sig .tc).ty.Contents (Elt F)} (P : Vec F S256x1024 .f32) :
    View.readAt (Elt F) (Memref.whole cc0_scratch0).view (Rect.unit (s := S2048x1024) ![1280, 0] S256x1024.size Gen.inb_S2048x1024_S256x1024_1280_0).toLoadRect
      (dstSlab5.view.writes (Elt F) fd [⟨Rect.whole S256x1024, P⟩]) = P :=
  slab_readback_at 1280 Gen.inb_S2048x1024_S256x1024_1280_0 fd P
theorem slab_readback_6 {fd : (cc0_scratch0 : Ref sig .tc).ty.Contents (Elt F)} (P : Vec F S256x1024 .f32) :
    View.readAt (Elt F) (Memref.whole cc0_scratch0).view (Rect.unit (s := S2048x1024) ![1536, 0] S256x1024.size Gen.inb_S2048x1024_S256x1024_1536_0).toLoadRect
      (dstSlab6.view.writes (Elt F) fd [⟨Rect.whole S256x1024, P⟩]) = P :=
  slab_readback_at 1536 Gen.inb_S2048x1024_S256x1024_1536_0 fd P
theorem slab_readback_7 {fd : (cc0_scratch0 : Ref sig .tc).ty.Contents (Elt F)} (P : Vec F S256x1024 .f32) :
    View.readAt (Elt F) (Memref.whole cc0_scratch0).view (Rect.unit (s := S2048x1024) ![1792, 0] S256x1024.size Gen.inb_S2048x1024_S256x1024_1792_0).toLoadRect
      (dstSlab7.view.writes (Elt F) fd [⟨Rect.whole S256x1024, P⟩]) = P :=
  slab_readback_at 1792 Gen.inb_S2048x1024_S256x1024_1792_0 fd P

/-! ## A slab of the HBM block read through the kernel's slice is the slab the contents are stated over -/

theorem src_slab_read_0 (X : (main_arg0 : Ref sig .tc).ty.Contents (Elt F)) : srcSlab0.view.read (Elt F) X = slab 0 X := by
  unfold slab; rfl
theorem src_slab_read_1 (X : (main_arg0 : Ref sig .tc).ty.Contents (Elt F)) : srcSlab1.view.read (Elt F) X = slab 1 X := by
  unfold slab; rfl
theorem src_slab_read_2 (X : (main_arg0 : Ref sig .tc).ty.Contents (Elt F)) : srcSlab2.view.read (Elt F) X = slab 2 X := by
  unfold slab; rfl
theorem src_slab_read_3 (X : (main_arg0 : Ref sig .tc).ty.Contents (Elt F)) : srcSlab3.view.read (Elt F) X = slab 3 X := by
  unfold slab; rfl
theorem src_slab_read_4 (X : (main_arg0 : Ref sig .tc).ty.Contents (Elt F)) : srcSlab4.view.read (Elt F) X = slab 4 X := by
  unfold slab; rfl
theorem src_slab_read_5 (X : (main_arg0 : Ref sig .tc).ty.Contents (Elt F)) : srcSlab5.view.read (Elt F) X = slab 5 X := by
  unfold slab; rfl
theorem src_slab_read_6 (X : (main_arg0 : Ref sig .tc).ty.Contents (Elt F)) : srcSlab6.view.read (Elt F) X = slab 6 X := by
  unfold slab; rfl
theorem src_slab_read_7 (X : (main_arg0 : Ref sig .tc).ty.Contents (Elt F)) : srcSlab7.view.read (Elt F) X = slab 7 X := by
  unfold slab; rfl

/-- info: 'Cert.KernelProof.src_slabs' depends on axioms: [propext, Classical.choice, Quot.sound] -/
#guard_msgs in #print axioms src_slabs

/-- info: 'Cert.KernelProof.dst_join' depends on axioms: [propext, Classical.choice, Quot.sound] -/
#guard_msgs in #print axioms dst_join

/-- info: 'Cert.KernelProof.slab_readback_7' depends on axioms: [propext, Classical.choice, Quot.sound] -/
#guard_msgs in #print axioms slab_readback_7

end Cert.KernelProof

end
-- ==== Proof.Bits.Whole.lean ====
/- The table read through its full rectangle is the table; one write of the whole one-row output buffer over any
   contents leaves the written vector; so the body's last store, of the column maxima of the table it has just read
   whole, leaves the result: the column maxima of the gathered table. -/
import proofs.«900916_g7700000000000917_dist_max_ax0_shard0_i_m2048_n1024_v7x_i32_f32_1_alg».proof.Proof.Bits.Tables
import Idealize.ShloMosaic.Lib.Writes

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The offsets `[0, 0]` are zero on both axes. -/
theorem off00_zero : (![0, 0] : Fin 2 → ℕ) = fun _ => 0 := by
  funext a
  match a with
  | ⟨0, _⟩ => rfl
  | ⟨1, _⟩ => rfl

/-- The whole table read through its full rectangle is the table. -/
theorem tbl_read_whole (T : (cc0_scratch2 : Ref sig .tc).ty.Contents (Elt F)) :
    View.readAt (Elt F) tblM.view
      (Rect.unit (s := S32x1024) ![0, 0] S32x1024.size Gen.inb_S32x1024_S32x1024_0_0).toLoadRect T = T :=
  Memref.readAt_unit_zero (Elt F) cc0_scratch2 off00_zero _ T

/-- One write of the whole output buffer, over any contents, leaves the written vector. -/
theorem out_written (g0 : (cc0_stg0_0 : Ref sig .tc).ty.Contents (Elt F)) (v : FVec F S1x1024 .f32) :
    (Memref.whole cc0_stg0_0 : Memref sig .tc .vmem S1x1024 .f32).view.writes (Elt F) g0
      [⟨Rect.unit (s := S1x1024) ![0, 0] S1x1024.size Gen.inb_S1x1024_S1x1024_0_0, v⟩] = v := by
  rw [View.writes_singleton]
  exact Memref.write_access_unit_zero_univ (Elt F) cc0_stg0_0 off00_zero _ g0 v

/-- The body's last store leaves the result. -/
theorem out_final (g0 : (cc0_stg0_0 : Ref sig .tc).ty.Contents (Elt F)) :
    (Memref.whole cc0_stg0_0 : Memref sig .tc .vmem S1x1024 .f32).view.writes (Elt F) g0
      [⟨Rect.unit (s := S1x1024) ![0, 0] S1x1024.size Gen.inb_S1x1024_S1x1024_0_0,
        k0_pay1 (View.readAt (Elt F) tblM.view
          (Rect.unit (s := S32x1024) ![0, 0] S32x1024.size Gen.inb_S32x1024_S32x1024_0_0).toLoadRect (tbl m))⟩]
      = outAt m := by
  rw [tbl_read_whole, out_written]
  unfold outAt result tbl
  rfl

/-- info: 'Cert.KernelProof.out_final' depends on axioms: [propext, Classical.choice, Quot.sound] -/
#guard_msgs in #print axioms out_final

end Cert.KernelProof

end
-- ==== Proof.Bits.Body.lean ====
/- The body of the one pallas_call, run once on a symbolic device: the 31 signals, the 8 local copies of the block's
   slabs with their waits and the column maxima, the device's row stored, the barrier wait, the 31 transfers of the row
   and the 62 waits, the column maxima of the gathered table. -/
import proofs.«900916_g7700000000000917_dist_max_ax0_shard0_i_m2048_n1024_v7x_i32_f32_1_alg».proof.Proof.Bits.Steps
import proofs.«900916_g7700000000000917_dist_max_ax0_shard0_i_m2048_n1024_v7x_i32_f32_1_alg».proof.Proof.Bits.Levels
import proofs.«900916_g7700000000000917_dist_max_ax0_shard0_i_m2048_n1024_v7x_i32_f32_1_alg».proof.Proof.Bits.Rows
import proofs.«900916_g7700000000000917_dist_max_ax0_shard0_i_m2048_n1024_v7x_i32_f32_1_alg».proof.Proof.Bits.Slabs
import proofs.«900916_g7700000000000917_dist_max_ax0_shard0_i_m2048_n1024_v7x_i32_f32_1_alg».proof.Proof.Bits.Whole
import proofs.«900916_g7700000000000917_dist_max_ax0_shard0_i_m2048_n1024_v7x_i32_f32_1_alg».proof.Proof.Gen.Kernel.Points

noncomputable section

namespace Cert.KernelProof

open Cert.Kernel Cert.Kernel.Gen Cert.Peers

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the body addresses: its `k`-th signal and its `k`-th transfer both name its `k`-th partner -/

open Lean Elab Command in
elab "mk_dev_eqs" : command => do
  for k in [0:31] do
    let nm1 := mkIdent (Name.mkSimple s!"sigDev{k}_eq")
    let nm2 := mkIdent (Name.mkSimple s!"xferDev{k}_eq")
    let d1 := mkIdent (Name.mkSimple s!"k0_dev{k+1}")
    let d1lt := mkIdent (Name.mkSimple s!"k0_dev{k+1}_lt")
    let d1eq := mkIdent (Name.mkSimple s!"k0_dev{k+1}_eq")
    let d2 := mkIdent (Name.mkSimple s!"k0_dev{k+32}")
    let d2lt := mkIdent (Name.mkSimple s!"k0_dev{k+32}_lt")
    let d2eq := mkIdent (Name.mkSimple s!"k0_dev{k+32}_eq")
    let kk := Syntax.mkNumLit (toString k)
    elabCommand (← `(theorem $nm1 (c : Dev nD) : (⟨$d1 c, $d1lt c⟩ : Dev nD) = fwd ($kk : Fin 31) c := Fin.ext ($d1eq c)))
    elabCommand (← `(theorem $nm2 (c : Dev nD) : (⟨$d2 c, $d2lt c⟩ : Dev nD) = fwd ($kk : Fin 31) c := Fin.ext ($d2eq c)))

mk_dev_eqs

/-! ## Small restatements -/

omit [FloatOps F] in
/-- A whole buffer's points-to, read through its whole memref's view. -/
theorem whole_pts (c : Dev nD) (b : Ref sig .tc) (q : PosShare TreeShare) (f : Buf (Elt F) ((c : Thread nD τ).loc b)) :
    ((((c : Thread nD τ).loc b) ↦{q} f) : sProp 𝕄)
      = ((Memref.whole b : Memref sig .tc _ _ _).view.loc (c : Thread nD τ) ↦[(Memref.whole b : Memref sig .tc _ _ _).view.set]{q} f) := by
  rw [View.set_whole]

omit [FloatOps F] in
/-- The eight load semaphores' counters, one by one. -/
theorem loads_list (c : Dev nD) : loadsZero (F := F) c
    = iprop(semVal ((c : Thread nD τ), SemLoc.dma (loadS 0)) 0 ∗ semVal ((c : Thread nD τ), SemLoc.dma (loadS 1)) 0
      ∗ semVal ((c : Thread nD τ), SemLoc.dma (loadS 2)) 0 ∗ semVal ((c : Thread nD τ), SemLoc.dma (loadS 3)) 0
      ∗ semVal ((c : Thread nD τ), SemLoc.dma (loadS 4)) 0 ∗ semVal ((c : Thread nD τ), SemLoc.dma (loadS 5)) 0
      ∗ semVal ((c : Thread nD τ), SemLoc.dma (loadS 6)) 0 ∗ semVal ((c : Thread nD τ), SemLoc.dma (loadS 7)) 0) :=
  bigSep_univ_eq_bigSepL [0, 1, 2, 3, 4, 5, 6, 7] (by decide) (by decide) _

omit [FloatOps F] in
/-- The rows handed to the partners are handed over at whatever they hold. -/
theorem rows_weaken (c : Dev nD) (ft : Buf (Elt F) ((c : Thread nD τ).loc cc0_scratch2)) :
    (bigSep Finset.univ (fun k : Fin 31 => rowPts (F := F) c (fwd k c) fullShare ft) : sProp 𝕄)
      ⊢ bigSep Finset.univ (fun k : Fin 31 => iprop(∃ f, rowPts (F := F) c (fwd k c) fullShare f)) :=
  bigSep_mono fun k _ => exists_intro (Φ := fun f => rowPts (F := F) c (fwd k c) fullShare f) ft

omit [FloatOps F] in
/-- Nothing below slot 0. -/
theorem below0 (Φ : Fin 31 → sProp 𝕄) : ⊢ (bigSep (slotsBelow 0) Φ : sProp 𝕄) := by
  rw [slotsBelow_zero, bigSep_empty]; exact BI.Entails.refl _

/-- The device's row at the gathered table's contents, cut into the 31 transfers' shares. -/
theorem own_shares (c : Dev nD) :
    ((rowM c).view.loc (c : Thread nD τ) ↦[(rowM c).view.set]{fullShare} tbl m : sProp 𝕄)
      ⊢ bigSep (slotsFrom 0) (fun j => rowPts c c (xferShare j) (tbl m)) := by
  rw [slotsFrom_zero]; exact row_shares_split c c (tbl m)

/-- The device's row and the 31 landed rows are the whole table. -/
theorem table_join (c : Dev nD) :
    iprop(rowPts c c fullShare (tbl m) ∗ bigSep Finset.univ (fun k : Fin 31 => rowPts c (bwd k c) fullShare (tbl m)))
      ⊢ ((tblM : Memref sig .tc .vmem S32x1024 .f32).view.loc (c : Thread nD τ) ↦[(tblM : Memref sig .tc .vmem S32x1024 .f32).view.set]{fullShare} tbl m : sProp 𝕄) := by
  rw [← univ_bwd c (fun j => rowPts c j fullShare (tbl m)), rows_join m c, whole_pts]

omit [FloatOps F] in
/-- A program that has nothing left to do. -/
theorem wp_done {Ef : Type → Type} {Mask : Type} (Fr : Mask → sProp 𝕄) (wpE : Mask → ∀ ⦃β : Type⦄, Ef β → sWPT 𝕄 β) (E : Mask)
    (Q : PUnit → sProp 𝕄) :
    Q ⟨⟩ ⊢ wp Fr wpE E ((Prog.ret PUnit.unit : Prog Ef PUnit).bind fun _ => (Pure.pure PUnit.unit : Prog Ef PUnit)) Q := by
  rw [show ((Prog.ret PUnit.unit : Prog Ef PUnit).bind fun _ => (Pure.pure PUnit.unit : Prog Ef PUnit)) = Prog.ret PUnit.unit from rfl, wp_ret]
  iintro H; imodintro; iexact H

/-- Owing nothing after the point. -/
theorem owesAt_done (c : Dev nD) (W : Waits sig Unit) :
    (owes (c : Thread nD τ) 0 W : sProp 𝕄) ⊢ (dats m ρ 0 c).owesAt () t₀.succ := by
  unfold Dat.owesAt Pipeline.owesWithin
  rw [show (dats m ρ 0 c).owed t₀.succ = 0 from rfl]
  iintro HO
  iexists W
  isplitr; · ipureintro; exact fun _ _ => Or.inl trivial
  iexact HO

theorem owedSig_last (c : Dev nD) : owedSig c (30 + 1) = 0 := owedSig_end c
theorem owedArr_last (c : Dev nD) : owedArr c (30 + 1) = 0 := owedArr_end c
theorem slotsBelow_last : slotsBelow (30 + 1) = Finset.univ := slotsBelow_end

/-! ## The repeated steps, slot by slot -/

set_option hygiene false in
macro "sig_at " n:num e:ident : tactic => `(tactic| (
  iapply (sig_step m K c $n (by decide) _ ($e c) (owedArr c 0) _) $$ [HO HtB Hout]
  · isplitr; · iexact Hrec
    isplitl [HO]; · iexact HO
    isplitl [HtB] <;> iassumption
  iintro ⟨HO, HtB, Hout⟩
  sl_exec))

open Lean Elab Tactic in
elab "sig_all" : tactic => do
  for k in [0:31] do
    let e := mkIdent (Name.mkSimple s!"sigDev{k}_eq")
    let n := Syntax.mkNumLit (toString k)
    evalTactic (← `(tactic| sig_at $n $e))

set_option hygiene false in
macro "send_at " n:num e:ident : tactic => `(tactic| (
  iapply (send_step m K c $n (by decide) _ ($e c) _) $$ [HO HtV HtS Hdst Hsh HcS]
  · isplitr; · iexact Hrec
    isplitl [HO]; · iexact HO
    isplitl [HtV]; · iexact HtV
    isplitl [HtS]; · iexact HtS
    isplitl [Hdst]; · iexact Hdst
    isplitl [Hsh] <;> iassumption
  iintro ⟨HO, HtV, HtS, Hdst, Hsh, HcS⟩
  sl_exec))

open Lean Elab Tactic in
elab "send_all" : tactic => do
  for k in [0:31] do
    let e := mkIdent (Name.mkSimple s!"xferDev{k}_eq")
    let n := Syntax.mkNumLit (toString k)
    evalTactic (← `(tactic| send_at $n $e))

set_option hygiene false in
macro "waits_at " n:num : tactic => `(tactic| (
  iapply (wait_send_step m K c $n (by decide) _) $$ [HO HcS HatS HshB HzS]
  · isplitr; · iexact Hrec
    isplitl [HO]; · iexact HO
    isplitl [HcS]; · iexact HcS
    isplitl [HatS]; · iexact HatS
    isplitl [HshB] <;> iassumption
  iintro ⟨HO, HcS, HatS, HshB, HzS⟩
  sl_exec
  iapply (wait_recv_step m K c $n (by decide) _) $$ [HO HcV HatV Hland HzV]
  · isplitr; · iexact Hrec
    isplitl [HO]; · iexact HO
    isplitl [HcV]; · iexact HcV
    isplitl [HatV]; · iexact HatV
    isplitl [Hland] <;> iassumption
  iintro ⟨HO, HcV, HatV, Hland, HzV⟩
  first | sl_exec | skip))

open Lean Elab Tactic in
elab "waits_all" : tactic => do
  for k in [0:31] do
    let n := Syntax.mkNumLit (toString k)
    evalTactic (← `(tactic| waits_at $n))

/-! ## The body -/

set_option maxHeartbeats 4000000 in
/-- The body, run from `bodyPre` to `bodyPost`. -/
theorem sound_body (K : Names) (c : Dev nD) (Kt : PUnit → sProp 𝕄) :
    iprop(bodyPre m ρ K c ∗ (bodyPost m ρ c -∗ Kt ⟨⟩))
      ⊢ wp frame (wpE (defs₀ (F := F)) 𝒱₀ c none) Set.univ (bodyAt0 (F := F) t₀) Kt := by
  unfold bodyAt0
  unfold bodyPre ghost
  iintro ⟨⟨⟨⟨#Hrec, HatB, HatS, HatV, HtB, HtV, HtS⟩, HcB, HcV, #Hlev⟩, Hx, ⟨%fx, Hxv⟩, ⟨%ft, Htb⟩, Hld, Ho, ⟨%d0, %g0, %hg0, Hout0⟩⟩, Hk⟩
  unfold Dat.owesAt Pipeline.owesWithin
  icases Ho with ⟨%W, %hW, HO⟩
  rw [show (dats m ρ 0 c).owed t₀.castSucc = O₀ c from rfl]
  unfold O₀
  -- the table row by row: the device keeps its own row and hands row `fwd k c` to its `k`-th partner
  ihave Hrows := (Entails.of_eq ((tbl_rows c ft).trans (univ_fwd c _))) $$ Htb
  icases Hrows with ⟨Hown, Hout⟩
  ihave Hout := (rows_weaken c ft) $$ Hout
  rw [← slotsFrom_zero]
  sl_exec
  sig_all
  rw [owedSig_last, zero_add]
  -- the eight local copies, their waits and the column maxima
  ihave Hld := (Entails.of_eq (loads_list (F := F) c)) $$ Hld
  icases Hld with ⟨Hl0, Hl1, Hl2, Hl3, Hl4, Hl5, Hl6, Hl7⟩
  ihave Hx := (Entails.of_eq (src_slabs (F := F) c fullShare _)) $$ Hx
  icases Hx with ⟨Hx0, Hx1, Hx2, Hx3, Hx4, Hx5, Hx6, Hx7⟩
  ihave Hxv := (Entails.of_eq (dst_slabs (F := F) c _)) $$ Hxv
  icases Hxv with ⟨Hv0, Hv1, Hv2, Hv3, Hv4, Hv5, Hv6, Hv7⟩
  ihave Hout0 := (Entails.of_eq (whole_pts (F := F) c cc0_stg0_0 fullShare _)) $$ Hout0
  have hO : HighDues (owedArr c 0) := highDues_arr c 0
  have hmw := mayWait_low (F := F) c
  sl_exec
  -- the device's own row: the (dead) load and the store of its column maxima
  unfold rowPts
  iapply (wp_load 𝒱₀ (c : Thread nD τ) none Set.univ (m := tblM) (own_row_load_sub c)) $$ Hown; iintro Hown
  iapply (wp_store 𝒱₀ (c : Thread nD τ) none Set.univ (m := tblM) (r := r1 c) (Mk := Finset.univ) (own_row_store_sub c)) $$ Hown; iintro Hown
  iapply (wp_done _ _ _ _)
  beta_reduce
  sl_exec
  -- the wait on the device's own barrier cell
  iapply (bar_wait m K c _ (mayWait_bar c 0)) $$ [HcB HO HatB]
  · isplitr; · iexact Hrec
    isplitr; · iexact Hlev
    isplitl [HcB]; · iexact HcB
    isplitl [HO] <;> iassumption
  iintro ⟨HO, Hdst⟩
  sl_exec
  -- the device's row holds its row of the gathered table; it is cut into the 31 transfers' shares
  generalize hw : k0_pay5 (F := F) _ _ _ _ _ = w
  have hw' : w = colMax (xblk m c) := by
    rw [← hw]
    unfold colMax
    sl_unfold_run_names
    rw [slab_readback_0, slab_readback_1, slab_readback_2, slab_readback_3, slab_readback_4, slab_readback_5,
      slab_readback_6, slab_readback_7]
    rfl
  ihave Hown := (Entails.of_eq (pointsTo_congr (own_row_written m c ft w hw'))) $$ Hown
  ihave Hsh := (own_shares m c) $$ Hown
  ihave HcS := (below0 (F := F) (fun j => cred (tallyAt (sendCell c j) () N)))
  send_all
  rw [owedArr_last]
  -- the 62 waits, each cell closed after its wait
  ihave HshB := (below0 (F := F) (fun j => rowPts c c (xferShare j) (tbl m)))
  ihave HzS := (below0 (F := F) (fun j => semVal (sendCell c j) 0))
  ihave Hland := (below0 (F := F) (fun j => rowPts c (bwd j c) fullShare (tbl m)))
  ihave HzV := (below0 (F := F) (fun j => semVal (recvCell c j) 0))
  waits_all
  -- the table whole again, every row at the gathered table's contents; its column maxima are the result
  rw [slotsBelow_last]
  ihave Hown := (row_shares_join c c (tbl m)) $$ HshB
  ihave Htb := (table_join m c) $$ [Hown Hland]
  · isplitl [Hown] <;> iassumption
  sl_exec
  rw [wp_ret]; imodintro
  iapply Hk
  unfold bodyPost Φ₁
  -- the block, the copy and the table whole again; the load semaphores back
  ihave Hx := (Entails.of_eq (src_slabs (F := F) c fullShare _).symm) $$ [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  ihave Hxv := (dst_join (F := F) c _ _ _ _ _ _ _ _) $$ [Hv0 Hv1 Hv2 Hv3 Hv4 Hv5 Hv6 Hv7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  ihave Htb := (Entails.of_eq (whole_pts (F := F) c cc0_scratch2 fullShare _).symm) $$ Htb
  ihave Hld := (Entails.of_eq (loads_list (F := F) c).symm) $$ [Hl0 Hl1 Hl2 Hl3 Hl4 Hl5 Hl6 Hl7]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  rw [out_final m g0]
  ihave Hout0 := (Entails.of_eq (whole_pts (F := F) c cc0_stg0_0 fullShare _).symm) $$ Hout0
  isplitl [Hx Hxv Htb Hld HzS HzV]
  · isplitl [Hx]; · iexact Hx
    isplitl [Hxv]; · iexact Hxv
    isplitl [Htb]; · iexact Htb
    isplitl [Hld]; · iexact Hld
    isplitl [HzS] <;> iassumption
  isplitl [HO]
  · iapply (owesAt_done m ρ c _); iexact HO
  iexists _
  isplitr; · (ipureintro; rfl)
  iexact Hout0

omit [FloatOps F] in
/-- A whole buffer owned at full share through its whole memref is the buffer held at contents equal to those. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ (bodyAt0 (F := F) t₀) (fun _ => bodyPost m ρ c)
  unfold Φ₀ start
  iintro ⟨⟨⟨⟨%K, Hg⟩, Hc1, Hc2, Hlev⟩, Hx, Hs0, Hs2, Hl⟩, Ho, Hout⟩
  iapply (sound_body m ρ K c fun _ => bodyPost m ρ c)
  unfold bodyPre
  isplitr []
  · isplitl [Hg Hc1 Hc2 Hlev]
    · isplitl [Hg]; · iexact Hg
      isplitl [Hc1]; · iexact Hc1
      isplitl [Hc2]; · iexact Hc2
      iexact Hlev
    isplitl [Hx]; · iexact Hx
    isplitl [Hs0]; · iexact Hs0
    isplitl [Hs2]; · iexact Hs2
    isplitl [Hl]; · iexact Hl
    isplitl [Ho]; · iexact Ho
    iexact Hout
  · iintro H; iexact H

end Cert.KernelProof

end
-- ==== Proof.Bits.Launch.lean ====
/- The launch of the kernel on the 32 devices: the kernel's own semaphores, the exchange's cells and duty
   tokens as the launch funds them, the invariants allocated for all devices at once and the tokens dealt round the
   circle to their payers, the launch credit each device waits with, the levels that order the waits, and the run. -/
import proofs.«900916_g7700000000000917_dist_max_ax0_shard0_i_m2048_n1024_v7x_i32_f32_1_alg».proof.Proof.Bits.Body
import proofs.«900916_g7700000000000917_dist_max_ax0_shard0_i_m2048_n1024_v7x_i32_f32_1_alg».proof.Proof.Bits.Levels
import proofs.«900916_g7700000000000917_dist_max_ax0_shard0_i_m2048_n1024_v7x_i32_f32_1_alg».proof.Proof.Gen.Kernel.Points

noncomputable section

namespace Cert.KernelProof

open Cert.Kernel Cert.Kernel.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families indexed by a sum of three types -/

omit [FloatOps F] in
theorem bigSep_sum3 {A B C : Type} [Fintype A] [Fintype B] [Fintype C] (Φ : A ⊕ (B ⊕ C) → sProp 𝕄) :
    bigSep Finset.univ Φ = iprop((bigSep Finset.univ fun a => Φ (.inl a)) ∗ (bigSep Finset.univ fun b => Φ (.inr (.inl b)))
      ∗ bigSep Finset.univ fun c => Φ (.inr (.inr c))) := by
  rw [bigSep_univ_sum, bigSep_univ_sum]; rfl

omit [FloatOps F] in
theorem bigSep_unit_sum3 {B C : Type} [Fintype B] [Fintype C] (Φ : Unit ⊕ (B ⊕ C) → sProp 𝕄) :
    bigSep Finset.univ Φ = iprop(Φ (.inl ()) ∗ (bigSep Finset.univ fun b => Φ (.inr (.inl b))) ∗ bigSep Finset.univ fun c => Φ (.inr (.inr c))) := by
  rw [bigSep_sum3, bigSep_univ_of_subsingleton ()]

/-! ## The kernel's own semaphores -/

/-- The kernel's own scoped semaphores: the 8 load, the 31 send and the 31 receive DMA semaphores. -/
abbrev OwnIx : Type := Fin 8 ⊕ (Fin 31 ⊕ Fin 31)
abbrev osem : OwnIx → SemLoc sig
  | .inl s => .dma (loadS s)
  | .inr (.inl k) => .dma (sendS k)
  | .inr (.inr k) => .dma (recvS k)

theorem ownSemFacts : Pipeline.OwnSemFacts cfg0.spec osem := by decide +kernel

omit [FloatOps F] in
/-- The own semaphores at zero: the load semaphores, the send cells and the receive cells. -/
theorem ownSems0_eq (c : Dev nD) : (Pipeline.ownSems0 (Ix := Unit) (Name := ℕ) (U := UU) (Lvl := ℕ) (Val := Elt F) (τ := τ) osem c : sProp 𝕄)
    = iprop(loadsZero c ∗ (bigSep Finset.univ fun k : Fin 31 => semVal (sendCell c k) 0) ∗ (bigSep Finset.univ fun k : Fin 31 => semVal (recvCell c k) 0)) := by
  unfold Pipeline.ownSems0 loadsZero
  rw [bigSep_sum3]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-! ## The exchange's cells and duty tokens -/

/-- A device's cells: its barrier cell, its 31 send cells, its 31 receive cells. -/
abbrev CellIx : Type := Unit ⊕ (Fin 31 ⊕ Fin 31)
abbrev csem : CellIx → SemLoc sig
  | .inl _ => .reg barS
  | .inr (.inl k) => .dma (sendS k)
  | .inr (.inr k) => .dma (recvS k)
abbrev kcell (ck : Dev nD × CellIx) : GSem nD τ sig := ((ck.1 : Thread nD τ), csem ck.2)

theorem csem_injective : Function.Injective csem := by decide +kernel
theorem kcell_injective : Function.Injective (kcell : Dev nD × CellIx → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def xCells : Finset (GSem nD τ sig) := Finset.univ.map ⟨kcell, kcell_injective⟩

/-- The duty tokens of a device's own cells as minted: the 31 duties of its barrier cell, the one duty of each send
    and of each receive cell. -/
abbrev TokIx : Type := Fin 31 ⊕ (Fin 31 ⊕ Fin 31)
abbrev tsem : TokIx → SemLoc sig × Fin 31
  | .inl k => (.reg barS, k)
  | .inr (.inl k) => (.dma (sendS k), 0)
  | .inr (.inr k) => (.dma (recvS k), 0)
abbrev tokOf (cj : Dev nD × TokIx) : GSem nD τ sig × ℕ × Fin 31 := (((cj.1 : Thread nD τ), (tsem cj.2).1), 0, (tsem cj.2).2)

theorem tsem_injective : Function.Injective tsem := by decide +kernel
theorem tokOf_injective : Function.Injective (tokOf : Dev nD × TokIx → GSem nD τ sig × ℕ × Fin 31) := by
  rintro ⟨c, j⟩ ⟨c', j'⟩ h
  have h1 : c = c' := congrArg (fun x : GSem nD τ sig × ℕ × Fin 31 => x.1.1.1) h
  subst h1
  have h2 : tsem j = tsem j' := Prod.ext (congrArg (fun x : GSem nD τ sig × ℕ × Fin 31 => x.1.2) h) (congrArg (fun x : GSem nD τ sig × ℕ × Fin 31 => x.2.2) h)
  rw [tsem_injective h2]
def xToks : Finset (GSem nD τ sig × ℕ × Fin 31) := Finset.univ.map ⟨tokOf, tokOf_injective⟩

/-- The launch element: the pipeline library's at the staging cell, the exchange's at its cells and tokens, no counter yet. -/
def u₀ : UU :=
  (initOf (Pipeline.cells cfgs cellOf_inj) (Pipeline.launchToks cfgs cellOf_inj), (initOf xCells xToks, 1))

/-- The duty tokens of device `c`'s own cells. -/
def toks (c : Dev nD) : sProp 𝕄 :=
  iprop((bigSep Finset.univ fun k : Fin 31 => dutyTok ER (barCell c) 0 k)
    ∗ (bigSep Finset.univ fun k : Fin 31 => dutyTok ER (sendCell c k) 0 0)
    ∗ (bigSep Finset.univ fun k : Fin 31 => dutyTok ER (recvCell c k) 0 0))

/-- What the launch element deals device `c`: the round state, position and reached-mark of each of its 63 cells, and
    the tokens of its own cells' duties. -/
def G (c : Dev nD) : sProp 𝕄 :=
  iprop((bigSep Finset.univ fun k : CellIx => roundState ER (xchg m) (kcell (c, k)) 0)
    ∗ (bigSep Finset.univ fun k : CellIx => iprop(atPos ER (kcell (c, k)) 0 ∅ 0 ∗ reached ER (kcell (c, k)) 0)) ∗ toks c)

/-- What the global step makes of it: the ghost state at some names, and the load semaphores at zero kept aside. -/
def G' (c : Dev nD) : sProp 𝕄 := iprop((∃ K, ghost m K c) ∗ loadsZero c)

theorem fund_xchg : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : CellIx => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_sum3]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the circle -/

omit [FloatOps F] in
/-- The semaphores at zero a device brings: the load semaphores, and the counter of each of its 63 cells. -/
theorem sems0_eq (c : Dev nD) :
    iprop(Pipeline.ownSems0 (Ix := Unit) (Name := ℕ) (U := UU) (Lvl := ℕ) (Val := Elt F) (τ := τ) osem c ∗ unscopedSems0 c)
      ⊢ (iprop(loadsZero c ∗ bigSep Finset.univ fun k : CellIx => semVal (kcell (c, k)) 0) : sProp 𝕄) := by
  rw [ownSems0_eq, unscopedSems0_eq, bigSep_unit_sum3]
  iintro ⟨⟨HL, HS, HV⟩, HB⟩
  isplitl [HL]; · iexact HL
  isplitl [HB]; · iexact HB
  isplitl [HS] <;> iassumption

/-- Each of a device's cells gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (xchg m) κ (kcell (c, k))))
          ∗ (bigSep Finset.univ fun k : CellIx => iprop(atPos ER (kcell (c, k)) 0 ∅ 0 ∗ reached ER (kcell (c, k)) 0)) ∗ toks c ∗ loadsZero c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CellIx => semVal (kcell (c, k)) 0) ∗ bigSep Finset.univ fun k : CellIx => roundState ER (xchg m) (kcell (c, k)) 0)
      ⊢ (|={Set.univ}=> bigSep Finset.univ fun k : CellIx => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-- The names read off one choice per cell. -/
def namesOf (K' : Dev nD × CellIx → ℕ) : Names :=
  ⟨fun c => K' (c, .inl ()), fun c k => K' (c, .inr (.inl k)), fun c k => K' (c, .inr (.inr k))⟩

/-- The records from every cell's invariant and reached-mark, cell kind by cell kind. -/
theorem records_intro (K' : Dev nD × CellIx → ℕ) :
    iprop((bigSep Finset.univ fun ck : Dev nD × CellIx => cellInv ER (xchg m) (K' ck) (kcell ck)) ∗ (bigSep Finset.univ fun ck : Dev nD × CellIx => reached ER (kcell ck) 0))
      ⊢ records m (namesOf K') := by
  unfold records
  rw [← bigSep_sep', bigSep_univ_prod (fun ck : Dev nD × CellIx => iprop(cellInv ER (xchg m) (K' ck) (kcell ck) ∗ reached ER (kcell ck) 0)),
    bigSep_univ_prod (fun ck : Dev nD × Fin 31 => iprop(cellInv ER (xchg m) ((namesOf K').send ck.1 ck.2) (sendCell ck.1 ck.2) ∗ reached ER (sendCell ck.1 ck.2) 0)),
    bigSep_univ_prod (fun ck : Dev nD × Fin 31 => iprop(cellInv ER (xchg m) ((namesOf K').recv ck.1 ck.2) (recvCell ck.1 ck.2) ∗ reached ER (recvCell ck.1 ck.2) 0)),
    ← bigSep_sep', ← bigSep_sep']
  exact Entails.of_eq (bigSep_congr fun c _ => by rw [bigSep_unit_sum3]; rfl)

omit [FloatOps F] in
/-- A family indexed by (device, slot), summed over both, may be read at the slot's partner instead of the device:
    for each slot, going round the circle by that slot's distance permutes the devices. -/
theorem deal (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (fwd k c) k :=
  (bigSep_univ_comm Φ).trans ((bigSep_congr fun k _ => bigSep_univ_equiv (shift k) (fun c => Φ c k)).trans
    (bigSep_univ_comm (fun (k : Fin 31) (c : Dev nD) => Φ (fwd k c) k)))

/-- The tokens a device pays with: duty `k` of its `k`-th partner's barrier cell, the duty of that partner's `k`-th
    receive cell, the duty of its own `k`-th send cell. -/
def payToks (c : Dev nD) : sProp 𝕄 :=
  iprop((bigSep Finset.univ fun k : Fin 31 => dutyTok ER (barCell (fwd k c)) 0 k)
    ∗ (bigSep Finset.univ fun k : Fin 31 => dutyTok ER (recvCell (fwd k c) k) 0 0)
    ∗ (bigSep Finset.univ fun k : Fin 31 => dutyTok ER (sendCell c k) 0 0))

omit [FloatOps F] in
/-- The tokens dealt round: each barrier and receive token from the cell's owner to the duty's payer; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun c k => (dutyTok ER (barCell c) 0 k : sProp 𝕄)), deal (fun c k => (dutyTok ER (recvCell c k) 0 0 : sProp 𝕄))]
  iintro ⟨H1, H2, H3⟩
  isplitl [H1]; · iexact H1
  isplitl [H3]; · iexact H3
  iexact H2

/-- What stays with device `c`: its positions at its 63 cells, and the tokens it pays with. -/
def linear (c : Dev nD) : sProp 𝕄 :=
  iprop((atPos ER (barCell c) 0 ∅ 0 ∗ (bigSep Finset.univ fun k : Fin 31 => atPos ER (sendCell c k) 0 ∅ 0) ∗ (bigSep Finset.univ fun k : Fin 31 => atPos ER (recvCell c k) 0 ∅ 0))
    ∗ payToks c)

omit [FloatOps F] in
theorem linear_intro (c : Dev nD) :
    iprop(((bigSep Finset.univ fun k : CellIx => (atPos ER (kcell (c, k)) 0 ∅ 0 : sProp 𝕄)) ∗ payToks c) ∗ loadsZero c) ⊢ iprop(linear c ∗ loadsZero c) := by
  unfold linear; rw [bigSep_unit_sum3]

theorem ghost_intro (K : Names) (c : Dev nD) : iprop(records m K ∗ linear c ∗ loadsZero c) ⊢ G' m c := by
  unfold linear payToks G'
  iintro ⟨HR, ⟨⟨Ha, Hs, Hr⟩, Ht1, Ht2, Ht3⟩, HZ⟩
  isplitr [HZ]
  · iexists K; unfold ghost
    isplitl [HR]; · iexact HR
    isplitl [Ha]; · iexact Ha
    isplitl [Hs]; · iexact Hs
    isplitl [Hr]; · iexact Hr
    isplitl [Ht1]; · iexact Ht1
    isplitl [Ht2]; · iexact Ht2
    iexact Ht3
  · iexact HZ

omit [FloatOps F] in
/-- A persistent assertion is there for every member of a family. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (xchg m) κ (kcell (c, k))))
          ∗ (bigSep Finset.univ fun k : CellIx => iprop(atPos ER (kcell (c, k)) 0 ∅ 0 ∗ reached ER (kcell (c, k)) 0)) ∗ toks c ∗ loadsZero c) : sProp 𝕄)
      ⊢ bigSep Finset.univ (G' m) := by
  rw [bigSep_sep', bigSep_sep', bigSep_sep', ← bigSep_univ_prod (fun ck : Dev nD × CellIx => iprop(∃ κ : ℕ, cellInv ER (xchg m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok, HZ⟩
  ihave HK := (BI.bigSep_exists_pi Finset.univ (fun (ck : Dev nD × CellIx) (κ : ℕ) => (cellInv ER (xchg m) κ (kcell ck) : sProp 𝕄))) $$ HI
  icases HK with ⟨%K', #HI⟩
  ihave Htk := (toks_around (F := F)) $$ Htok
  iapply (bigSep_under_persistent (R := records m (namesOf K')) fun c _ => ghost_intro m (namesOf K') c)
  isplitr
  · iapply (records_intro m K'); isplitl; · iexact HI
    iexact HR
  · iapply (show iprop(((bigSep Finset.univ fun c : Dev nD => bigSep Finset.univ fun k : CellIx => (atPos ER (kcell (c, k)) 0 ∅ 0 : sProp 𝕄)) ∗ bigSep Finset.univ fun c : Dev nD => payToks c)
        ∗ bigSep Finset.univ fun c : Dev nD => loadsZero c) ⊢ (bigSep Finset.univ fun c : Dev nD => iprop(linear c ∗ loadsZero c) : sProp 𝕄) from by
      rw [← bigSep_sep', ← bigSep_sep']
      exact bigSep_mono fun c _ => linear_intro c)
    isplitr [HZ]
    · isplitl [Hat]; · iexact Hat
      iexact Htk
    · iexact HZ

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- So many one-unit tallies at a cell are one tally of so many units. -/
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- The launch deals device `c` the credit of its own waits: each slot's signals, sent one partner on, come back to every
    device's barrier cell once, 31 units in all; slot `k`'s arrivals come to its `k`-th receive cell. -/
theorem creds (c : Dev nD) :
    (Pipeline.launchCred O₀ c : sProp 𝕄) ⊢ iprop(cred (tallyAt (barCell c) () 31) ∗ bigSep Finset.univ fun k : Fin 31 => cred (tallyAt (recvCell c k) () N)) := by
  show (Pipeline.launchCred (fun d : Dev nD => (∑ j ∈ slotsFrom 0, tallyAt (barCell (fwd j d)) () 1) + ∑ j ∈ slotsFrom 0, tallyAt (recvCell (fwd j d) j) () N) c : sProp 𝕄) ⊢ _
  rw [Pipeline.launchCred_add, Pipeline.launchCred_sum, Pipeline.launchCred_sum, slotsFrom_zero]
  refine (sep_mono_left ?_).trans (sep_mono_right ?_)
  · refine (bigSep_mono fun j _ => Pipeline.launchCred_tallyAt (.reg barS) (fwd j) (bwd j) (fwd_bwd j) (bwd_fwd j) () 1 c).trans ?_
    rw [← Pipeline.cred_finsetSum, Finset.sum_const, Finset.card_univ, Fintype.card_fin, nsmul_tallyAt]
    exact BI.Entails.refl _
  · exact bigSep_mono fun j _ => Pipeline.launchCred_tallyAt (.dma (recvS j)) (fwd j) (bwd j) (fwd_bwd j) (bwd_fwd j) () N c

/-! ## The levels -/

/-- The staging cell sits at level 0, below everything a device owes at launch; after the one point it owes nothing. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact highDues_launch c
      · exact highDues_zero)

/-! ## The theorem's side conditions -/

theorem share_eq (c : Dev nD) (w : Fin cfg0.W) : (dats m ρ 0 c).share w = fullShare := by unfold Dat.share; split <;> rfl

/-- What a device's body starts from beside the scoped buffers: the start, its block of the input, the load semaphores at zero. -/
def X (c : Dev nD) : sProp 𝕄 :=
  iprop(start m c ∗ (((c : Thread nD τ).loc main_arg0) ↦{fullShare} xblk m c) ∗ loadsZero c)
/-- What it hands back at the end: its block of the input. -/
abbrev Y (c : Dev nD) : sProp 𝕄 := (((c : Thread nD τ).loc main_arg0) ↦{fullShare} xblk m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' X start
  iintro ⟨Hx, Hlev, Hcr, -, HK, HZ⟩
  ihave Hc := (creds (F := F) c) $$ Hcr
  icases Hc with ⟨H1, HN⟩
  imodintro
  isplitl
  · isplitl [HK H1 HN Hlev]
    · isplitl [HK]; · iexact HK
      isplitl [H1]; · iexact H1
      isplitl [HN]; · iexact HN
      iexact Hlev
    isplitl [Hx]; · iexact Hx
    iexact HZ
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨Hs, Hx, HZ⟩, -, Hs0, Hs2⟩
  isplitl [Hs]; · iexact Hs
  isplitl [Hx]; · iexact Hx
  isplitl [Hs0]; · iexact Hs0
  isplitl [Hs2]; · iexact Hs2
  iexact HZ

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hx, Hs0, Hs2, HZ, HS, HV⟩
  isplitl [Hx]; · iexact Hx
  isplitl [HZ HS HV]
  · isplitl [HZ]; · iexact HZ
    isplitl [HS] <;> iassumption
  isplitl [Hs0]; · iexact Hs0
  iexists (tbl m); iexact Hs2

attribute [local irreducible] outAt in
/-- What the body leaves in the result window's staging buffer at the one point: the proof data stores the result there
    as it is named, so the equation needs nothing of the column maximum itself. -/
theorem after_eq (c : Dev nD) : (dats m ρ 0 c).after (0 : Fin 1) t₀ = outAt m := rfl

/-- What the one point writes back: all of it (the window is uncut). -/
theorem flushed_eq (c : Dev nD) : (dats m ρ 0 c).flushed (0 : Fin 1) t₀ = outAt m := by
  funext j
  show (dats m ρ 0 c).after (0 : Fin 1) t₀ ((cfg0.win (0 : Fin 1)).xinj (cfg0.grid.coords t₀) j) = outAt m j
  rw [after_eq]

/-- The result window's array after the one point: the body's result. -/
theorem arrAt_out (c : Dev nD) : (dats m ρ 0 c).arrAt (0 : Fin 1) cfg0.N = outAt m := by
  -- the window's one block is the whole array at block index 0: reading it reads the array
  have hz : (fun a => ((cfg0.win (0 : Fin 1)).index t₀) a * (main_v1 : Ref sig .tc).ty.shape.size a) = fun _ => 0 :=
    funext fun a => by fin_cases a <;> rfl
  have hr := fun f => Memref.read_access_unit_zero (Elt F) main_v1 hz (fun a => by fin_cases a <;> decide) f
  have h1 : (dats m ρ 0 c).arrAt (0 : Fin 1) cfg0.N = (dats m ρ 0 c).arrAt (0 : Fin 1) ((t₀ : Fin cfg0.N).val + 1) := rfl
  rw [h1, Dat.arrAt_succ, if_pos (flush0_0 t₀)]
  have e1 := View.read_write_univ (Val := Elt F) (v := ((cfg0.win (0 : Fin 1)).blk t₀).view) ((dats m ρ 0 c).arrAt (0 : Fin 1) (t₀ : Fin cfg0.N).val) ((dats m ρ 0 c).flushed (0 : Fin 1) t₀)
  exact ((hr _).symm.trans e1).trans (flushed_eq m ρ c)

/-! ## The run -/

set_option maxRecDepth 32000 in
/-- At the compiled mesh of 32 devices, for any float values, from any memory with zero counters: every weakly fair
    execution of @main terminates, and every final state has each device's result array at the column maxima of the
    gathered table and its block of the input unchanged. -/
theorem run_main : θ_run defs (onTc (τ := τ) (main (F := F))) ⟨m, fun _ => 0, ρ⟩ (fun r => ∀ c : Dev nD,
    r.2.mem ((c.tc : Thread nD τ).loc main_v1) = outAt m ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HB⟩
      ihave H2 := (own_pair_emb embR _ _) $$ HB
      icases H2 with ⟨HX, -⟩
      imod (fund_xchg m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m ρ) (hout := phi1_exit m ρ)
    (QY := fun c mem => mem.mem ((c : Thread nD τ).loc main_arg0) = m ((c : Thread nD τ).loc main_arg0))
    (hY := fun c s' => by
      iintro ⟨Hx, -, HSI⟩
      icombine HSI Hx gives %hx
      imodintro
      isplitr; · ipureintro; exact Buf.eq_of_forall_mem_univ hx
      iexact HSI)
    (hQ := fun s h c => ⟨((h c).1 0).trans (arrAt_out m ρ c), (h c).2.2⟩)

/-- info: 'Cert.KernelProof.run_main' depends on axioms: [propext, Classical.choice, Quot.sound] -/
#guard_msgs in #print axioms run_main

end Cert.KernelProof

end
-- ==== Proof.MaxValue.lean ====
/- The value computed on the 32 devices is the reference's. Both are, at every column, the supremum of that column of
   the whole 65536 × 1024 array over the extended reals: a maximum taken from minus infinity, the bottom element, is a
   supremum, and a supremum over a range of rows is the supremum of the suprema over consecutive runs of it (256 rows
   of a slab in the 2048 of a block, the 2048 of a block in the 65536 of the array). No entry needs to be finite. -/
import proofs.«900916_g7700000000000917_dist_max_ax0_shard0_i_m2048_n1024_v7x_i32_f32_1_alg».proof.Proof.Ideal.Contents
import proofs.«900916_g7700000000000917_dist_max_ax0_shard0_i_m2048_n1024_v7x_i32_f32_1_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.Layout

noncomputable section

namespace Cert.MaxValue

open Idealize.ShloMosaic Idealize.ShloMosaic.ValueIdx
open Cert.KernelIdeal Cert.KernelIdeal.Gen Cert.KernelIdealProof

/-! ## Suprema of extended reals -/

/-- The word of minus infinity denotes the bottom element. -/
theorem ofBits_negInf : Ideal.ofBits .f32 0xFF800000#32 = (⊥ : EReal) := by
  simp [Ideal.ofBits, Ideal.ieee]

/-- A fold of the maximum from the bottom element is the supremum. -/
theorem fold_max_eq_sup {n : Nat} (f : Fin n → EReal) :
    (Finset.univ : Finset (Fin n)).fold max (⊥ : EReal) f = Finset.univ.sup f := rfl

/-- A supremum over a range of `a * b` naturals, split into `a` consecutive runs of length `b`. -/
theorem sup_fin_mul {α : Type} [SemilatticeSup α] [OrderBot α] (n a b : ℕ) (hn : n = a * b) (g : ℕ → α) :
    (Finset.univ : Finset (Fin n)).sup (fun k => g k.val)
      = (Finset.univ : Finset (Fin a)).sup fun j => (Finset.univ : Finset (Fin b)).sup fun r => g (j.val * b + r.val) := by
  subst hn
  apply le_antisymm
  · refine Finset.sup_le fun k _ => ?_
    have hb : 0 < b := by
      rcases Nat.eq_zero_or_pos b with h | h
      · subst h; exact absurd k.isLt (by simp)
      · exact h
    have hj : k.val / b < a := Nat.div_lt_of_lt_mul (lt_of_lt_of_eq k.isLt (Nat.mul_comm a b))
    have hr : k.val % b < b := Nat.mod_lt _ hb
    have e : g k.val = g ((⟨k.val / b, hj⟩ : Fin a).val * b + (⟨k.val % b, hr⟩ : Fin b).val) := by
      show g k.val = g (k.val / b * b + k.val % b)
      rw [Nat.div_add_mod']
    rw [e]
    exact le_trans (Finset.le_sup (f := fun r : Fin b => g ((⟨k.val / b, hj⟩ : Fin a).val * b + r.val)) (Finset.mem_univ _))
      (Finset.le_sup (f := fun j : Fin a => (Finset.univ : Finset (Fin b)).sup fun r => g (j.val * b + r.val)) (Finset.mem_univ _))
  · refine Finset.sup_le fun j _ => Finset.sup_le fun r _ => ?_
    have hk : j.val * b + r.val < a * b := by
      calc j.val * b + r.val < j.val * b + b := Nat.add_lt_add_left r.isLt _
        _ = (j.val + 1) * b := (Nat.succ_mul _ _).symm
        _ ≤ a * b := Nat.mul_le_mul_right _ j.isLt
    exact Finset.le_sup (f := fun k : Fin (a * b) => g k.val) (Finset.mem_univ (⟨j.val * b + r.val, hk⟩ : Fin (a * b)))

/-- Eight values joined by repeated maxima from the left: their supremum. -/
theorem max8_eq_sup (f : Fin 8 → EReal) :
    max (max (max (max (max (max (max (f 0) (f 1)) (f 2)) (f 3)) (f 4)) (f 5)) (f 6)) (f 7) = Finset.univ.sup f := by
  apply le_antisymm
  · refine max_le (max_le (max_le (max_le (max_le (max_le (max_le ?_ ?_) ?_) ?_) ?_) ?_) ?_) ?_ <;>
      exact Finset.le_sup (f := f) (Finset.mem_univ _)
  · refine Finset.sup_le fun s _ => ?_
    fin_cases s <;> simp [le_max_iff]

/-- Column `c` of an array of `n` rows as a function of the row number, the bottom element past the last row. -/
def colFn {n : Nat} (v : FVec Ideal ⟨2, ![n, 1024]⟩ .f32) (c : Fin 1024) (k : ℕ) : EReal :=
  if h : k < n then v (ix2 ⟨k, h⟩ c) else ⊥

theorem colFn_of_lt {n : Nat} (v : FVec Ideal ⟨2, ![n, 1024]⟩ .f32) (c : Fin 1024) (k : ℕ) (h : k < n) :
    colFn v c k = v (ix2 ⟨k, h⟩ c) := dif_pos h

/-- The supremum of a column over the rows of the array is the supremum of that function over the row numbers. -/
theorem sup_col_eq {n : Nat} (v : FVec Ideal ⟨2, ![n, 1024]⟩ .f32) (c : Fin 1024) :
    ((Finset.univ : Finset (Fin n)).sup fun k => v (ix2 k c)) = (Finset.univ : Finset (Fin n)).sup fun k => colFn v c k.val :=
  Finset.sup_congr rfl fun k _ => (colFn_of_lt v c k.val k.isLt).symm

/-! ## A maximum over the rows, read at a column -/

/-- Column `t` of the reduced row with row `k` put back is the entry `(k, t)`. -/
theorem lift_rows {m : Nat} (h : (⟨2, ![m, 1024]⟩ : Shape).Reduces [0] (⟨1, ![1024]⟩ : Shape)) (t : Fin 1024)
    (k : Fin ((⟨2, ![m, 1024]⟩ : Shape).size 0)) : h.lift (ix1 t) k = ix2 (⟨k.val, k.isLt⟩ : Fin m) t := by
  funext c
  apply Fin.ext
  fin_cases c <;> rfl

/-- The maximum over the rows of an `m × 1024` array from minus infinity, at column `t`: the supremum of the column. -/
theorem rowsMax_apply {m : Nat} (v : FVec Ideal ⟨2, ![m, 1024]⟩ .f32)
    (h : (⟨2, ![m, 1024]⟩ : Shape).Reduces [0] (⟨1, ![1024]⟩ : Shape)) (t : Fin 1024) :
    multiReduction .maximumf [0] ⟨1, ![1024]⟩ v 0xFF800000#32 h (.inl rfl) rfl (ix1 t)
      = (Finset.univ : Finset (Fin m)).sup fun r => v (ix2 r t) := by
  refine (Ideal.multiReduction_maximumf_single v _ h (.inl rfl) rfl (ix1 t)).trans ?_
  have hf : (v ∘ h.lift (ix1 t)) = fun k : Fin m => v (ix2 k t) := funext fun k => congrArg v (lift_rows h t k)
  have e := fold_max_eq_sup (fun k : Fin m => v (ix2 k t))
  rw [← ofBits_negInf] at e
  refine Eq.trans ?_ e
  exact congrArg (fun f => Finset.fold max (Ideal.ofBits .f32 0xFF800000#32) f (Finset.univ : Finset (Fin m))) hf

/-- A row vector viewed as a `1 × 1024` array reads, at `(0, c)`, its entry `c`. -/
theorem rowCast_apply {α : Type} (v : (⟨1, ![1024]⟩ : Shape).Idx → α)
    (hc : (⟨1, ![1024]⟩ : Shape).ShapeCasts ⟨2, ![1, 1024]⟩) (c : Fin 1024) :
    shapeCast ⟨2, ![1, 1024]⟩ v hc (ix2 (0 : Fin 1) c) = v (ix1 c) := by
  refine shapeCast_apply v hc (ix2 (0 : Fin 1) c) (ix1 c) ?_
  rw [Shape.rowMajor_val_one, Shape.rowMajor_val_two]
  show c.val = 0 * 1024 + c.val
  omega

/-- The column maximum of an `m × 1024` array from minus infinity, viewed as a `1 × 1024` array. -/
theorem rowsMaxCast_apply {m : Nat} (v : FVec Ideal ⟨2, ![m, 1024]⟩ .f32)
    (h : (⟨2, ![m, 1024]⟩ : Shape).Reduces [0] (⟨1, ![1024]⟩ : Shape))
    (hc : (⟨1, ![1024]⟩ : Shape).ShapeCasts ⟨2, ![1, 1024]⟩) (c : Fin 1024) :
    shapeCast ⟨2, ![1, 1024]⟩ (multiReduction .maximumf [0] ⟨1, ![1024]⟩ v 0xFF800000#32 h (.inl rfl) rfl) hc (ix2 (0 : Fin 1) c)
      = (Finset.univ : Finset (Fin m)).sup fun r => v (ix2 r c) :=
  (rowCast_apply _ hc c).trans (rowsMax_apply v h c)

/-! ## The kernel's payloads at a column -/

/-- Slab `s` of a block reads rows `256 s …` of the block. -/
theorem slab_apply (s : Fin 8) (X : FVec Ideal S2048x1024 .f32) (r : Fin 256) (c : Fin 1024) :
    slab (F := Ideal) s X (ix2 r c)
      = X (ix2 (⟨256 * s.val + r.val, by have := s.isLt; have := r.isLt; omega⟩ : Fin 2048) c) := by
  show X _ = X _
  refine congrArg X (funext fun a => Fin.ext ?_)
  fin_cases a
  · show 256 * s.val + 1 * r.val = 256 * s.val + r.val
    omega
  · show 0 + 1 * c.val = c.val
    omega

/-- The supremum of column `c` of a slab-shaped array. -/
abbrev colSup (v : Vec Ideal S256x1024 .f32) (c : Fin 1024) : EReal :=
  (Finset.univ : Finset (Fin 256)).sup fun r => v (ix2 r c)

theorem pay1_apply (v : Vec Ideal S32x1024 .f32) (c : Fin 1024) :
    k0_pay1 (F := Ideal) v (ix2 (0 : Fin 1) c) = (Finset.univ : Finset (Fin 32)).sup fun j => v (ix2 j c) :=
  rowsMaxCast_apply v _ _ c

theorem pay2_apply (v : Vec Ideal S256x1024 .f32) (c : Fin 1024) :
    k0_pay2 (F := Ideal) v (ix2 (0 : Fin 1) c) = colSup v c :=
  rowsMaxCast_apply v _ _ c

theorem pay4_apply (v : Vec Ideal S256x1024 .f32) (c : Fin 1024) :
    k0_pay4 (F := Ideal) v (ix2 (0 : Fin 1) c) = colSup v c :=
  rowsMaxCast_apply v _ _ c

theorem pay3_unfold (a : FVec Ideal S1x1024 .f32) (v1 v2 v3 : Vec Ideal S256x1024 .f32) :
    k0_pay3 (F := Ideal) a v1 v2 v3
      = maximumf (maximumf (maximumf a (k0_pay2 (F := Ideal) v1)) (k0_pay2 (F := Ideal) v2)) (k0_pay2 (F := Ideal) v3) := rfl

theorem pay3_apply (a : FVec Ideal S1x1024 .f32) (v1 v2 v3 : Vec Ideal S256x1024 .f32) (c : Fin 1024) :
    k0_pay3 (F := Ideal) a v1 v2 v3 (ix2 (0 : Fin 1) c)
      = max (max (max (a (ix2 (0 : Fin 1) c)) (colSup v1 c)) (colSup v2 c)) (colSup v3 c) := by
  rw [pay3_unfold, maximumf_apply, maximumf_apply, maximumf_apply, pay2_apply, pay2_apply, pay2_apply]

theorem pay5_unfold (a b : FVec Ideal S1x1024 .f32) (v1 v2 v3 : Vec Ideal S256x1024 .f32) :
    k0_pay5 (F := Ideal) a b v1 v2 v3
      = shapeCast S1x1024 (maximumf (maximumf (maximumf (maximumf a b) (k0_pay2 (F := Ideal) v1)) (k0_pay2 (F := Ideal) v2)) (k0_pay2 (F := Ideal) v3))
          shapeCasts_S1x1024_S1x1024 := rfl

theorem pay5_apply (a b : FVec Ideal S1x1024 .f32) (v1 v2 v3 : Vec Ideal S256x1024 .f32) (c : Fin 1024) :
    k0_pay5 (F := Ideal) a b v1 v2 v3 (ix2 (0 : Fin 1) c)
      = max (max (max (max (a (ix2 (0 : Fin 1) c)) (b (ix2 (0 : Fin 1) c))) (colSup v1 c)) (colSup v2 c)) (colSup v3 c) := by
  rw [pay5_unfold, shapeCast_self, maximumf_apply, maximumf_apply, maximumf_apply, maximumf_apply,
    pay2_apply, pay2_apply, pay2_apply]

/-- The column maxima of a block, as the body accumulates them slab by slab: the supremum of each column of the block. -/
theorem colMax_apply (X : FVec Ideal S2048x1024 .f32) (c : Fin 1024) :
    colMax (F := Ideal) X (ix2 (0 : Fin 1) c) = (Finset.univ : Finset (Fin 2048)).sup fun k => X (ix2 k c) := by
  have hs : ∀ s : Fin 8, colSup (slab (F := Ideal) s X) c
      = (Finset.univ : Finset (Fin 256)).sup fun r => colFn X c (s.val * 256 + r.val) := by
    intro s
    refine Finset.sup_congr rfl fun r _ => ?_
    have hlt : s.val * 256 + r.val < 2048 := by have := s.isLt; have := r.isLt; omega
    rw [slab_apply, colFn_of_lt X c _ hlt]
    exact congrArg (fun k : Fin 2048 => X (ix2 k c)) (Fin.ext (by show 256 * s.val + r.val = s.val * 256 + r.val; omega))
  unfold colMax
  rw [pay5_apply, pay3_apply, pay2_apply, pay4_apply]
  calc _ = (Finset.univ : Finset (Fin 8)).sup fun s => colSup (slab (F := Ideal) s X) c :=
        max8_eq_sup (fun s => colSup (slab (F := Ideal) s X) c)
    _ = (Finset.univ : Finset (Fin 8)).sup fun s => (Finset.univ : Finset (Fin 256)).sup fun r => colFn X c (s.val * 256 + r.val) :=
        Finset.sup_congr rfl fun s _ => hs s
    _ = (Finset.univ : Finset (Fin 2048)).sup fun k => colFn X c k.val := (sup_fin_mul 2048 8 256 rfl (colFn X c)).symm
    _ = _ := (sup_col_eq X c).symm

/-! ## The gathered table and the result -/

/-- The result at a column: the supremum, over the devices, of the suprema of their blocks' columns. -/
theorem result_apply (xb : Dev nD → FVec Ideal S2048x1024 .f32) (c : Fin 1024) :
    result (F := Ideal) xb (ix2 (0 : Fin 1) c)
      = (Finset.univ : Finset (Fin 32)).sup fun j => (Finset.univ : Finset (Fin 2048)).sup fun r => xb j (ix2 r c) := by
  unfold result
  rw [pay1_apply]
  refine Finset.sup_congr rfl fun j _ => ?_
  show colMax (F := Ideal) (xb j) (ix2 (0 : Fin 1) c) = _
  rw [colMax_apply]

/-- Row `r` of block `j` of the whole array is its row `2048 j + r`. -/
theorem block_apply (X : FVec Ideal ⟨2, ![65536, 1024]⟩ .f32) (j : Fin 32) (r : Fin 2048) (c : Fin 1024) :
    (Layout.block ⟨2, ![2048, 1024]⟩ ⟨2, ![65536, 1024]⟩ 0 32 j X) (ix2 r c)
      = X (ix2 (⟨j.val * 2048 + r.val, by have := j.isLt; have := r.isLt; omega⟩ : Fin 65536) c) := by
  show X _ = X _
  refine congrArg X (funext fun a => Fin.ext ?_)
  fin_cases a <;> rfl

/-! ## The reference at a column -/

/-- The reference's result at a column: the supremum of the whole array's column. -/
theorem reference_apply (X : FVec Ideal ⟨2, ![65536, 1024]⟩ .f32) (c : Fin 1024) :
    Cert.ReferenceIdeal.Read.val_main_v1 (F := Ideal) X (ix2 (0 : Fin 1) c)
      = (Finset.univ : Finset (Fin 65536)).sup fun k => X (ix2 k c) := by
  rw [Cert.ReferenceIdeal.Read.val_main_v1_apply]
  have hidx : Cert.ReferenceIdeal.Read.idx_main_v1 (ix2 (0 : Fin 1) c) = ix1 c := by
    funext a
    match a with
    | ⟨0, _⟩ => rfl
  rw [hidx]
  have h : (⟨2, ![65536, 1024]⟩ : Shape).Reduces [0] (⟨1, ![1024]⟩ : Shape) := by decide
  unfold Cert.ReferenceIdeal.Read.val_main_v0
  refine (Host.reduce_eq_fold_single FloatOps.maximumf X _ _ h _ (ix1 c)).trans ?_
  have hf : (X ∘ h.lift (ix1 c)) = fun k : Fin 65536 => X (ix2 k c) := funext fun k => congrArg X (lift_rows h c k)
  have e := fold_max_eq_sup (fun k : Fin 65536 => X (ix2 k c))
  rw [← ofBits_negInf] at e
  refine Eq.trans ?_ e
  exact congrArg (fun f => Finset.fold max (Ideal.ofBits .f32 0xFF800000#32) f (Finset.univ : Finset (Fin 65536))) hf

/-! ## The kernel's result is the reference's -/

theorem result_eq_reference (X : (⟨Cert.ReferenceIdeal.S65536x1024, .f32⟩ : BufTy).Contents (Elt Ideal)) :
    Cert.KernelIdealProof.result (F := Ideal) (fun j => Layout.block ⟨2, ![2048, 1024]⟩ ⟨2, ![65536, 1024]⟩ 0 32 j X)
      = Cert.ReferenceIdeal.Read.val_main_v1 (F := Ideal) X := by
  funext y
  obtain ⟨c, rfl⟩ : ∃ c : Fin 1024, y = ix2 (0 : Fin 1) c := by
    refine ⟨y 1, funext fun a => ?_⟩
    match a with
    | ⟨0, _⟩ => exact Subsingleton.elim (α := Fin 1) _ _
    | ⟨1, _⟩ => rfl
  have hb : ∀ (j : Fin 32) (r : Fin 2048),
      (Layout.block ⟨2, ![2048, 1024]⟩ ⟨2, ![65536, 1024]⟩ 0 32 j X) (ix2 r c) = colFn (n := 65536) X c (j.val * 2048 + r.val) := by
    intro j r
    have hlt : j.val * 2048 + r.val < 65536 := by have := j.isLt; have := r.isLt; omega
    rw [block_apply, colFn_of_lt (n := 65536) X c _ hlt]
  calc _ = (Finset.univ : Finset (Fin 32)).sup fun j => (Finset.univ : Finset (Fin 2048)).sup fun r =>
          (Layout.block ⟨2, ![2048, 1024]⟩ ⟨2, ![65536, 1024]⟩ 0 32 j X) (ix2 r c) :=
        result_apply (fun j => Layout.block ⟨2, ![2048, 1024]⟩ ⟨2, ![65536, 1024]⟩ 0 32 j X) c
    _ = (Finset.univ : Finset (Fin 32)).sup fun j => (Finset.univ : Finset (Fin 2048)).sup fun r =>
          colFn (n := 65536) X c (j.val * 2048 + r.val) :=
        Finset.sup_congr rfl fun j _ => Finset.sup_congr rfl fun r _ => hb j r
    _ = (Finset.univ : Finset (Fin 65536)).sup fun k => colFn (n := 65536) X c k.val :=
        (sup_fin_mul 65536 32 2048 (by norm_num) (colFn (n := 65536) X c)).symm
    _ = (Finset.univ : Finset (Fin 65536)).sup fun k => X (ix2 k c) := (sup_col_eq (n := 65536) X c).symm
    _ = _ := (reference_apply X c).symm

/-- info: 'Cert.MaxValue.result_eq_reference' depends on axioms: [propext, Classical.choice, Quot.sound] -/
#guard_msgs in #print axioms result_eq_reference

end Cert.MaxValue

end
-- ==== Proof.lean ====
/- The claim: on 32 devices, each holding a block of 2048 rows, the kernel leaves on every device the column
   maxima of the whole 65536 × 1024 array, which is what the reference computes on one device; all three programs run and
   leave their arguments unchanged. Over the extended reals a maximum from minus infinity is a supremum, and the supremum
   of a column is the supremum of the suprema of its parts. -/
import proofs.«900916_g7700000000000917_dist_max_ax0_shard0_i_m2048_n1024_v7x_i32_f32_1_alg».proof.Defs
import proofs.«900916_g7700000000000917_dist_max_ax0_shard0_i_m2048_n1024_v7x_i32_f32_1_alg».proof.Proof.Gen.Kernel
import proofs.«900916_g7700000000000917_dist_max_ax0_shard0_i_m2048_n1024_v7x_i32_f32_1_alg».proof.Proof.Gen.Kernel.Skeleton
import proofs.«900916_g7700000000000917_dist_max_ax0_shard0_i_m2048_n1024_v7x_i32_f32_1_alg».proof.Proof.Gen.Kernel.Launch
import proofs.«900916_g7700000000000917_dist_max_ax0_shard0_i_m2048_n1024_v7x_i32_f32_1_alg».proof.Proof.Gen.Kernel.Points
import proofs.«900916_g7700000000000917_dist_max_ax0_shard0_i_m2048_n1024_v7x_i32_f32_1_alg».proof.Proof.Gen.Kernel.Frame
import proofs.«900916_g7700000000000917_dist_max_ax0_shard0_i_m2048_n1024_v7x_i32_f32_1_alg».proof.Proof.Gen.KernelIdeal
import proofs.«900916_g7700000000000917_dist_max_ax0_shard0_i_m2048_n1024_v7x_i32_f32_1_alg».proof.Proof.Gen.KernelIdeal.Skeleton
import proofs.«900916_g7700000000000917_dist_max_ax0_shard0_i_m2048_n1024_v7x_i32_f32_1_alg».proof.Proof.Gen.KernelIdeal.Launch
import proofs.«900916_g7700000000000917_dist_max_ax0_shard0_i_m2048_n1024_v7x_i32_f32_1_alg».proof.Proof.Gen.KernelIdeal.Points
import proofs.«900916_g7700000000000917_dist_max_ax0_shard0_i_m2048_n1024_v7x_i32_f32_1_alg».proof.Proof.Gen.KernelIdeal.Frame
import proofs.«900916_g7700000000000917_dist_max_ax0_shard0_i_m2048_n1024_v7x_i32_f32_1_alg».proof.Proof.Gen.ReferenceIdeal
import proofs.«900916_g7700000000000917_dist_max_ax0_shard0_i_m2048_n1024_v7x_i32_f32_1_alg».proof.Proof.Gen.ReferenceIdeal.Run
import proofs.«900916_g7700000000000917_dist_max_ax0_shard0_i_m2048_n1024_v7x_i32_f32_1_alg».proof.Proof.Gen.ReferenceIdeal.Read
import proofs.«900916_g7700000000000917_dist_max_ax0_shard0_i_m2048_n1024_v7x_i32_f32_1_alg».proof.Proof.Gen.Pre_finite_inputs_Kernel
import proofs.«900916_g7700000000000917_dist_max_ax0_shard0_i_m2048_n1024_v7x_i32_f32_1_alg».proof.Proof.Gen.Pre_finite_inputs_ReferenceIdeal
import proofs.«900916_g7700000000000917_dist_max_ax0_shard0_i_m2048_n1024_v7x_i32_f32_1_alg».proof.Proof.Ideal.Launch
import proofs.«900916_g7700000000000917_dist_max_ax0_shard0_i_m2048_n1024_v7x_i32_f32_1_alg».proof.Proof.Bits.Launch
import proofs.«900916_g7700000000000917_dist_max_ax0_shard0_i_m2048_n1024_v7x_i32_f32_1_alg».proof.Proof.MaxValue
import Idealize.ShloMosaic.Adequacy
import Idealize.ShloMosaic.Init

noncomputable section

namespace Cert.Proof

open Idealize.ShloMosaic Idealize.ShloMosaic.TcCoe Idealize.SL.Sem

/-! ## The frames: each program's run with the value dropped -/

theorem frame_kernel : Cert.frame_Kernel := fun m g _ =>
  (θ_run Cert.Kernel.defs _ _).mono (fun _ h c => (h c).2) (Cert.KernelProof.run_main (F := Bits) m g)

theorem frame_kernelIdeal : Cert.frame_KernelIdeal := fun m g _ =>
  (θ_run Cert.KernelIdeal.defs _ _).mono (fun _ h c => (h c).2) (Cert.KernelIdealProof.run_main (F := Ideal) m g)

theorem frame_referenceIdeal : Cert.frame_ReferenceIdeal := fun m g _ =>
  (θ_run Cert.ReferenceIdeal.defs _ _).mono (fun _ h c => (h c).2) (Cert.ReferenceIdeal.Value.run (F := Ideal) m g)

theorem preserves : Cert.preserves_Kernel_KernelIdeal := trivial

/-! ## The value: every device's result is the reference's -/

/-- Over the extended reals every device ends with the column maxima of the whole array, which is what the reference
    ends with: each device's argument is its block of the whole array, the kernel's result is the column maxima of the
    table gathered from the blocks, and that is the column maxima of the whole. -/
theorem algebraic : Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdealProof.run_main (F := Ideal) m g)
    have hx : (fun j : Dev Cert.KernelIdeal.nD =>
          m ((j.tc : Thread Cert.KernelIdeal.nD Cert.KernelIdeal.τ).loc Cert.KernelIdeal.main_arg0))
        = fun j => Layout.block ⟨2, ![2048, 1024]⟩ ⟨2, ![65536, 1024]⟩ 0 32 j
            (m' (((0 : Dev Cert.ReferenceIdeal.nD).tc : Thread Cert.ReferenceIdeal.nD Cert.ReferenceIdeal.τ).loc Cert.ReferenceIdeal.main_arg0)) :=
      funext hblk
    show Cert.KernelIdealProof.result (F := Ideal) (fun j : Dev Cert.KernelIdeal.nD =>
      m ((j.tc : Thread Cert.KernelIdeal.nD Cert.KernelIdeal.τ).loc Cert.KernelIdeal.main_arg0)) = _
    rw [hx]
    exact Cert.MaxValue.result_eq_reference _
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_referenceIdeal, preserves, algebraic⟩

end Cert.Proof

end
